-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v95)) (v1 : (c : Dev Cert.KernelIdeal.nD) → Buf (Elt Ideal) ((c.tc : Thread Cert.KernelIdeal.nD Cert.KernelIdeal.τ).loc Cert.KernelIdeal.main_arg10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100x128 : Shape := ⟨2, ![100, 128]⟩
abbrev S3x4x128 : Shape := ⟨3, ![3, 4, 128]⟩
abbrev S3x128 : Shape := ⟨2, ![3, 128]⟩
abbrev S3x128x128 : Shape := ⟨3, ![3, 128, 128]⟩
abbrev S600000x4 : Shape := ⟨2, ![600000, 4]⟩
abbrev S100000 : Shape := ⟨1, ![100000]⟩
abbrev S2x600000 : Shape := ⟨2, ![2, 600000]⟩
abbrev S_ : Shape := ⟨0, ![]⟩

class Facts : Prop where
  bcast_S_S100x128 : S_.BroadcastsInDim S100x128 (![] : Fin 0 → Fin S100x128.rank)
  reducesTo_S100x128_S_d0_1 : S100x128.ReducesTo [0, 1] S_
  h_S_ : 0 < S_.numel
  bcast_S_S3x4x128 : S_.BroadcastsInDim S3x4x128 (![] : Fin 0 → Fin S3x4x128.rank)
  reducesTo_S3x4x128_S_d0_1_2 : S3x4x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S600000x4 : S_.BroadcastsInDim S600000x4 (![] : Fin 0 → Fin S600000x4.rank)
  reducesTo_S600000x4_S_d0_1 : S600000x4.ReducesTo [0, 1] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg7 : FVec F S600000x4 .f32) (main_arg8 : IVec S100000 32) (main_v33 : IVec S_ 1) : IVec S_ 1 :=
  let main_v34 : FVec F S600000x4 .f32 := Host.absf main_arg7
  let main_cst_12 : FVec F S_ .f32 := constant S_ .f32 0x7F800000#32
  let main_v35 : FVec F S600000x4 .f32 := broadcastInDim S600000x4 ![] bcast_S_S600000x4 main_cst_12
  let main_v36 : IVec S600000x4 1 := cmpf .olt main_v34 main_v35
  let main_c_13 : IVec S_ 1 := constantI S_ 1 1#1
  let main_v37 : IVec S_ 1 := (fun x v => Host.reduce IntOp.andi x v reducesTo_S600000x4_S_d0_1 h_S_) main_v36 main_c_13
  let main_v38 : IVec S_ 1 := andi main_v33 main_v37
  let main_c_14 : IVec S_ 32 := constantI S_ 32 0#32
  let main_v39 : IVec S100000 32 := broadcastInDim S100000 ![] bcast_S_S100000 main_c_14
  let main_v40 : IVec S100000 1 := cmpi .sge main_arg8 main_v39
  let main_c_15 : IVec S_ 1 := constantI S_ 1 1#1
  let main_v41 : IVec S_ 1 := (fun x v => Host.reduce IntOp.andi x v reducesTo_S100000_S_d0 h_S_) main_v40 main_c_15
  let main_v42 : IVec S_ 1 := andi main_v38 main_v41
  let main_c_16 : IVec S_ 32 := constantI S_ 32 100#32
  let main_v43 : IVec S100000 32 := broadcastInDim S100000 ![] bcast_S_S100000 main_c_16
  let main_v44 : IVec S100000 1 := cmpi .slt main_arg8 main_v43
  let main_c_17 : IVec S_ 1 := constantI S_ 1 1#1
  let main_v45 : IVec S_ 1 := (fun x v => Host.reduce IntOp.andi x v reducesTo_S100000_S_d0 h_S_) main_v44 main_c_17
  let main_v46 : IVec S_ 1 := andi main_v42 main_v45
  main_v46

def fn_part1 {F : FTy → Type} [FloatOps F] (main_arg4 : FVec F S3x128 .f32) (main_arg5 : FVec F S3x128x128 .f32) (main_arg6 : FVec F S3x128 .f32) (main_arg7 : FVec F S600000x4 .f32) (main_arg8 : IVec S100000 32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg5
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg6
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg7 main_arg8 main_v33

def fn {F : FTy → Type} [FloatOps F] (main_arg0 : FVec F S100x128 .f32) (main_arg1 : FVec F S3x4x128 .f32) (main_arg2 : FVec F S3x128 .f32) (main_arg3 : FVec F S3x128x128 .f32) (main_arg4 : FVec F S3x128 .f32) (main_arg5 : FVec F S3x128x128 .f32) (main_arg6 : FVec F S3x128 .f32) (main_arg7 : FVec F S600000x4 .f32) (main_arg8 : IVec S100000 32) (main_arg9 : IVec S2x600000 32) (main_arg10 : IVec S100000 32) : IVec S_ 1 :=
  let main_v0 : FVec F S100x128 .f32 := Host.absf main_arg0
  let main_cst : FVec F S_ .f32 := constant S_ .f32 0x7F800000#32
  let main_v1 : FVec F S100x128 .f32 := broadcastInDim S100x128 ![] bcast_S_S100x128 main_cst
  let main_v2 : IVec S100x128 1 := cmpf .olt main_v0 main_v1
  let main_c : IVec S_ 1 := constantI S_ 1 1#1
  let main_v3 : IVec S_ 1 := (fun x v => Host.reduce IntOp.andi x v reducesTo_S100x128_S_d0_1 h_S_) main_v2 main_c
  let main_v4 : FVec F S3x4x128 .f32 := Host.absf main_arg1
  let main_cst_0 : FVec F S_ .f32 := constant S_ .f32 0x7F800000#32
  let main_v5 : FVec F S3x4x128 .f32 := broadcastInDim S3x4x128 ![] bcast_S_S3x4x128 main_cst_0
  let main_v6 : IVec S3x4x128 1 := cmpf .olt main_v4 main_v5
  let main_c_1 : IVec S_ 1 := constantI S_ 1 1#1
  let main_v7 : IVec S_ 1 := (fun x v => Host.reduce IntOp.andi x v reducesTo_S3x4x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg4 main_arg5 main_arg6 main_arg7 main_arg8 main_v13 main_v16
-- ==== Kernel.lean ====
abbrev S100x128 : Shape := ⟨2, ![100, 128]⟩
abbrev S3x4x128 : Shape := ⟨3, ![3, 4, 128]⟩
abbrev S3x128 : Shape := ⟨2, ![3, 128]⟩
abbrev S3x128x128 : Shape := ⟨3, ![3, 128, 128]⟩
abbrev S600000x4 : Shape := ⟨2, ![600000, 4]⟩
abbrev S100000 : Shape := ⟨1, ![100000]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S128x128 : Shape := ⟨2, ![128, 128]⟩
abbrev S1 : Shape := ⟨1, ![1]⟩
abbrev S100000x1 : Shape := ⟨2, ![100000, 1]⟩
abbrev S100000x128 : Shape := ⟨2, ![100000, 128]⟩
abbrev S5000x1 : Shape := ⟨2, ![5000, 1]⟩
abbrev S5000x128 : Shape := ⟨2, ![5000, 128]⟩
abbrev S1x4x128 : Shape := ⟨3, ![1, 4, 128]⟩
abbrev S4x128 : Shape := ⟨2, ![4, 128]⟩
abbrev S1x128 : Shape := ⟨2, ![1, 128]⟩
abbrev S128 : Shape := ⟨1, ![128]⟩
abbrev S600000x128 : Shape := ⟨2, ![600000, 128]⟩
abbrev S8000x4 : Shape := ⟨2, ![8000, 4]⟩
abbrev S8000x128 : Shape := ⟨2, ![8000, 128]⟩
abbrev S600000x1 : Shape := ⟨2, ![600000, 1]⟩
abbrev S1x128x128 : Shape := ⟨3, ![1, 128, 128]⟩

abbrev nBuf : Space → Nat
  | .hbm => 124
  | .vmem => 53
  | .smem => 0
  | _ => 0

abbrev bufTy : (tb : Table) → Fin (tcTables nBuf tb) → BufTy
  | .hbm, ⟨0, _⟩ => ⟨S100x128, .f32⟩
  | .hbm, ⟨1, _⟩ => ⟨S3x4x128, .f32⟩
  | .hbm, ⟨2, _⟩ => ⟨S3x128, .f32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S3x128, .f32⟩
  | .hbm, ⟨7, _⟩ => ⟨S600000x4, .f32⟩
  | .hbm, ⟨8, _⟩ => ⟨S100000, .i32⟩
  | .hbm, ⟨9, _⟩ => ⟨S2x600000, .i32⟩
  | .hbm, ⟨10, _⟩ => ⟨S100000, .i32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .f32⟩
  | .hbm, ⟨16, _⟩ => ⟨S128x128, .f32⟩
  | .hbm, ⟨17, _⟩ => ⟨S_, .i32⟩
  | .hbm, ⟨18, _⟩ => ⟨S1, .i32⟩
  | .hbm, ⟨19, _⟩ => ⟨S128x128, .f32⟩
  | .hbm, ⟨20, _⟩ => ⟨S100000x1, .i32⟩
  | .hbm, ⟨21, _⟩ => ⟨S100000x128, .f32⟩
  | .hbm, ⟨22, _⟩ => ⟨S1x4x128, .f32⟩
  | .hbm, ⟨23, _⟩ => ⟨S4x128, .f32⟩
  | .hbm, ⟨24, _⟩ => ⟨S1x128, .f32⟩
  | .hbm, ⟨25, _⟩ => ⟨S128, .f32⟩
  | .hbm, ⟨26, _⟩ => ⟨S1x128, .f32⟩
  | .hbm, ⟨27, _⟩ => ⟨S600000x128, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S600000x128, .f32⟩
  | .hbm, ⟨38, _⟩ => ⟨S_, .f32⟩
  | .hbm, ⟨39, _⟩ => ⟨S600000x128, .f32⟩
  | .hbm, ⟨40, _⟩ => ⟨S600000x128, .f32⟩
  | .hbm, ⟨41, _⟩ => ⟨S_, .f32⟩
  | .hbm, ⟨42, _⟩ => ⟨S100000x128, .f32⟩
  | .hbm, ⟨43, _⟩ => ⟨S600000x1, .i32⟩
  | .hbm, ⟨44, _⟩ => ⟨S100000x128, .f32⟩
  | .hbm, ⟨45, _⟩ => ⟨S1x128x128, .f32⟩
  | .hbm, ⟨46, _⟩ => ⟨S128x128, .f32⟩
  | .hbm, ⟨47, _⟩ => ⟨S1x128, .f32⟩
  | .hbm, ⟨48, _⟩ => ⟨S128, .f32⟩
  | .hbm, ⟨49, _⟩ => ⟨S1x128x128, .f32⟩
  | .hbm, ⟨50, _⟩ => ⟨S128x128, .f32⟩
  | .hbm, ⟨51, _⟩ => ⟨S1x128, .f32⟩
  | .hbm, ⟨52, _⟩ => ⟨S128, .f32⟩
  | .hbm, ⟨53, _⟩ => ⟨S1x128, .f32⟩
  | .hbm, ⟨54, _⟩ => ⟨S1x128, .f32⟩
  | .hbm, ⟨55, _⟩ => ⟨S100000x128, .f32⟩
  | .hbm, ⟨56, _⟩ => ⟨S1x4x128, .f32⟩
  | .hbm, ⟨57, _⟩ => ⟨S4x128, .f32⟩
  | .hbm, ⟨58, _⟩ => ⟨S1x128, .f32⟩
  | .hbm, ⟨59, _⟩ => ⟨S128, .f32⟩
  | .hbm, ⟨60, _⟩ => ⟨S1x128, .f32⟩
  | .hbm, ⟨61, _⟩ => ⟨S600000x128, .f32⟩
  | .hbm, ⟨62, _⟩ => ⟨S_, .i32⟩
  | .hbm, ⟨63, _⟩ => ⟨S600000, .i32⟩
  | .hbm, ⟨64, _⟩ => ⟨S600000, .i1⟩
  | .hbm, ⟨65, _⟩ => ⟨S_, .i32⟩
  | .hbm, ⟨66, _⟩ => ⟨S600000, .i32⟩
  | .hbm, ⟨67, _⟩ => ⟨S600000, .i32⟩
  | .hbm, ⟨68, _⟩ => ⟨S600000, .i32⟩
  | .hbm, ⟨69, _⟩ => ⟨S600000x1, .i32⟩
  | .hbm, ⟨70, _⟩ => ⟨S600000x128, .f32⟩
  | .hbm, ⟨71, _⟩ => ⟨S600000x128, .f32⟩
  | .hbm, ⟨72, _⟩ => ⟨S_, .f32⟩
  | .hbm, ⟨73, _⟩ => ⟨S600000x128, .f32⟩
  | .hbm, ⟨74, _⟩ => ⟨S600000x128, .f32⟩
  | .hbm, ⟨75, _⟩ => ⟨S_, .f32⟩
  | .hbm, ⟨76, _⟩ => ⟨S100000x128, .f32⟩
  | .hbm, ⟨77, _⟩ => ⟨S600000x1, .i32⟩
  | .hbm, ⟨78, _⟩ => ⟨S100000x128, .f32⟩
  | .hbm, ⟨79, _⟩ => ⟨S1x128x128, .f32⟩
  | .hbm, ⟨80, _⟩ => ⟨S128x128, .f32⟩
  | .hbm, ⟨81, _⟩ => ⟨S1x128, .f32⟩
  | .hbm, ⟨82, _⟩ => ⟨S128, .f32⟩
  | .hbm, ⟨83, _⟩ => ⟨S1x128x128, .f32⟩
  | .hbm, ⟨84, _⟩ => ⟨S128x128, .f32⟩
  | .hbm, ⟨85, _⟩ => ⟨S1x128, .f32⟩
  | .hbm, ⟨86, _⟩ => ⟨S128, .f32⟩
  | .hbm, ⟨87, _⟩ => ⟨S1x128, .f32⟩
  | .hbm, ⟨88, _⟩ => ⟨S1x128, .f32⟩
  | .hbm, ⟨89, _⟩ => ⟨S100000x128, .f32⟩
  | .hbm, ⟨90, _⟩ => ⟨S1x4x128, .f32⟩
  | .hbm, ⟨91, _⟩ => ⟨S4x128, .f32⟩
  | .hbm, ⟨92, _⟩ => ⟨S1x128, .f32⟩
  | .hbm, ⟨93, _⟩ => ⟨S128, .f32⟩
  | .hbm, ⟨94, _⟩ => ⟨S1x128, .f32⟩
  | .hbm, ⟨95, _⟩ => ⟨S600000x128, .f32⟩
  | .hbm, ⟨96, _⟩ => ⟨S_, .i32⟩
  | .hbm, ⟨97, _⟩ => ⟨S600000, .i32⟩
  | .hbm, ⟨98, _⟩ => ⟨S600000, .i1⟩
  | .hbm, ⟨99, _⟩ => ⟨S_, .i32⟩
  | .hbm, ⟨100, _⟩ => ⟨S600000, .i32⟩
  | .hbm, ⟨101, _⟩ => ⟨S600000, .i32⟩
  | .hbm, ⟨102, _⟩ => ⟨S600000, .i32⟩
  | .hbm, ⟨103, _⟩ => ⟨S600000x1, .i32⟩
  | .hbm, ⟨104, _⟩ => ⟨S600000x128, .f32⟩
  | .hbm, ⟨105, _⟩ => ⟨S600000x128, .f32⟩
  | .hbm, ⟨106, _⟩ => ⟨S_, .f32⟩
  | .hbm, ⟨107, _⟩ => ⟨S600000x128, .f32⟩
  | .hbm, ⟨108, _⟩ => ⟨S600000x128, .f32⟩
  | .hbm, ⟨109, _⟩ => ⟨S_, .f32⟩
  | .hbm, ⟨110, _⟩ => ⟨S100000x128, .f32⟩
  | .hbm, ⟨111, _⟩ => ⟨S600000x1, .i32⟩
  | .hbm, ⟨112, _⟩ => ⟨S100000x128, .f32⟩
  | .hbm, ⟨113, _⟩ => ⟨S1x128x128, .f32⟩
  | .hbm, ⟨114, _⟩ => ⟨S128x128, .f32⟩
  | .hbm, ⟨115, _⟩ => ⟨S1x128, .f32⟩
  | .hbm, ⟨116, _⟩ => ⟨S128, .f32⟩
  | .hbm, ⟨117, _⟩ => ⟨S1x128x128, .f32⟩
  | .hbm, ⟨118, _⟩ => ⟨S128x128, .f32⟩
  | .hbm, ⟨119, _⟩ => ⟨S1x128, .f32⟩
  | .hbm, ⟨120, _⟩ => ⟨S128, .f32⟩
  | .hbm, ⟨121, _⟩ => ⟨S1x128, .f32⟩
  | .hbm, ⟨122, _⟩ => ⟨S1x128, .f32⟩
  | .hbm, ⟨123, _⟩ => ⟨S100000x128, .f32⟩
  | .local _ .vmem, ⟨0, _⟩ => ⟨S5000x1, .i32⟩
  | .local _ .vmem, ⟨1, _⟩ => ⟨S5000x1, .i32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S8000x4, .f32⟩
  | .local _ .vmem, ⟨6, _⟩ => ⟨S8000x4, .f32⟩
  | .local _ .vmem, ⟨7, _⟩ => ⟨S4x128, .f32⟩
  | .local _ .vmem, ⟨8, _⟩ => ⟨S1x128, .f32⟩
  | .local _ .vmem, ⟨9, _⟩ => ⟨S8000x128, .f32⟩
  | .local _ .vmem, ⟨10, _⟩ => ⟨S8000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S8000x4, .f32⟩
  | .local _ .vmem, ⟨22, _⟩ => ⟨S8000x4, .f32⟩
  | .local _ .vmem, ⟨23, _⟩ => ⟨S4x128, .f32⟩
  | .local _ .vmem, ⟨24, _⟩ => ⟨S1x128, .f32⟩
  | .local _ .vmem, ⟨25, _⟩ => ⟨S8000x128, .f32⟩
  | .local _ .vmem, ⟨26, _⟩ => ⟨S8000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | .local _ .vmem, ⟨37, _⟩ => ⟨S8000x4, .f32⟩
  | .local _ .vmem, ⟨38, _⟩ => ⟨S8000x4, .f32⟩
  | .local _ .vmem, ⟨39, _⟩ => ⟨S4x128, .f32⟩
  | .local _ .vmem, ⟨40, _⟩ => ⟨S1x128, .f32⟩
  | .local _ .vmem, ⟨41, _⟩ => ⟨S8000x128, .f32⟩
  | .local _ .vmem, ⟨42, _⟩ => ⟨S8000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S128x128, .f32⟩
  | .local _ .vmem, ⟨48, _⟩ => ⟨S1x128, .f32⟩
  | .local _ .vmem, ⟨49, _⟩ => ⟨S128x128, .f32⟩
  | .local _ .vmem, ⟨50, _⟩ => ⟨S1x128, .f32⟩
  | .local _ .vmem, ⟨51, _⟩ => ⟨S5000x128, .f32⟩
  | .local _ .vmem, ⟨52, _⟩ => ⟨S5000x128, .f32⟩
  | _, _ => ⟨S100x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_3 : Ref sig .tc := ⟨.hbm, 62, rfl⟩
abbrev main_v44 : Ref sig .tc := ⟨.hbm, 63, rfl⟩
abbrev main_v45 : Ref sig .tc := ⟨.hbm, 64, rfl⟩
abbrev main_c_4 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call1_cst : Ref sig .tc := ⟨.hbm, 72, rfl⟩
abbrev main_call1_v0 : Ref sig .tc := ⟨.hbm, 73, rfl⟩
abbrev main_v52 : Ref sig .tc := ⟨.hbm, 74, rfl⟩
abbrev main_cst_5 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_6 : Ref sig .tc := ⟨.hbm, 96, rfl⟩
abbrev main_v73 : Ref sig .tc := ⟨.hbm, 97, rfl⟩
abbrev main_v74 : Ref sig .tc := ⟨.hbm, 98, rfl⟩
abbrev main_c_7 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_call2_cst : Ref sig .tc := ⟨.hbm, 106, rfl⟩
abbrev main_call2_v0 : Ref sig .tc := ⟨.hbm, 107, rfl⟩
abbrev main_v81 : Ref sig .tc := ⟨.hbm, 108, rfl⟩
abbrev main_cst_8 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg6_0 : Ref sig .tc := ⟨.vmem, 35, rfl⟩
abbrev cc4_stg6_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg5_0 : Ref sig .tc := ⟨.vmem, 50, rfl⟩
abbrev cc6_stg6_0 : Ref sig .tc := ⟨.vmem, 51, rfl⟩
abbrev cc6_stg6_1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem6_0 : DmaSem sig := 35
abbrev cc4_sem6_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem3_0 : DmaSem sig := 41
abbrev cc5_sem3_1 : DmaSem sig := 42
abbrev cc6_sem0_0 : DmaSem sig := 43
abbrev cc6_sem0_1 : DmaSem sig := 44
abbrev cc6_sem1_0 : DmaSem sig := 45
abbrev cc6_sem1_1 : DmaSem sig := 46
abbrev cc6_sem2_0 : DmaSem sig := 47
abbrev cc6_sem3_0 : DmaSem sig := 48
abbrev cc6_sem4_0 : DmaSem sig := 49
abbrev cc6_sem5_0 : DmaSem sig := 50
abbrev cc6_sem6_0 : DmaSem sig := 51
abbrev cc6_sem6_1 : DmaSem sig := 52

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![75], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![75], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![75], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x4 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S4x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S8000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S128x128 : S_.BroadcastsInDim S128x128 (![] : Fin 0 → Fin S128x128.rank)
  bcast_S_S1 : S_.BroadcastsInDim S1 (![] : Fin 0 → Fin S1.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x128_S5000x128_0_0 : ∀ a, (![0, 0] : Fin 2 → Nat) a + S5000x128.size a ≤ S5000x128.size a
  h_S5000x128 : 0 < S5000x128.numel
  slices_S3x4x128_S1x4x128_0_0_0 : S3x4x128.Slices ![0, 0, 0] S1x4x128
  shapeCasts_S1x4x128_S4x128 : S1x4x128.ShapeCasts S4x128
  slices_S3x128_S1x128_0_0 : S3x128.Slices ![0, 0] S1x128
  shapeCasts_S1x128_S128 : S1x128.ShapeCasts S128
  shapeCasts_S128_S1x128 : S128.ShapeCasts S1x128
  inb_S8000x4_S8000x4_0_0 : ∀ a, (![0, 0] : Fin 2 → Nat) a + S8000x4.size a ≤ S8000x4.size a
  h_S8000x4 : 0 < S8000x4.numel
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  broadcasts_S1x128_S5000x128 : S1x128.Broadcasts S5000x128
  slices_S3x4x128_S1x4x128_1_0_0 : S3x4x128.Slices ![1, 0, 0] S1x4x128
  slices_S3x128_S1x128_1_0 : S3x128.Slices ![1, 0] S1x128
  slices_S3x128x128_S1x128x128_1_0_0 : S3x128x128.Slices ![1, 0, 0] S1x128x128
  slices_S3x4x128_S1x4x128_2_0_0 : S3x4x128.Slices ![2, 0, 0] S1x4x128
  slices_S3x128_S1x128_2_0 : S3x128.Slices ![2, 0] S1x128
  slices_S3x128x128_S1x128x128_2_0_0 : S3x128x128.Slices ![2, 0, 0] S1x128x128
  scatter_S128x128_S1_S100x128_01_n_0_0_wf : ScatterDims.WF S128x128 S1 S100x128 [0, 1] [] [0] 0
  dot_S5000x128_S128x128_S5000x128_1_0_0_1_n_n_wf : DotDims.WF S5000x128 S128x128 S5000x128 [1] [0] [0] [1] [] []
  dot_S8000x4_S4x128_S8000x128_1_0_0_1_n_n_wf : DotDims.WF S8000x4 S4x128 S8000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .i32 = 32 ∨ (Rect.block (s := S100000x1) S5000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x4.size a ≤ S600000x4.size a
  hwx1_0 : ∀ i : grid1.Coords, EltTy.bits .f32 = 32 ∨ (Rect.block (s := S600000x4) S8000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x128.size a ≤ S4x128.size a
  hwx1_1 : ∀ i : grid1.Coords, EltTy.bits .f32 = 32 ∨ (Rect.block (s := S4x128) S4x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S600000x128.size a
  hwx1_3 : ∀ i : grid1.Coords, EltTy.bits .f32 = 32 ∨ (Rect.block (s := S600000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x4.size a ≤ S600000x4.size a
  hwx3_0 : ∀ i : grid3.Coords, EltTy.bits .f32 = 32 ∨ (Rect.block (s := S600000x4) S8000x4.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4x128.size a ≤ S4x128.size a
  hwx3_1 : ∀ i : grid3.Coords, EltTy.bits .f32 = 32 ∨ (Rect.block (s := S4x128) S4x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8000x128.size a ≤ S600000x128.size a
  hwx3_3 : ∀ i : grid3.Coords, EltTy.bits .f32 = 32 ∨ (Rect.block (s := S600000x128) S8000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x4.size a ≤ S600000x4.size a
  hwx5_0 : ∀ i : grid5.Coords, EltTy.bits .f32 = 32 ∨ (Rect.block (s := S600000x4) S8000x4.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S4x128.size a ≤ S4x128.size a
  hwx5_1 : ∀ i : grid5.Coords, EltTy.bits .f32 = 32 ∨ (Rect.block (s := S4x128) S4x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8000x128.size a ≤ S600000x128.size a
  hwx5_3 : ∀ i : grid5.Coords, EltTy.bits .f32 = 32 ∨ (Rect.block (s := S600000x128) S8000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S100000x128.size a
  hwx6_6 : ∀ i : grid6.Coords, EltTy.bits .f32 = 32 ∨ (Rect.block (s := S100000x128) S5000x128.size (cc6_transform_6 i) (hinb6_6 i)).WholeWords (EltTy.packing .f32)

variable [Facts₀]

def scatter_S128x128_S1_S100x128_01_n_0_0 : ScatterDims S128x128 S1 S100x128 where
  updateWindowDims := [0, 1]
  insertedWindowDims := []
  scatterDimsToOperandDims := [0]
  indexVectorDim := 0
  wf := scatter_S128x128_S1_S100x128_01_n_0_0_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S8000x4_S4x128_S8000x128_1_0_0_1_n_n : DotDims S8000x4 S4x128 S8000x128 where
  lhsContracting := [1]
  rhsContracting := [0]
  lhsNonContracting := [0]
  rhsNonContracting := [1]
  lhsBatch := []
  rhsBatch := []
  wf := dot_S8000x4_S4x128_S8000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_v7) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg7) S8000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S4x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg7) S8000x4.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S4x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S8000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v37) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v57) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v61) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v65) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v66) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_arg7) S8000x4.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S4x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v71) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v72) S8000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v66) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v84) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v86) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v93) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v90) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v94) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v95) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S100x128 : Shape := ⟨2, ![100, 128]⟩
abbrev S3x4x128 : Shape := ⟨3, ![3, 4, 128]⟩
abbrev S3x128 : Shape := ⟨2, ![3, 128]⟩
abbrev S3x128x128 : Shape := ⟨3, ![3, 128, 128]⟩
abbrev S600000x4 : Shape := ⟨2, ![600000, 4]⟩
abbrev S100000 : Shape := ⟨1, ![100000]⟩
abbrev S2x600000 : Shape := ⟨2, ![2, 600000]⟩
abbrev S_ : Shape := ⟨0, ![]⟩
abbrev S100000x1 : Shape := ⟨2, ![100000, 1]⟩
abbrev S100000x128 : Shape := ⟨2, ![100000, 128]⟩
abbrev S1x600000 : Shape := ⟨2, ![1, 600000]⟩
abbrev S600000 : Shape := ⟨1, ![600000]⟩
abbrev S1x4x128 : Shape := ⟨3, ![1, 4, 128]⟩
abbrev S4x128 : Shape := ⟨2, ![4, 128]⟩
abbrev S600000x128 : Shape := ⟨2, ![600000, 128]⟩
abbrev S1x128 : Shape := ⟨2, ![1, 128]⟩
abbrev S128 : Shape := ⟨1, ![128]⟩
abbrev S600000x1 : Shape := ⟨2, ![600000, 1]⟩
abbrev S1x128x128 : Shape := ⟨3, ![1, 128, 128]⟩
abbrev S128x128 : Shape := ⟨2, ![128, 128]⟩

abbrev nBuf : Space → Nat
  | .hbm => 177
  | .vmem => 0
  | .smem => 0
  | _ => 0

abbrev hbmTy0_0 (i : Nat) : BufTy := match i % 128 with
  | 0 => ⟨S100x128, .f32⟩
  | 1 => ⟨S3x4x128, .f32⟩
  | 2 => ⟨S3x128, .f32⟩
  | 3 => ⟨S3x128x128, .f32⟩
  | 4 => ⟨S3x128, .f32⟩
  | 5 => ⟨S3x128x128, .f32⟩
  | 6 => ⟨S3x128, .f32⟩
  | 7 => ⟨S600000x4, .f32⟩
  | 8 => ⟨S100000, .i32⟩
  | 9 => ⟨S2x600000, .i32⟩
  | 10 => ⟨S100000, .i32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S100000x128, .f32⟩
  | 20 => ⟨S1x600000, .i32⟩
  | 21 => ⟨S600000, .i32⟩
  | 22 => ⟨S1x600000, .i32⟩
  | 23 => ⟨S600000, .i32⟩
  | 24 => ⟨S1x4x128, .f32⟩
  | 25 => ⟨S4x128, .f32⟩
  | 26 => ⟨S600000x128, .f32⟩
  | 27 => ⟨S1x128, .f32⟩
  | 28 => ⟨S128, .f32⟩
  | 29 => ⟨S1x128, .f32⟩
  | 30 => ⟨S600000x128, .f32⟩
  | 31 => ⟨S600000x128, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x128, .f32⟩
  | 41 => ⟨S600000x128, .f32⟩
  | 42 => ⟨S_, .f32⟩
  | 43 => ⟨S600000x128, .f32⟩
  | 44 => ⟨S600000x128, .f32⟩
  | 45 => ⟨S_, .f32⟩
  | 46 => ⟨S100000x128, .f32⟩
  | 47 => ⟨S600000x1, .i32⟩
  | 48 => ⟨S100000x128, .f32⟩
  | 49 => ⟨S100000x128, .f32⟩
  | 50 => ⟨S1x128x128, .f32⟩
  | 51 => ⟨S128x128, .f32⟩
  | 52 => ⟨S100000x128, .f32⟩
  | 53 => ⟨S1x128, .f32⟩
  | 54 => ⟨S128, .f32⟩
  | 55 => ⟨S1x128, .f32⟩
  | 56 => ⟨S100000x128, .f32⟩
  | 57 => ⟨S100000x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S100000x128, .f32⟩
  | 67 => ⟨S1x128x128, .f32⟩
  | 68 => ⟨S128x128, .f32⟩
  | 69 => ⟨S100000x128, .f32⟩
  | 70 => ⟨S1x128, .f32⟩
  | 71 => ⟨S128, .f32⟩
  | 72 => ⟨S1x128, .f32⟩
  | 73 => ⟨S100000x128, .f32⟩
  | 74 => ⟨S100000x128, .f32⟩
  | 75 => ⟨S1x4x128, .f32⟩
  | 76 => ⟨S4x128, .f32⟩
  | 77 => ⟨S600000x128, .f32⟩
  | 78 => ⟨S1x128, .f32⟩
  | 79 => ⟨S128, .f32⟩
  | 80 => ⟨S1x128, .f32⟩
  | 81 => ⟨S600000x128, .f32⟩
  | 82 => ⟨S600000x128, .f32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S600000x128, .f32⟩
  | 92 => ⟨S600000x128, .f32⟩
  | 93 => ⟨S_, .f32⟩
  | 94 => ⟨S600000x128, .f32⟩
  | 95 => ⟨S600000x128, .f32⟩
  | 96 => ⟨S_, .f32⟩
  | 97 => ⟨S100000x128, .f32⟩
  | 98 => ⟨S600000x1, .i32⟩
  | 99 => ⟨S100000x128, .f32⟩
  | 100 => ⟨S100000x128, .f32⟩
  | 101 => ⟨S1x128x128, .f32⟩
  | 102 => ⟨S128x128, .f32⟩
  | 103 => ⟨S100000x128, .f32⟩
  | 104 => ⟨S1x128, .f32⟩
  | 105 => ⟨S128, .f32⟩
  | 106 => ⟨S1x128, .f32⟩
  | 107 => ⟨S100000x128, .f32⟩
  | 108 => ⟨S100000x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S100000x128, .f32⟩
  | 118 => ⟨S1x128x128, .f32⟩
  | 119 => ⟨S128x128, .f32⟩
  | 120 => ⟨S100000x128, .f32⟩
  | 121 => ⟨S1x128, .f32⟩
  | 122 => ⟨S128, .f32⟩
  | 123 => ⟨S1x128, .f32⟩
  | 124 => ⟨S100000x128, .f32⟩
  | 125 => ⟨S100000x128, .f32⟩
  | 126 => ⟨S1x4x128, .f32⟩
  | 127 => ⟨S4x128, .f32⟩
  | _ => ⟨S100x128, .f32⟩

abbrev hbmTy0_1 (i : Nat) : BufTy := match i % 128 with
  | 0 => ⟨S600000x128, .f32⟩
  | 1 => ⟨S1x128, .f32⟩
  | 2 => ⟨S128, .f32⟩
  | 3 => ⟨S1x128, .f32⟩
  | 4 => ⟨S600000x128, .f32⟩
  | 5 => ⟨S600000x128, .f32⟩
  | 6 => ⟨S_, .i32⟩
  | 7 => ⟨S600000, .i32⟩
  | 8 => ⟨S600000, .i1⟩
  | 9 => ⟨S_, .i32⟩
  | 10 => ⟨S600000, .i32⟩
  | 11 => ⟨S600000, .i32⟩
  | 12 => ⟨S600000, .i32⟩
  | 13 => ⟨S600000x1, .i32⟩
  | 14 => ⟨S600000x128, .f32⟩
  | 15 => ⟨S600000x128, .f32⟩
  | 16 => ⟨S_, .f32⟩
  | 17 => ⟨S600000x128, .f32⟩
  | 18 => ⟨S600000x128, .f32⟩
  | 19 => ⟨S_, .f32⟩
  | 20 => ⟨S100000x128, .f32⟩
  | 21 => ⟨S600000x1, .i32⟩
  | 22 => ⟨S100000x128, .f32⟩
  | 23 => ⟨S100000x128, .f32⟩
  | 24 => ⟨S1x128x128, .f32⟩
  | 25 => ⟨S128x128, .f32⟩
  | 26 => ⟨S100000x128, .f32⟩
  | 27 => ⟨S1x128, .f32⟩
  | 28 => ⟨S128, .f32⟩
  | 29 => ⟨S1x128, .f32⟩
  | 30 => ⟨S100000x128, .f32⟩
  | 31 => ⟨S100000x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S100000x128, .f32⟩
  | 41 => ⟨S1x128x128, .f32⟩
  | 42 => ⟨S128x128, .f32⟩
  | 43 => ⟨S100000x128, .f32⟩
  | 44 => ⟨S1x128, .f32⟩
  | 45 => ⟨S128, .f32⟩
  | 46 => ⟨S1x128, .f32⟩
  | 47 => ⟨S100000x128, .f32⟩
  | 48 => ⟨S100000x128, .f32⟩
  | _ => ⟨S100x128, .f32⟩

abbrev hbmTy (i : Nat) : BufTy := match i / 128 with
  | 0 => hbmTy0_0 i
  | 1 => hbmTy0_1 i
  | _ => ⟨S100x128, .f32⟩

abbrev bufTy : (tb : Table) → Fin (tcTables nBuf tb) → BufTy
  | .hbm, ⟨i, _⟩ => hbmTy i
  | _, _ => ⟨S100x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_cst : Ref sig .tc := ⟨.hbm, 42, rfl⟩
abbrev main_call0_v0 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_3 : Ref sig .tc := ⟨.hbm, 83, rfl⟩
abbrev main_v57 : Ref sig .tc := ⟨.hbm, 84, rfl⟩
abbrev main_v58 : Ref sig .tc := ⟨.hbm, 85, rfl⟩
abbrev main_c_4 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_cst_5 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_call3_v0 : Ref sig .tc := ⟨.hbm, 109, rfl⟩
abbrev main_call3_v1 : Ref sig .tc := ⟨.hbm, 110, rfl⟩
abbrev main_call3_cst : Ref sig .tc := ⟨.hbm, 111, rfl⟩
abbrev main_call3_v2 : Ref sig .tc := ⟨.hbm, 112, rfl⟩
abbrev main_call3_v3 : Ref sig .tc := ⟨.hbm, 113, rfl⟩
abbrev main_call3_cst_0 : Ref sig .tc := ⟨.hbm, 114, rfl⟩
abbrev main_call3_v4 : Ref sig .tc := ⟨.hbm, 115, rfl⟩
abbrev main_call3_v5 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_c_6 : Ref sig .tc := ⟨.hbm, 134, rfl⟩
abbrev main_v95 : Ref sig .tc := ⟨.hbm, 135, rfl⟩
abbrev main_v96 : Ref sig .tc := ⟨.hbm, 136, rfl⟩
abbrev main_c_7 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_call4_cst : Ref sig .tc := ⟨.hbm, 144, rfl⟩
abbrev main_call4_v0 : Ref sig .tc := ⟨.hbm, 145, rfl⟩
abbrev main_v103 : Ref sig .tc := ⟨.hbm, 146, rfl⟩
abbrev main_cst_8 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_call5_v0 : Ref sig .tc := ⟨.hbm, 160, rfl⟩
abbrev main_call5_v1 : Ref sig .tc := ⟨.hbm, 161, rfl⟩
abbrev main_call5_cst : Ref sig .tc := ⟨.hbm, 162, rfl⟩
abbrev main_call5_v2 : Ref sig .tc := ⟨.hbm, 163, rfl⟩
abbrev main_call5_v3 : Ref sig .tc := ⟨.hbm, 164, rfl⟩
abbrev main_call5_cst_0 : Ref sig .tc := ⟨.hbm, 165, rfl⟩
abbrev main_call5_v4 : Ref sig .tc := ⟨.hbm, 166, rfl⟩
abbrev main_call5_v5 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S3x4x128_S1x4x128_0_0_0 : S3x4x128.Slices ![0, 0, 0] S1x4x128
  shapeCasts_S1x4x128_S4x128 : S1x4x128.ShapeCasts S4x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  bcast_S1x128_S100000x128_0_1 : S1x128.BroadcastsInDim S100000x128 (![0, 1] : Fin 2 → Fin S100000x128.rank)
  slices_S3x4x128_S1x4x128_1_0_0 : S3x4x128.Slices ![1, 0, 0] S1x4x128
  slices_S3x128_S1x128_1_0 : S3x128.Slices ![1, 0] S1x128
  slices_S3x128x128_S1x128x128_1_0_0 : S3x128x128.Slices ![1, 0, 0] S1x128x128
  slices_S3x4x128_S1x4x128_2_0_0 : S3x4x128.Slices ![2, 0, 0] S1x4x128
  slices_S3x128_S1x128_2_0 : S3x128.Slices ![2, 0] S1x128
  slices_S3x128x128_S1x128x128_2_0_0 : S3x128x128.Slices ![2, 0, 0] S1x128x128
  gather_S100x128_S100000x1_S100000x128_1_0_n_n_0_1_1128_wf : GatherDims.WF S100x128 S100000x1 S100000x128 [1] [0] [] [0] [] 1 ![1, 128]
  dot_S600000x4_S4x128_S600000x128_1_0_0_1_n_n_wf : DotDims.WF S600000x4 S4x128 S600000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100x128_S100000x1_S100000x128_1_0_n_n_0_1_1128 : GatherDims S100x128 S100000x1 S100000x128 where
  offsetDims := [1]
  collapsedSliceDims := [0]
  operandBatchingDims := []
  startIndicesBatchingDims := []
  startIndexMap := [0]
  indexVectorDim := 1
  sliceSizes := ![1, 128]
  wf := gather_S100x128_S100000x1_S100000x128_1_0_n_n_0_1_1128_wf
def dot_S600000x4_S4x128_S600000x128_1_0_0_1_n_n : DotDims S600000x4 S4x128 S600000x128 where
  lhsContracting := [1]
  rhsContracting := [0]
  lhsNonContracting := [0]
  rhsNonContracting := [1]
  lhsBatch := []
  rhsBatch := []
  wf := dot_S600000x4_S4x128_S600000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Keep.lean ====
/-
  The buffers that are only read after the first stretch of host operations.

  @main is twenty segments: stretches of host operations and the seven kernel regions. The run names the contents of
  every buffer at every boundary (W0 at launch … W20 at the return). Nine buffers are written at most once, in the very
  first stretch, and only read afterwards: the weight and attribute arguments and the two edge-index vectors cut out
  of the edge-index argument (S9). A stretch of host operations leaves a buffer it does not write as it was, which is
  decided operation by operation (keep_host); an argument the first stretch does not write still holds its launch
  contents after it (arg_at1).
-/
import proofs.«424670_j1254130450544_1_alg».proof.Proof.Gen.KernelIdeal.Frame
import Idealize.ShloMosaic.Lib.StableHlo.Run
import Idealize.ShloMosaic.PureOps.Ideal

set_option maxRecDepth 16384

noncomputable section

namespace Cert.KernelIdeal.Keep

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The nine buffers no segment after the first stretch writes. -/
def S9 (b : Ref sig .tc) : Prop :=
  b = main_arg1 ∨ b = main_arg2 ∨ b = main_arg3 ∨ b = main_arg4 ∨ b = main_arg5 ∨ b = main_arg6 ∨ b = main_arg7
    ∨ b = main_v1 ∨ b = main_v3

theorem s9_arg1 : S9 main_arg1 := .inl rfl
theorem s9_arg2 : S9 main_arg2 := .inr (.inl rfl)
theorem s9_arg3 : S9 main_arg3 := .inr (.inr (.inl rfl))
theorem s9_arg4 : S9 main_arg4 := .inr (.inr (.inr (.inl rfl)))
theorem s9_arg5 : S9 main_arg5 := .inr (.inr (.inr (.inr (.inl rfl))))
theorem s9_arg6 : S9 main_arg6 := .inr (.inr (.inr (.inr (.inr (.inl rfl)))))
theorem s9_arg7 : S9 main_arg7 := .inr (.inr (.inr (.inr (.inr (.inr (.inl rfl))))))
theorem s9_v1 : S9 main_v1 := .inr (.inr (.inr (.inr (.inr (.inr (.inr (.inl rfl)))))))
theorem s9_v3 : S9 main_v3 := .inr (.inr (.inr (.inr (.inr (.inr (.inr (.inr rfl)))))))

/-- A stretch of host operations leaves a buffer none of them writes as it was: each operation's written buffer is
    another one. -/
macro "keep_host" ops:ident : tactic =>
  `(tactic| (
    refine StableHlo.after_of_forall_not_mem _ _ (List.forall_iff_forall_mem.mp ?_)
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## After the first stretch -/

/-- An argument the first stretch does not write holds its launch contents. -/
theorem arg_at1 {b : Ref sig .tc} (hb : b = main_arg1 ∨ b = main_arg2 ∨ b = main_arg3 ∨ b = main_arg4 ∨ b = main_arg5
    ∨ b = main_arg6 ∨ b = main_arg7) : W1 m ρ c (Proc.devRef .tc b) = W0 m ρ c (Proc.devRef .tc b) := by
  rcases hb with rfl | rfl | rfl | rfl | rfl | rfl | rfl <;> keep_host hostOps0

end Cert.KernelIdeal.Keep

end
-- ==== Proof.KeepTable.lean ====
/-
  Segment by segment, the nine buffers that are only read after the first stretch keep their contents (keep2 … keep19):
  a stretch of host operations writes other buffers, a kernel region writes only its own output array (the attribute
  argument is an input window of the three edge-projection regions: an input window's array ends as it was entered). Composed, each of
  them holds at every boundary from 2 to 19 what it held at boundary 1 (at2 … at19).
-/
import proofs.«424670_j1254130450544_1_alg».proof.Proof.Keep

set_option maxRecDepth 16384

noncomputable section

namespace Cert.KernelIdeal.Keep

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

theorem keep2 {b : Ref sig .tc} (hb : S9 b) : W2 m ρ c (Proc.devRef .tc b) = W1 m ρ c (Proc.devRef .tc b) := by
  rcases hb with rfl | rfl | rfl | rfl | rfl | rfl | rfl | rfl | rfl <;> exact W2_of_ne m ρ c _ (by decide)
theorem keep3 {b : Ref sig .tc} (hb : S9 b) : W3 m ρ c (Proc.devRef .tc b) = W2 m ρ c (Proc.devRef .tc b) := by
  rcases hb with rfl | rfl | rfl | rfl | rfl | rfl | rfl | rfl | rfl <;> keep_host hostOps1
theorem keep4 {b : Ref sig .tc} (hb : S9 b) : W4 m ρ c (Proc.devRef .tc b) = W3 m ρ c (Proc.devRef .tc b) := by
  rcases hb with rfl | rfl | rfl | rfl | rfl | rfl | rfl | rfl | rfl <;> first | exact W4_of_ne m ρ c _ (by decide) | exact (W4_arr m ρ c 0).trans (((dat1 (V3 m ρ) c).arrAt_in 0 rfl _).trans (A_eq1 (V3 m ρ) c 0))
theorem keep5 {b : Ref sig .tc} (hb : S9 b) : W5 m ρ c (Proc.devRef .tc b) = W4 m ρ c (Proc.devRef .tc b) := by
  rcases hb with rfl | rfl | rfl | rfl | rfl | rfl | rfl | rfl | rfl <;> keep_host hostOps2
theorem keep6 {b : Ref sig .tc} (hb : S9 b) : W6 m ρ c (Proc.devRef .tc b) = W5 m ρ c (Proc.devRef .tc b) := by
  rcases hb with rfl | rfl | rfl | rfl | rfl | rfl | rfl | rfl | rfl <;> keep_host hostOps2_1
theorem keep7 {b : Ref sig .tc} (hb : S9 b) : W7 m ρ c (Proc.devRef .tc b) = W6 m ρ c (Proc.devRef .tc b) := by
  rcases hb with rfl | rfl | rfl | rfl | rfl | rfl | rfl | rfl | rfl <;> keep_host hostOps2_2
theorem keep8 {b : Ref sig .tc} (hb : S9 b) : W8 m ρ c (Proc.devRef .tc b) = W7 m ρ c (Proc.devRef .tc b) := by
  rcases hb with rfl | rfl | rfl | rfl | rfl | rfl | rfl | rfl | rfl <;> exact W8_of_ne m ρ c _ (by decide)
theorem keep9 {b : Ref sig .tc} (hb : S9 b) : W9 m ρ c (Proc.devRef .tc b) = W8 m ρ c (Proc.devRef .tc b) := by
  rcases hb with rfl | rfl | rfl | rfl | rfl | rfl | rfl | rfl | rfl <;> keep_host hostOps3
theorem keep10 {b : Ref sig .tc} (hb : S9 b) : W10 m ρ c (Proc.devRef .tc b) = W9 m ρ c (Proc.devRef .tc b) := by
  rcases hb with rfl | rfl | rfl | rfl | rfl | rfl | rfl | rfl | rfl <;> first | exact W10_of_ne m ρ c _ (by decide) | exact (W10_arr m ρ c 0).trans (((dat3 (V9 m ρ) c).arrAt_in 0 rfl _).trans (A_eq3 (V9 m ρ) c 0))
theorem keep11 {b : Ref sig .tc} (hb : S9 b) : W11 m ρ c (Proc.devRef .tc b) = W10 m ρ c (Proc.devRef .tc b) := by
  rcases hb with rfl | rfl | rfl | rfl | rfl | rfl | rfl | rfl | rfl <;> keep_host hostOps4
theorem keep12 {b : Ref sig .tc} (hb : S9 b) : W12 m ρ c (Proc.devRef .tc b) = W11 m ρ c (Proc.devRef .tc b) := by
  rcases hb with rfl | rfl | rfl | rfl | rfl | rfl | rfl | rfl | rfl <;> keep_host hostOps4_1
theorem keep13 {b : Ref sig .tc} (hb : S9 b) : W13 m ρ c (Proc.devRef .tc b) = W12 m ρ c (Proc.devRef .tc b) := by
  rcases hb with rfl | rfl | rfl | rfl | rfl | rfl | rfl | rfl | rfl <;> keep_host hostOps4_2
theorem keep14 {b : Ref sig .tc} (hb : S9 b) : W14 m ρ c (Proc.devRef .tc b) = W13 m ρ c (Proc.devRef .tc b) := by
  rcases hb with rfl | rfl | rfl | rfl | rfl | rfl | rfl | rfl | rfl <;> exact W14_of_ne m ρ c _ (by decide)
theorem keep15 {b : Ref sig .tc} (hb : S9 b) : W15 m ρ c (Proc.devRef .tc b) = W14 m ρ c (Proc.devRef .tc b) := by
  rcases hb with rfl | rfl | rfl | rfl | rfl | rfl | rfl | rfl | rfl <;> keep_host hostOps5
theorem keep16 {b : Ref sig .tc} (hb : S9 b) : W16 m ρ c (Proc.devRef .tc b) = W15 m ρ c (Proc.devRef .tc b) := by
  rcases hb with rfl | rfl | rfl | rfl | rfl | rfl | rfl | rfl | rfl <;> first | exact W16_of_ne m ρ c _ (by decide) | exact (W16_arr m ρ c 0).trans (((dat5 (V15 m ρ) c).arrAt_in 0 rfl _).trans (A_eq5 (V15 m ρ) c 0))
theorem keep17 {b : Ref sig .tc} (hb : S9 b) : W17 m ρ c (Proc.devRef .tc b) = W16 m ρ c (Proc.devRef .tc b) := by
  rcases hb with rfl | rfl | rfl | rfl | rfl | rfl | rfl | rfl | rfl <;> keep_host hostOps6
theorem keep18 {b : Ref sig .tc} (hb : S9 b) : W18 m ρ c (Proc.devRef .tc b) = W17 m ρ c (Proc.devRef .tc b) := by
  rcases hb with rfl | rfl | rfl | rfl | rfl | rfl | rfl | rfl | rfl <;> keep_host hostOps6_1
theorem keep19 {b : Ref sig .tc} (hb : S9 b) : W19 m ρ c (Proc.devRef .tc b) = W18 m ρ c (Proc.devRef .tc b) := by
  rcases hb with rfl | rfl | rfl | rfl | rfl | rfl | rfl | rfl | rfl <;> keep_host hostOps6_2

theorem at2 {b : Ref sig .tc} (hb : S9 b) : W2 m ρ c (Proc.devRef .tc b) = W1 m ρ c (Proc.devRef .tc b) := keep2 m ρ c hb
theorem at3 {b : Ref sig .tc} (hb : S9 b) : W3 m ρ c (Proc.devRef .tc b) = W1 m ρ c (Proc.devRef .tc b) := (keep3 m ρ c hb).trans (at2 m ρ c hb)
theorem at4 {b : Ref sig .tc} (hb : S9 b) : W4 m ρ c (Proc.devRef .tc b) = W1 m ρ c (Proc.devRef .tc b) := (keep4 m ρ c hb).trans (at3 m ρ c hb)
theorem at5 {b : Ref sig .tc} (hb : S9 b) : W5 m ρ c (Proc.devRef .tc b) = W1 m ρ c (Proc.devRef .tc b) := (keep5 m ρ c hb).trans (at4 m ρ c hb)
theorem at6 {b : Ref sig .tc} (hb : S9 b) : W6 m ρ c (Proc.devRef .tc b) = W1 m ρ c (Proc.devRef .tc b) := (keep6 m ρ c hb).trans (at5 m ρ c hb)
theorem at7 {b : Ref sig .tc} (hb : S9 b) : W7 m ρ c (Proc.devRef .tc b) = W1 m ρ c (Proc.devRef .tc b) := (keep7 m ρ c hb).trans (at6 m ρ c hb)
theorem at8 {b : Ref sig .tc} (hb : S9 b) : W8 m ρ c (Proc.devRef .tc b) = W1 m ρ c (Proc.devRef .tc b) := (keep8 m ρ c hb).trans (at7 m ρ c hb)
theorem at9 {b : Ref sig .tc} (hb : S9 b) : W9 m ρ c (Proc.devRef .tc b) = W1 m ρ c (Proc.devRef .tc b) := (keep9 m ρ c hb).trans (at8 m ρ c hb)
theorem at10 {b : Ref sig .tc} (hb : S9 b) : W10 m ρ c (Proc.devRef .tc b) = W1 m ρ c (Proc.devRef .tc b) := (keep10 m ρ c hb).trans (at9 m ρ c hb)
theorem at11 {b : Ref sig .tc} (hb : S9 b) : W11 m ρ c (Proc.devRef .tc b) = W1 m ρ c (Proc.devRef .tc b) := (keep11 m ρ c hb).trans (at10 m ρ c hb)
theorem at12 {b : Ref sig .tc} (hb : S9 b) : W12 m ρ c (Proc.devRef .tc b) = W1 m ρ c (Proc.devRef .tc b) := (keep12 m ρ c hb).trans (at11 m ρ c hb)
theorem at13 {b : Ref sig .tc} (hb : S9 b) : W13 m ρ c (Proc.devRef .tc b) = W1 m ρ c (Proc.devRef .tc b) := (keep13 m ρ c hb).trans (at12 m ρ c hb)
theorem at14 {b : Ref sig .tc} (hb : S9 b) : W14 m ρ c (Proc.devRef .tc b) = W1 m ρ c (Proc.devRef .tc b) := (keep14 m ρ c hb).trans (at13 m ρ c hb)
theorem at15 {b : Ref sig .tc} (hb : S9 b) : W15 m ρ c (Proc.devRef .tc b) = W1 m ρ c (Proc.devRef .tc b) := (keep15 m ρ c hb).trans (at14 m ρ c hb)
theorem at16 {b : Ref sig .tc} (hb : S9 b) : W16 m ρ c (Proc.devRef .tc b) = W1 m ρ c (Proc.devRef .tc b) := (keep16 m ρ c hb).trans (at15 m ρ c hb)
theorem at17 {b : Ref sig .tc} (hb : S9 b) : W17 m ρ c (Proc.devRef .tc b) = W1 m ρ c (Proc.devRef .tc b) := (keep17 m ρ c hb).trans (at16 m ρ c hb)
theorem at18 {b : Ref sig .tc} (hb : S9 b) : W18 m ρ c (Proc.devRef .tc b) = W1 m ρ c (Proc.devRef .tc b) := (keep18 m ρ c hb).trans (at17 m ρ c hb)
theorem at19 {b : Ref sig .tc} (hb : S9 b) : W19 m ρ c (Proc.devRef .tc b) = W1 m ρ c (Proc.devRef .tc b) := (keep19 m ρ c hb).trans (at18 m ρ c hb)

end Cert.KernelIdeal.Keep

end
-- ==== Proof.LibPlainDot.lean ====
/-
  A plain matrix product read at an index, over the extended reals.

  For dimension numbers that contract the left operand's axis 1 with the right operand's axis 0, with no batch axis — an
  [M, K] matrix times a [K, N] matrix —, the left operand's index at result index (p, q) and contraction position k is
  (p, k) and the right operand's is (k, q), whatever M, K and N are: the four coordinates are read off the index
  functions axis by axis (lhs_axis0 … rhs_axis1). The contraction shape has one axis of extent K, so the sum over its
  indices is re-indexed by that one coordinate (sum_plain): element (p, q) of the product is the sum over k < K of
  l (p, k) · r (k, q). This holds of a kernel's matmul into a zero accumulator (matmul_zero_plain) and of the host's
  dot_general (dotGeneral_plain) alike, so a product computed block of rows by block of rows and the product of the
  whole matrices are the same sums.
-/
import Idealize.ShloMosaic.PureOps.Ideal
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat} (d : DotDims ⟨2, ![M, K]⟩ ⟨2, ![K, N]⟩ ⟨2, ![M, N]⟩)

/-- Two positions of an index that are the same number hold the same coordinate. -/
private theorem coord_congr {s : Shape} (j : s.Idx) (a b : Nat) (ha : a < s.rank) (hb : b < s.rank) (h : a = b) :
    (j ⟨a, ha⟩).val = (j ⟨b, hb⟩).val := by subst h; rfl

/-- One axis is contracted. -/
theorem contr_rank (hlc : d.lhsContracting = [1]) : d.contr.rank = 1 := by
  rw [d.rank_contr, hlc]; rfl

/-- Its extent is K, the left operand's axis 1. -/
theorem contr_size (hlc : d.lhsContracting = [1]) :
    d.contr.size ⟨0, by rw [contr_rank d hlc]; exact Nat.one_pos⟩ = K := by
  have h := d.size_contr 0 (by rw [hlc]; exact Nat.one_pos)
  rw [List.getElem_of_eq hlc] at h
  exact h

/-- The left operand's row is the result's row. -/
theorem lhs_axis0 (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_axis1 (hlc : d.lhsContracting = [1]) (j : (⟨2, ![M, N]⟩ : Shape).Idx) (k : d.contr.Idx) :
    (d.lhsIdx j k 1).val = (k ⟨0, by rw [contr_rank d hlc]; exact Nat.one_pos⟩).val :=
  d.lhsIdx_val_of_single hlc j k

/-- The right operand's row is the contraction position. -/
theorem rhs_axis0 (hlc : d.lhsContracting = [1]) (hrc : d.rhsContracting = [0])
    (j : (⟨2, ![M, N]⟩ : Shape).Idx) (k : d.contr.Idx) :
    (d.rhsIdx j k 0).val = (k ⟨0, by rw [contr_rank d hlc]; exact Nat.one_pos⟩).val :=
  d.rhsIdx_val_of_single hrc j k

/-- The right operand's column is the result's column. -/
theorem rhs_axis1 (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- THE SUM RE-INDEXED: over the contraction shape's indices, the products of the operands at the dimension numbers'
    index functions are the products l (p, k) · r (k, q) over k < K. -/
theorem sum_plain (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  have hr := contr_rank d hlc
  have hs := contr_size d hlc
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a
    refine Fin.ext ?_
    match a with
    | ⟨0, _⟩ => exact lhs_axis0 d hln hlb _ _
    | ⟨1, _⟩ => exact (lhs_axis1 d hlc _ _).trans hk
  have er : d.rhsIdx (ix2 p q) ((contrEquiv1 d K hr hs).symm k) = ix2 k q := by
    funext a
    refine Fin.ext ?_
    match a with
    | ⟨0, _⟩ => exact (rhs_axis0 d hlc hrc _ _).trans hk
    | ⟨1, _⟩ => exact rhs_axis1 d hln hrn hlb hrb _ _
  rw [el, er]

/-- A kernel's matmul into the zero accumulator, read at (p, q). -/
theorem matmul_zero_plain (hlc : d.lhsContracting = [1]) (hrc : d.rhsContracting = [0]) (hln : d.lhsNonContracting = [0])
    (hrn : d.rhsNonContracting = [1]) (hlb : d.lhsBatch = []) (hrb : d.rhsBatch = [])
    {φ₁ φ₂ : FTy} (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, (l (ix2 p k) : EReal) * (r (ix2 k q) : EReal) :=
  (Ideal.matmul_constant_zero_apply d prec l r (ix2 p q)).trans (sum_plain d hlc hrc hln hrn hlb hrb l r p q)

/-- The host's dot_general, read at (p, q). -/
theorem dotGeneral_plain (hlc : d.lhsContracting = [1]) (hrc : d.rhsContracting = [0]) (hln : d.lhsNonContracting = [0])
    (hrn : d.rhsNonContracting = [1]) (hlb : d.lhsBatch = []) (hrb : d.rhsBatch = [])
    {φ₁ φ₂ : FTy} (prec : Option ContractPrecision) (sched : HostSchedule) (l : FVec Ideal ⟨2, ![M, K]⟩ φ₁)
    (r : FVec Ideal ⟨2, ![K, N]⟩ φ₂) (p : Fin M) (q : Fin N) :
    FloatOps.dotGeneral d prec sched l r (ix2 p q) = ∑ k : Fin K, (l (ix2 p k) : EReal) * (r (ix2 k q) : EReal) :=
  (Ideal.dotGeneral_apply d prec sched l r (ix2 p q)).trans (sum_plain d hlc hrc hln hrn hlb hrb l r p q)

end Cert.LibPlainDot

end
-- ==== Proof.Spec.lean ====
/-
  What the network computes, array by array, over the extended reals.

  Nodes carry 128 features. The first features of node r are row z r of the embedding table: written as a sum over
  table rows k of [z r = k] · table (k, q) (lookupG: the indicator is 1 at the one row whose number is z r and 0 at
  every other, so with z r inside the table the sum is that row). A layer then (a) projects the 4 edge attributes to 128
  channels, e (i, q) = Σ k, attr (i, k) · We (k, q) + be q (edgeG); (b) gathers the source node's features along each
  edge, adds e, clips below at 0 and sums the result over the edges into their destination nodes (aggr: the gather, the
  maximum with 0 and the scatter-add are the same three host operations in both programs, so they stay as they are);
  (c) adds that sum to the node's own features and applies two dense maps with a sigmoid-weighted unit between them,
  t ↦ t · logistic t (mlpG). layerG is (a), (b), (c) in a row; the network is three layers over the looked-up rows.

  Every function of a matrix is written row by row over explicit coordinates (edgeAt, hiddenAt, mlpAt), so that a block
  of rows of the result is visibly the same function of the same block of rows of the row-wise operands.
-/
import Idealize.ShloMosaic.PureOps.Ideal
import Idealize.ShloMosaic.PureOps.Ideal.Laws
import Idealize.ShloMosaic.PureOps.ShapeOps
import Idealize.ShloMosaic.PureOps.Contract
import Idealize.ShloMosaic.Lib.ValueIdx

noncomputable section

open scoped BigOperators

namespace Cert.Gine

open Idealize.ShloMosaic Idealize.ShloMosaic.ValueIdx

/-- An R × C matrix of extended reals. -/
abbrev Mat (R C : Nat) : Type := (⟨2, ![R, C]⟩ : Shape).Idx → EReal

/-- The number of nodes and of edges. -/
abbrev NN : Nat := 100000
abbrev NE : Nat := 600000

/-! ## A table row picked by an indicator sum -/

/-- 1 when the word is the number k, 0 when it is not: an equality test widened to 32 bits and read as an integer. -/
def hot (zv : BitVec 32) (k : Nat) : EReal :=
  ((((IntOp.cmpi .eq zv (BitVec.ofNat 32 k)).setWidth 32).toInt : ℝ) : EReal)

/-- Column q of the table row the word names, as the sum over all rows of indicator times entry. -/
def lookupAt {V : Nat} (zv : BitVec 32) (tbl : Mat V 128) (q : Fin 128) : EReal :=
  ∑ k : Fin V, hot zv k.val * tbl (ix2 k q)

/-- Row r of the result is the table row that entry r of the column of words names. -/
def lookupG {R V : Nat} (z : (⟨2, ![R, 1]⟩ : Shape).Idx → BitVec 32) (tbl : Mat V 128) : Mat R 128 :=
  fun i => lookupAt (z (ix2 (i 0 : Fin R) (0 : Fin 1))) tbl (i 1 : Fin 128)

theorem lookupG_apply {R V : Nat} (z : (⟨2, ![R, 1]⟩ : Shape).Idx → BitVec 32) (tbl : Mat V 128) (p : Fin R)
    (q : Fin 128) : lookupG z tbl (ix2 p q) = lookupAt (z (ix2 p (0 : Fin 1))) tbl q := rfl

/-! ## The edge projection -/

/-- Channel q of edge p: the 4 attributes against column q of the weights, plus the bias. -/
def edgeAt {R : Nat} (ea : Mat R 4) (We : Mat 4 128) (be : Mat 1 128) (p : Fin R) (q : Fin 128) : EReal :=
  (∑ k : Fin 4, ea (ix2 p k) * We (ix2 k q)) + be (ix2 (0 : Fin 1) q)

def edgeG {R : Nat} (ea : Mat R 4) (We : Mat 4 128) (be : Mat 1 128) : Mat R 128 :=
  fun i => edgeAt ea We be (i 0 : Fin R) (i 1 : Fin 128)

theorem edgeG_apply {R : Nat} (ea : Mat R 4) (We : Mat 4 128) (be : Mat 1 128) (p : Fin R) (q : Fin 128) :
    edgeG ea We be (ix2 p q) = edgeAt ea We be p q := rfl

/-- Edge p's channels depend on edge p's attributes only. -/
theorem edgeAt_congr {R R' : Nat} (ea : Mat R 4) (ea' : Mat R' 4) (We : Mat 4 128) (be : Mat 1 128) (p : Fin R)
    (p' : Fin R') (h : ∀ k : Fin 4, ea (ix2 p k) = ea' (ix2 p' k)) (q : Fin 128) :
    edgeAt ea We be p q = edgeAt ea' We be p' q := by
  unfold edgeAt
  exact congrArg (· + be (ix2 (0 : Fin 1) q)) (Finset.sum_congr rfl fun k _ => by rw [h k])

/-! ## The node update -/

/-- The unit between the two dense maps: t · logistic t. -/
def silu (t : EReal) : EReal := t * Ideal.logistic t

/-- Hidden channel k of node p: the node's features plus the aggregated messages, against column k of the first
    weights, plus the first bias. -/
def hiddenAt {R : Nat} (x agg : Mat R 128) (W1 : Mat 128 128) (b1 : Mat 1 128) (p : Fin R) (k : Fin 128) : EReal :=
  (∑ j : Fin 128, (x (ix2 p j) + agg (ix2 p j)) * W1 (ix2 j k)) + b1 (ix2 (0 : Fin 1) k)

/-- Output channel q of node p. -/
def mlpAt {R : Nat} (x agg : Mat R 128) (W1 : Mat 128 128) (b1 : Mat 1 128) (W2 : Mat 128 128) (b2 : Mat 1 128)
    (p : Fin R) (q : Fin 128) : EReal :=
  (∑ k : Fin 128, silu (hiddenAt x agg W1 b1 p k) * W2 (ix2 k q)) + b2 (ix2 (0 : Fin 1) q)

def mlpG {R : Nat} (x agg : Mat R 128) (W1 : Mat 128 128) (b1 : Mat 1 128) (W2 : Mat 128 128) (b2 : Mat 1 128) :
    Mat R 128 :=
  fun i => mlpAt x agg W1 b1 W2 b2 (i 0 : Fin R) (i 1 : Fin 128)

theorem mlpG_apply {R : Nat} (x agg : Mat R 128) (W1 : Mat 128 128) (b1 : Mat 1 128) (W2 : Mat 128 128)
    (b2 : Mat 1 128) (p : Fin R) (q : Fin 128) : mlpG x agg W1 b1 W2 b2 (ix2 p q) = mlpAt x agg W1 b1 W2 b2 p q := rfl

/-- Node p's output depends on node p's features and messages only. -/
theorem mlpAt_congr {R R' : Nat} (x agg : Mat R 128) (x' agg' : Mat R' 128) (W1 : Mat 128 128) (b1 : Mat 1 128)
    (W2 : Mat 128 128) (b2 : Mat 1 128) (p : Fin R) (p' : Fin R')
    (hx : ∀ j : Fin 128, x (ix2 p j) = x' (ix2 p' j)) (ha : ∀ j : Fin 128, agg (ix2 p j) = agg' (ix2 p' j))
    (q : Fin 128) : mlpAt x agg W1 b1 W2 b2 p q = mlpAt x' agg' W1 b1 W2 b2 p' q := by
  unfold mlpAt hiddenAt
  refine congrArg (· + b2 (ix2 (0 : Fin 1) q)) (Finset.sum_congr rfl fun k _ => ?_)
  refine congrArg (fun t => silu (t + b1 (ix2 (0 : Fin 1) k)) * W2 (ix2 k q)) (Finset.sum_congr rfl fun j _ => ?_)
  rw [hx j, ha j]

/-! ## Messages along the edges, summed at their destinations -/

/-- The source node's features along each edge (a negative source counted from the end, then clamped, as the gather
    reads it) plus the edge's channels, clipped below at 0, summed over the edges into their destination rows. -/
def aggr (gd : GatherDims ⟨2, ![NN, 128]⟩ ⟨2, ![NE, 1]⟩ ⟨2, ![NE, 128]⟩)
    (sd : ScatterDims ⟨2, ![NN, 128]⟩ ⟨2, ![NE, 1]⟩ ⟨2, ![NE, 128]⟩)
    (x : Mat NN 128) (e : Mat NE 128) (src dst : IVec ⟨1, ![NE]⟩ 32) : Mat NN 128 :=
  Host.scatterAdd (F := Ideal) (φ := .f32) sd
    (broadcastInDim ⟨2, ![NN, 128]⟩ ![] (by decide) (constant (F := Ideal) ⟨0, ![]⟩ .f32 0x00000000#32))
    (broadcastInDim ⟨2, ![NE, 1]⟩ ![0] (by decide) dst)
    (maximumf (F := Ideal) (φ := .f32)
      (addf (F := Ideal) (φ := .f32)
        (Host.gather gd x (broadcastInDim ⟨2, ![NE, 1]⟩ ![0] (by decide)
          (select (cmpi .slt src (broadcastInDim ⟨1, ![NE]⟩ ![] (by decide) (constantI ⟨0, ![]⟩ 32 0#32)))
            (addi src (broadcastInDim ⟨1, ![NE]⟩ ![] (by decide) (constantI ⟨0, ![]⟩ 32 100000#32))) src)))
        e)
      (broadcastInDim ⟨2, ![NE, 128]⟩ ![] (by decide) (constant (F := Ideal) ⟨0, ![]⟩ .f32 0x00000000#32)))

/-! ## A layer -/

/-- A layer's weights: the edge projection's, and the two dense maps' (each bias as a 1 × 128 row). -/
structure LayerP where
  We : Mat 4 128
  be : Mat 1 128
  W1 : Mat 128 128
  b1 : Mat 1 128
  W2 : Mat 128 128
  b2 : Mat 1 128

/-- One layer: project the edges, aggregate the messages, update the nodes. -/
def layerG (gd : GatherDims ⟨2, ![NN, 128]⟩ ⟨2, ![NE, 1]⟩ ⟨2, ![NE, 128]⟩)
    (sd : ScatterDims ⟨2, ![NN, 128]⟩ ⟨2, ![NE, 1]⟩ ⟨2, ![NE, 128]⟩)
    (ea : Mat NE 4) (src dst : IVec ⟨1, ![NE]⟩ 32) (X : Mat NN 128) (P : LayerP) : Mat NN 128 :=
  mlpG X (aggr gd sd X (edgeG ea P.We P.be) src dst) P.W1 P.b1 P.W2 P.b2

end Cert.Gine

end
-- ==== Proof.Region0.lean ====
/-
  The embedding lookup's region: what its output array holds when the region ends.

  The grid has 20 points; point t stages rows 5000·t … 5000·t + 4999 of the 100000 × 1 column of node types and the whole
  128 × 128 padded table, and writes back rows 5000·t … 5000·t + 4999 of the output. The body compares the node type of
  block row p with the lane numbers 0 … 127 (the type broadcast along the row against an iota), widens the one-bit
  outcome to a 32-bit word, reads it as a float, and multiplies the resulting 5000 × 128 indicator matrix by the table:
  entry (p, q) of the stored block is the sum over table rows k of [type of p = k] · table (k, q) (pay_apply; the product
  into a zero accumulator is the plain sum, a change of float format is the identity). Row p of block t of the type
  column is row 5000·t + p of the array and the table's window is its array whole, so what point t writes back is block
  t of lookupG of the two arrays as the region finds them (flushed_eq). The 20 blocks tile the 100000 rows (cover), so the
  array ends at lookupG of them (final).
-/
import proofs.«424670_j1254130450544_1_alg».proof.Proof.Gen.KernelIdeal.Frame
import Idealize.ShloMosaic.Lib.Pipeline.Value
import Idealize.ShloMosaic.Lib.ValueIdx
import Idealize.ShloMosaic.PureOps.Ideal.Laws
import proofs.«424670_j1254130450544_1_alg».proof.Proof.LibPlainDot
import proofs.«424670_j1254130450544_1_alg».proof.Proof.Spec

set_option maxRecDepth 16384

noncomputable section

namespace Cert.KernelIdeal.Region0

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The looked-up row depends on the word and on the table. -/
theorem lookupAt_congr {V₁ : Nat} (zv zv' : BitVec 32) (tbl tbl' : Mat V₁ 128) (hzv : zv = zv') (ht : tbl = tbl')
    (q : Fin 128) : lookupAt zv tbl q = lookupAt zv' tbl' q := by
  subst hzv ht; rfl

/-- The indicator matrix at (p, k): 1 when the type of block row p is the lane number k, else 0. -/
theorem hot_apply (x0 : Vec Ideal S5000x1 .i32) (p : Fin 5000) (k : Fin 128) :
    (truncf .bf16 (sitofp (F := Ideal) .f32 (extui 32 (cmpi .eq (broadcastTo S5000x128 x0 broadcasts_S5000x1_S5000x128)
        (iota .tc S5000x128 32 [1] iota_S5000x128_d1_w32)) natLt_1_32)) bitsLt_bf16_f32 : FVec Ideal S5000x128 .bf16) (ix2 p k)
      = hot (x0 (ix2 p (0 : Fin 1))) k.val := by
  have e1 : broadcastTo S5000x128 x0 broadcasts_S5000x1_S5000x128 (ix2 p k) = x0 (ix2 p (0 : Fin 1)) :=
    broadcastTo_apply x0 _ (ix2 p k) (ix2 p (0 : Fin 1)) (fun a => by
      match a with
      | ⟨0, _⟩ => rfl
      | ⟨1, _⟩ => rfl)
  have e2 : iota .tc S5000x128 32 [1] iota_S5000x128_d1_w32 (ix2 p k) = BitVec.ofNat 32 k.val :=
    iota_single_apply .tc S5000x128 32 1 _ (ix2 p k)
  show ((((IntOp.cmpi .eq (broadcastTo S5000x128 x0 broadcasts_S5000x1_S5000x128 (ix2 p k))
      (iota .tc S5000x128 32 [1] iota_S5000x128_d1_w32 (ix2 p k))).setWidth 32).toInt : ℝ) : EReal) = _
  rw [e1, e2]
  rfl

/-- THE BODY'S STORE at (p, q): the indicator row of block row p against column q of the table. -/
theorem pay_apply (x0 : Vec Ideal S5000x1 .i32) (x1 : Vec Ideal S128x128 .f32) (p : Fin 5000) (q : Fin 128) :
    k0_pay1 (F := Ideal) x0 x1 (ix2 p q) = lookupAt (x0 (ix2 p (0 : Fin 1))) x1 q := by
  unfold k0_pay1 lookupAt
  simp only [shapeCast_self]
  refine (Cert.LibPlainDot.matmul_zero_plain dot_S5000x128_S128x128_S5000x128_1_0_0_1_n_n rfl rfl rfl rfl rfl rfl none _ _ p q).trans ?_
  refine Finset.sum_congr rfl fun k _ => ?_
  refine congrArg (· * (x1 (ix2 k q) : EReal)) ?_
  exact hot_apply x0 p k

/-- The printed index maps over the grid: the row windows are at block t, the table's window at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 2000000 in
/-- WHAT POINT t WRITES BACK is block t of lookupG of the arrays as the region finds them. -/
theorem flushed_eq (c : Dev nD) (t : Fin cfg0.N) :
    (dat0 (F := Ideal) V c).flushed 2 t
      = ((cfg0.win 2).blk t).view.read (Elt Ideal) (lookupG (V c main_v7) (V c main_v6)) := by
  show (cfg0.win 2).cut (grid0.coords t) ((dat0 (F := Ideal) V c).after 2 t) = _
  rw [after0_2]
  unfold out0_2
  rw [View.canon_unit_zero hz]
  simp only [View.ld_unit_zero (S := S5000x1) hz, View.ld_unit_zero (S := S128x128) hz]
  obtain ⟨e00, e01, e10, e11, e20, e21⟩ := idx_facts t
  have ht : t.val < 20 := t.isLt
  funext j
  obtain ⟨p, q, rfl⟩ : ∃ (p : Fin 5000) (q : Fin 128), j = ix2 p q := ⟨j 0, j 1, eq_ix2 j⟩
  have hp := p.isLt
  have hq := q.isLt
  show k0_pay1 (F := Ideal) (iblk0 V c 0 t) (iblk0 V c 1 t) (ix2 p q)
    = lookupG (V c main_v7) (V c main_v6) (((cfg0.win 2).blk t).view.emb (ix2 p q))
  refine (pay_apply (iblk0 V c 0 t) (iblk0 V c 1 t) p q).trans ?_
  have hemb : ((cfg0.win 2).blk t).view.emb (ix2 p q)
      = (ix2 (⟨t.val * 5000 + p.val, by omega⟩ : Fin 100000) q : S100000x128.Idx) := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hemb, lookupG_apply]
  refine lookupAt_congr (iblk0 V c 0 t (ix2 p (0 : Fin 1))) (V c main_v7 (ix2 (⟨t.val * 5000 + p.val, by omega⟩ : Fin 100000) (0 : Fin 1)))
    (iblk0 V c 1 t) (V c main_v6) ?_ ?_ q
  · show V c main_v7 (((cfg0.win 0).blk t).view.emb (ix2 p (0 : Fin 1)))
      = V c main_v7 (ix2 (⟨t.val * 5000 + p.val, by omega⟩ : Fin 100000) (0 : Fin 1))
    refine congrArg (V c main_v7) ?_
    funext a; apply Fin.ext
    match a with
    | ⟨0, _⟩ => show win0_0.index t (0 : Fin 2) * 5000 + 1 * p.val = t.val * 5000 + p.val; omega
    | ⟨1, _⟩ => show win0_0.index t (1 : Fin 2) * 1 + 1 * 0 = 0; omega
  · funext y
    show V c main_v6 (((cfg0.win 1).blk t).view.emb y) = V c main_v6 y
    refine congrArg (V c main_v6) ?_
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v8).slice (win0_2.rect t)).set ↔ _
  rw [View.set_slice_whole, Rect.mem_set_unit]
  exact Iff.rfl

/-- The 20 blocks of 5000 rows tile the 100000 rows: row r is in the block of point r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 5000, by show (i 0).val / 5000 < 20; omega⟩, flush0_2 _, ?_⟩
  rw [mem_blk]
  obtain ⟨-, -, -, -, e20, e21⟩ := idx_facts ⟨(i 0).val / 5000, by show (i 0).val / 5000 < 20; omega⟩
  intro a
  match a with
  | ⟨0, _⟩ =>
    show win0_2.index ⟨(i 0).val / 5000, _⟩ (0 : Fin 2) * 5000 ≤ (i 0).val
      ∧ (i 0).val < win0_2.index ⟨(i 0).val / 5000, _⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, _⟩ (1 : Fin 2) * 128 ≤ (i 1).val
      ∧ (i 1).val < win0_2.index ⟨(i 0).val / 5000, _⟩ (1 : Fin 2) * 128 + 128
    rw [e21]; omega

/-- THE OUTPUT ARRAY WHEN THE REGION ENDS: lookupG of the type column and the padded table as the region finds them. -/
theorem final (c : Dev nD) :
    (dat0 (F := Ideal) V c).arrAt 2 cfg0.N = lookupG (V c main_v7) (V c main_v6) :=
  (dat0 (F := Ideal) V c).arrAt_eq_of_cover 2 _ (fun t _ => flushed_eq V c t) cover

end Cert.KernelIdeal.Region0

end
-- ==== Proof.KBase.lean ====
/-
  The kernel program's first stretch and first region, in terms of the launch memory.

  The first stretch of host operations cuts the edge index into its source row and its destination row (srcK, dstK),
  writes the 100 × 128 embedding table over rows 0 … 99 of a 128 × 128 array of zeros, and views the node types as a
  100000 × 1 column. The first region then looks every node's row up in the padded table by an indicator sum: its
  output array, as the next segments find it, is lookupG of that column and that padded table (x0_val).
-/
import proofs.«424670_j1254130450544_1_alg».proof.Proof.Keep
import proofs.«424670_j1254130450544_1_alg».proof.Proof.KeepTable
import proofs.«424670_j1254130450544_1_alg».proof.Proof.Region0
import proofs.«424670_j1254130450544_1_alg».proof.Proof.Spec

set_option maxRecDepth 16384

noncomputable section

namespace Cert.KernelIdeal.KBase

open Cert.KernelIdeal Cert.KernelIdeal.Gen Cert.KernelIdeal.Keep Cert.Gine
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The edge attributes, and the source and destination rows of the edge index. -/
def eaK : Mat NE 4 := (m ((c.tc : Thread nD τ).loc main_arg7))
def srcK : IVec ⟨1, ![NE]⟩ 32 :=
  shapeCast S600000 (extractStridedSlice S1x600000 ![0, 0] (m ((c.tc : Thread nD τ).loc main_arg9)) slices_S2x600000_S1x600000_0_0) shapeCasts_S1x600000_S600000
def dstK : IVec ⟨1, ![NE]⟩ 32 :=
  shapeCast S600000 (extractStridedSlice S1x600000 ![1, 0] (m ((c.tc : Thread nD τ).loc main_arg9)) slices_S2x600000_S1x600000_1_0) shapeCasts_S1x600000_S600000

/-- The node types as a column, and the embedding table padded with zero rows to 128 rows. -/
def zcolK : (⟨2, ![NN, 1]⟩ : Shape).Idx → BitVec 32 := shapeCast S100000x1 (m ((c.tc : Thread nD τ).loc main_arg8)) shapeCasts_S100000_S100000x1
def padK : Mat 128 128 :=
  Host.scatter scatter_S128x128_S1_S100x128_01_n_0_0 (fun _ b => b)
    (broadcastInDim S128x128 ![] bcast_S_S128x128 (constant (F := Ideal) S_ .f32 0x00000000#32))
    (broadcastInDim S1 ![] bcast_S_S1 (constantI S_ 32 0#32)) (m ((c.tc : Thread nD τ).loc main_arg0))

/-- An argument the first stretch does not write, at boundary 1. -/
theorem arg1_at1 : W1 m ρ c (Proc.devRef .tc main_arg1) = (m ((c.tc : Thread nD τ).loc main_arg1)) := arg_at1 m ρ c (.inl rfl)
theorem arg2_at1 : W1 m ρ c (Proc.devRef .tc main_arg2) = (m ((c.tc : Thread nD τ).loc main_arg2)) := arg_at1 m ρ c (.inr (.inl rfl))
theorem arg3_at1 : W1 m ρ c (Proc.devRef .tc main_arg3) = (m ((c.tc : Thread nD τ).loc main_arg3)) := arg_at1 m ρ c (.inr (.inr (.inl rfl)))
theorem arg4_at1 : W1 m ρ c (Proc.devRef .tc main_arg4) = (m ((c.tc : Thread nD τ).loc main_arg4)) := arg_at1 m ρ c (.inr (.inr (.inr (.inl rfl))))
theorem arg5_at1 : W1 m ρ c (Proc.devRef .tc main_arg5) = (m ((c.tc : Thread nD τ).loc main_arg5)) :=
  arg_at1 m ρ c (.inr (.inr (.inr (.inr (.inl rfl)))))
theorem arg6_at1 : W1 m ρ c (Proc.devRef .tc main_arg6) = (m ((c.tc : Thread nD τ).loc main_arg6)) :=
  arg_at1 m ρ c (.inr (.inr (.inr (.inr (.inr (.inl rfl))))))
theorem arg7_at1 : W1 m ρ c (Proc.devRef .tc main_arg7) = eaK m c :=
  arg_at1 m ρ c (.inr (.inr (.inr (.inr (.inr (.inr rfl))))))

/-- The source and destination rows after the first stretch. -/
theorem v1_at1 : W1 m ρ c (Proc.devRef .tc main_v1) = srcK m c := by
  show StableHlo.after hostOps0 (W0 m ρ c) (Proc.devRef .tc main_v1) = _
  simp only [hostOps0]
  after_results
  rfl
theorem v3_at1 : W1 m ρ c (Proc.devRef .tc main_v3) = dstK m c := by
  show StableHlo.after hostOps0 (W0 m ρ c) (Proc.devRef .tc main_v3) = _
  simp only [hostOps0]
  after_results
  rfl

/-- The node-type column and the padded table after the first stretch. -/
theorem v7_at1 : W1 m ρ c (Proc.devRef .tc main_v7) = zcolK m c := by
  show StableHlo.after hostOps0 (W0 m ρ c) (Proc.devRef .tc main_v7) = _
  simp only [hostOps0]
  after_results
  rfl
theorem v6_at1 : W1 m ρ c (Proc.devRef .tc main_v6) = padK m c := by
  show StableHlo.after hostOps0 (W0 m ρ c) (Proc.devRef .tc main_v6) = _
  simp only [hostOps0]
  after_results
  rfl

/-- THE FIRST REGION'S OUTPUT as the later segments find it: the rows looked up in the padded table. -/
theorem x0_val : W2 m ρ c (Proc.devRef .tc main_v8) = lookupG (zcolK m c) (padK m c) := by
  refine (W2_arr m ρ c 2).trans ((Region0.final (V1 m ρ) c).trans ?_)
  show lookupG (W1 m ρ c (Proc.devRef .tc main_v7)) (W1 m ρ c (Proc.devRef .tc main_v6)) = _
  rw [v7_at1, v6_at1]

end Cert.KernelIdeal.KBase

end
-- ==== Proof.Region1.lean ====
/-
  The edge projection's region: what its output array holds when the region ends.

  The grid has 75 points; point t stages rows 8000·t … 8000·t + 7999 of the edge attributes, the whole 4 × 128 weight
  matrix and the whole 1 × 128 bias row, and writes back rows 8000·t … 8000·t + 7999 of the output. The body's one store
  is, entry (p, q) of the block, the 4 attributes of block row p against column q of the weights plus the bias
  (pay_apply: the product into a zero accumulator is the plain sum, a change of float format is the identity, the bias row
  is broadcast down the rows). Row p of block t of the attributes is row 8000·t + p of the array and the two small
  windows are their arrays whole, so what point t writes back is block t of edgeG of the three arrays as the region finds
  them (flushed_eq). The 75 blocks tile the 600000 rows (cover), so the array ends at edgeG of them (final).
-/
import proofs.«424670_j1254130450544_1_alg».proof.Proof.Gen.KernelIdeal.Frame
import Idealize.ShloMosaic.Lib.Pipeline.Value
import Idealize.ShloMosaic.Lib.ValueIdx
import Idealize.ShloMosaic.PureOps.Ideal.Laws
import proofs.«424670_j1254130450544_1_alg».proof.Proof.LibPlainDot
import proofs.«424670_j1254130450544_1_alg».proof.Proof.Spec

set_option maxRecDepth 16384

noncomputable section

namespace Cert.KernelIdeal.Region1

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The edge projection at a row depends on that row of the attributes, and on the weights and the bias. -/
theorem edgeAt_congr3 {R R' : Nat} (ea : Mat R 4) (ea' : Mat R' 4) (We We' : Mat 4 128) (be be' : Mat 1 128) (p : Fin R)
    (p' : Fin R') (h : ∀ k : Fin 4, ea (ix2 p k) = ea' (ix2 p' k)) (hW : We = We') (hb : be = be') (q : Fin 128) :
    edgeAt ea We be p q = edgeAt ea' We' be' p' q := by
  subst hW hb
  exact edgeAt_congr ea ea' We be p p' h q

/-- THE BODY'S STORE at (p, q): the 4 attributes of block row p against column q of the weights, plus the bias. -/
theorem pay_apply (x0 : Vec Ideal S8000x4 .f32) (x1 : Vec Ideal S4x128 .f32) (x2 : Vec Ideal S1x128 .f32)
    (p : Fin 8000) (q : Fin 128) :
    k1_pay1 (F := Ideal) x0 x1 x2 (ix2 p q) = edgeAt x0 x1 x2 p q := by
  unfold k1_pay1 edgeAt
  refine (addf_apply _ _ (ix2 p q)).trans ?_
  congr 1
  · refine (Cert.LibPlainDot.matmul_zero_plain dot_S8000x4_S4x128_S8000x128_1_0_0_1_n_n rfl rfl rfl rfl rfl rfl none _ _ p q).trans ?_
    refine Finset.sum_congr rfl fun k _ => ?_
    rw [shapeCast_self]
    rfl
  · rw [shapeCast_self]
    exact broadcastTo_apply x2 _ (ix2 p q) (ix2 (0 : Fin 1) q) (fun a => by
      match a with
      | ⟨0, _⟩ => rfl
      | ⟨1, _⟩ => rfl)

/-- The printed index maps over the grid: the row windows are at block t, the small windows at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 2000000 in
/-- WHAT POINT t WRITES BACK is block t of edgeG of the arrays as the region finds them. -/
theorem flushed_eq (c : Dev nD) (t : Fin cfg1.N) :
    (dat1 (F := Ideal) V c).flushed 3 t
      = ((cfg1.win 3).blk t).view.read (Elt Ideal) (edgeG (V c main_arg7) (V c main_v10) (V c main_v13)) := by
  show (cfg1.win 3).cut (grid1.coords t) ((dat1 (F := Ideal) V c).after 3 t) = _
  rw [after1_3]
  unfold out1_3
  rw [View.canon_unit_zero hz]
  simp only [View.ld_unit_zero (S := S8000x4) hz, View.ld_unit_zero (S := S4x128) hz, View.ld_unit_zero (S := S1x128) hz]
  obtain ⟨e00, e01, e10, e11, e20, e21, e30, e31⟩ := idx_facts t
  have ht : t.val < 75 := t.isLt
  funext j
  obtain ⟨p, q, rfl⟩ : ∃ (p : Fin 8000) (q : Fin 128), j = ix2 p q := ⟨j 0, j 1, eq_ix2 j⟩
  have hp := p.isLt
  have hq := q.isLt
  show k1_pay1 (F := Ideal) (iblk1 V c 0 t) (iblk1 V c 1 t) (iblk1 V c 2 t) (ix2 p q)
    = edgeG (V c main_arg7) (V c main_v10) (V c main_v13) (((cfg1.win 3).blk t).view.emb (ix2 p q))
  refine (pay_apply (iblk1 V c 0 t) (iblk1 V c 1 t) (iblk1 V c 2 t) p q).trans ?_
  have hemb : ((cfg1.win 3).blk t).view.emb (ix2 p q)
      = (ix2 (⟨t.val * 8000 + p.val, by omega⟩ : Fin 600000) q : S600000x128.Idx) := by
    funext a; apply Fin.ext
    match a with
    | ⟨0, _⟩ => show win1_3.index t (0 : Fin 2) * 8000 + 1 * p.val = t.val * 8000 + p.val; omega
    | ⟨1, _⟩ => show win1_3.index t (1 : Fin 2) * 128 + 1 * q.val = q.val; omega
  rw [hemb, edgeG_apply]
  refine edgeAt_congr3 (iblk1 V c 0 t) (V c main_arg7) (iblk1 V c 1 t) (V c main_v10) (iblk1 V c 2 t) (V c main_v13)
    p ⟨t.val * 8000 + p.val, by omega⟩ (fun k => ?_) ?_ ?_ q
  · show V c main_arg7 (((cfg1.win 0).blk t).view.emb (ix2 p k)) = V c main_arg7 (ix2 (⟨t.val * 8000 + p.val, by omega⟩ : Fin 600000) k)
    refine congrArg (V c main_arg7) ?_
    funext a; apply Fin.ext
    match a with
    | ⟨0, _⟩ => show win1_0.index t (0 : Fin 2) * 8000 + 1 * p.val = t.val * 8000 + p.val; omega
    | ⟨1, _⟩ => show win1_0.index t (1 : Fin 2) * 4 + 1 * k.val = k.val; omega
  · funext y
    show V c main_v10 (((cfg1.win 1).blk t).view.emb y) = V c main_v10 y
    refine congrArg (V c main_v10) ?_
    funext a; apply Fin.ext
    match a with
    | ⟨0, _⟩ => show win1_1.index t (0 : Fin 2) * 4 + 1 * (y 0).val = (y 0).val; omega
    | ⟨1, _⟩ => show win1_1.index t (1 : Fin 2) * 128 + 1 * (y 1).val = (y 1).val; omega
  · funext y
    show V c main_v13 (((cfg1.win 2).blk t).view.emb y) = V c main_v13 y
    refine congrArg (V c main_v13) ?_
    funext a; apply Fin.ext
    match a with
    | ⟨0, _⟩ => show win1_2.index t (0 : Fin 2) * 1 + 1 * (y 0).val = (y 0).val; omega
    | ⟨1, _⟩ => show win1_2.index t (1 : Fin 2) * 128 + 1 * (y 1).val = (y 1).val; omega

/-- An index of the array is in point t's block iff each coordinate is in the block's range on its axis. -/
theorem mem_blk (t : Fin cfg1.N) (i : S600000x128.Idx) :
    i ∈ ((cfg1.win 3).blk t).view.set ↔ ∀ a : Fin 2, win1_3.index t a * S8000x128.size a ≤ (i a).val
      ∧ (i a).val < win1_3.index t a * S8000x128.size a + S8000x128.size a := by
  show i ∈ ((View.whole main_v14).slice (win1_3.rect t)).set ↔ _
  rw [View.set_slice_whole, Rect.mem_set_unit]
  exact Iff.rfl

/-- The 75 blocks of 8000 rows tile the 600000 rows: row r is in the block of point r / 8000. -/
theorem cover (i : S600000x128.Idx) :
    ∃ t : Fin cfg1.N, (cfg1.win 3).flush t = true ∧ i ∈ ((cfg1.win 3).blk t).view.set := by
  have hi0 : (i 0).val < 600000 := (i 0).isLt
  have hi1 : (i 1).val < 128 := (i 1).isLt
  refine ⟨⟨(i 0).val / 8000, by show (i 0).val / 8000 < 75; omega⟩, flush1_3 _, ?_⟩
  rw [mem_blk]
  obtain ⟨-, -, -, -, -, -, e30, e31⟩ := idx_facts ⟨(i 0).val / 8000, by show (i 0).val / 8000 < 75; omega⟩
  intro a
  match a with
  | ⟨0, _⟩ =>
    show win1_3.index ⟨(i 0).val / 8000, _⟩ (0 : Fin 2) * 8000 ≤ (i 0).val
      ∧ (i 0).val < win1_3.index ⟨(i 0).val / 8000, _⟩ (0 : Fin 2) * 8000 + 8000
    rw [e30]; show (i 0).val / 8000 * 8000 ≤ (i 0).val ∧ (i 0).val < (i 0).val / 8000 * 8000 + 8000; omega
  | ⟨1, _⟩ =>
    show win1_3.index ⟨(i 0).val / 8000, _⟩ (1 : Fin 2) * 128 ≤ (i 1).val
      ∧ (i 1).val < win1_3.index ⟨(i 0).val / 8000, _⟩ (1 : Fin 2) * 128 + 128
    rw [e31]; omega

/-- THE OUTPUT ARRAY WHEN THE REGION ENDS: edgeG of the attribute, weight and bias arrays as the region finds them. -/
theorem final (c : Dev nD) :
    (dat1 (F := Ideal) V c).arrAt 3 cfg1.N = edgeG (V c main_arg7) (V c main_v10) (V c main_v13) :=
  (dat1 (F := Ideal) V c).arrAt_eq_of_cover 3 _ (fun t _ => flushed_eq V c t) cover

end Cert.KernelIdeal.Region1

end
-- ==== Proof.Region2.lean ====
/-
  The node update's region: what its output array holds when the region ends.

  The grid has 20 points; point t stages rows 5000·t … 5000·t + 4999 of the node features and of the aggregated messages, the
  two 128 × 128 weight matrices and the two 1 × 128 bias rows whole, and writes back rows 5000·t … 5000·t + 4999 of the
  output. The body adds features and messages, multiplies by the first weights and adds the first bias (hid_apply), passes
  each entry t to t · logistic t, multiplies by the second weights and adds the second bias (pay_apply): entry (p, q) of
  the stored block is mlpAt of the staged blocks at (p, q); the products into a zero accumulator are plain sums and a
  change of float format is the identity. Row p of block t of a row window is row 5000·t + p of its array and the four
  small windows are their arrays whole, so what point t writes back is block t of mlpG of the six arrays as the region
  finds them (flushed_eq). The 20 blocks tile the 100000 rows (cover), so the array ends at mlpG of them (final).
-/
import proofs.«424670_j1254130450544_1_alg».proof.Proof.Gen.KernelIdeal.Frame
import Idealize.ShloMosaic.Lib.Pipeline.Value
import Idealize.ShloMosaic.Lib.ValueIdx
import Idealize.ShloMosaic.PureOps.Ideal.Laws
import proofs.«424670_j1254130450544_1_alg».proof.Proof.LibPlainDot
import proofs.«424670_j1254130450544_1_alg».proof.Proof.Spec

set_option maxRecDepth 16384

noncomputable section

namespace Cert.KernelIdeal.Region2

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The update of a node depends on that node's row of the features and of the messages, and on the weights. -/
theorem mlpAt_congr6 {R R' : Nat} (x agg : Mat R 128) (x' agg' : Mat R' 128) (W1 W1' : Mat 128 128) (b1 b1' : Mat 1 128)
    (W2 W2' : Mat 128 128) (b2 b2' : Mat 1 128) (p : Fin R) (p' : Fin R')
    (hx : ∀ j : Fin 128, x (ix2 p j) = x' (ix2 p' j)) (ha : ∀ j : Fin 128, agg (ix2 p j) = agg' (ix2 p' j))
    (h1 : W1 = W1') (h2 : b1 = b1') (h3 : W2 = W2') (h4 : b2 = b2') (q : Fin 128) :
    mlpAt x agg W1 b1 W2 b2 p q = mlpAt x' agg' W1' b1' W2' b2' p' q := by
  subst h1 h2 h3 h4
  exact mlpAt_congr x agg x' agg' W1 b1 W2 b2 p p' hx ha q

/-- The hidden value at (p, k): the sum of features and messages of block row p against column k of the first weights,
    plus the first bias. -/
theorem hid_apply (x0 x1 : Vec Ideal S5000x128 .f32) (x2 : Vec Ideal S128x128 .f32) (x3 : Vec Ideal S1x128 .f32)
    (p : Fin 5000) (k : Fin 128) :
    addf (F := Ideal) (φ := .f32)
        (matmul dot_S5000x128_S128x128_S5000x128_1_0_0_1_n_n none
          (truncf .bf16 (addf (F := Ideal) (φ := .f32) x0 x1) bitsLt_bf16_f32) (truncf .bf16 x2 bitsLt_bf16_f32)
          (constant S5000x128 .f32 0x00000000#32))
        (broadcastTo S5000x128 x3 broadcasts_S1x128_S5000x128) (ix2 p k)
      = hiddenAt x0 x1 x2 x3 p k := by
  refine (addf_apply _ _ (ix2 p k)).trans ?_
  unfold hiddenAt
  congr 1
  · refine (Cert.LibPlainDot.matmul_zero_plain dot_S5000x128_S128x128_S5000x128_1_0_0_1_n_n rfl rfl rfl rfl rfl rfl none _ _ p k).trans ?_
    exact Finset.sum_congr rfl fun j _ => rfl
  · exact broadcastTo_apply x3 _ (ix2 p k) (ix2 (0 : Fin 1) k) (fun a => by
      match a with
      | ⟨0, _⟩ => rfl
      | ⟨1, _⟩ => rfl)

/-- THE BODY'S STORE at (p, q): the node update of block row p, channel q. -/
theorem pay_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k2_pay1 (F := Ideal) x0 x1 x2 x3 x4 x5 (ix2 p q) = mlpAt x0 x1 x2 x3 x4 x5 p q := by
  unfold k2_pay1 mlpAt
  simp only [shapeCast_self]
  refine (addf_apply _ _ (ix2 p q)).trans ?_
  congr 1
  · refine (Cert.LibPlainDot.matmul_zero_plain dot_S5000x128_S128x128_S5000x128_1_0_0_1_n_n rfl rfl rfl rfl rfl rfl none _ _ p q).trans ?_
    refine Finset.sum_congr rfl fun k _ => ?_
    refine congrArg (· * (x4 (ix2 k q) : EReal)) ?_
    unfold silu
    rw [← hid_apply x0 x1 x2 x3 p k]
    rfl
  · exact broadcastTo_apply x5 _ (ix2 p q) (ix2 (0 : Fin 1) q) (fun a => by
      match a with
      | ⟨0, _⟩ => rfl
      | ⟨1, _⟩ => rfl)

/-- The printed index maps over the grid: the row windows are at block t, the small windows at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

set_option maxHeartbeats 2000000 in
/-- WHAT POINT t WRITES BACK is block t of mlpG of the arrays as the region finds them. -/
theorem flushed_eq (c : Dev nD) (t : Fin cfg2.N) :
    (dat2 (F := Ideal) V c).flushed 6 t
      = ((cfg2.win 6).blk t).view.read (Elt Ideal)
          (mlpG (V c main_v8) (V c main_v26) (V c main_v28) (V c main_v35) (V c main_v32) (V c main_v36)) := by
  show (cfg2.win 6).cut (grid2.coords t) ((dat2 (F := Ideal) V c).after 6 t) = _
  rw [after2_6]
  unfold out2_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61⟩ := idx_facts t
  have ht : t.val < 20 := t.isLt
  funext j
  obtain ⟨p, q, rfl⟩ : ∃ (p : Fin 5000) (q : Fin 128), j = ix2 p q := ⟨j 0, j 1, eq_ix2 j⟩
  have hp := p.isLt
  have hq := q.isLt
  show k2_pay1 (F := Ideal) (iblk2 V c 0 t) (iblk2 V c 1 t) (iblk2 V c 2 t) (iblk2 V c 3 t) (iblk2 V c 4 t) (iblk2 V c 5 t) (ix2 p q)
    = mlpG (V c main_v8) (V c main_v26) (V c main_v28) (V c main_v35) (V c main_v32) (V c main_v36)
        (((cfg2.win 6).blk t).view.emb (ix2 p q))
  refine (pay_apply (iblk2 V c 0 t) (iblk2 V c 1 t) (iblk2 V c 2 t) (iblk2 V c 3 t) (iblk2 V c 4 t) (iblk2 V c 5 t) p q).trans ?_
  have hemb : ((cfg2.win 6).blk t).view.emb (ix2 p q)
      = (ix2 (⟨t.val * 5000 + p.val, by omega⟩ : Fin 100000) q : S100000x128.Idx) := by
    funext a; apply Fin.ext
    match a with
    | ⟨0, _⟩ => show win2_6.index t (0 : Fin 2) * 5000 + 1 * p.val = t.val * 5000 + p.val; omega
    | ⟨1, _⟩ => show win2_6.index t (1 : Fin 2) * 128 + 1 * q.val = q.val; omega
  rw [hemb, mlpG_apply]
  refine mlpAt_congr6 (iblk2 V c 0 t) (iblk2 V c 1 t) (V c main_v8) (V c main_v26) (iblk2 V c 2 t) (V c main_v28)
    (iblk2 V c 3 t) (V c main_v35) (iblk2 V c 4 t) (V c main_v32) (iblk2 V c 5 t) (V c main_v36)
    p ⟨t.val * 5000 + p.val, by omega⟩ (fun k => ?_) (fun k => ?_) ?_ ?_ ?_ ?_ q
  · show V c main_v8 (((cfg2.win 0).blk t).view.emb (ix2 p k)) = V c main_v8 (ix2 (⟨t.val * 5000 + p.val, by omega⟩ : Fin 100000) k)
    refine congrArg (V c main_v8) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  · show V c main_v26 (((cfg2.win 1).blk t).view.emb (ix2 p k)) = V c main_v26 (ix2 (⟨t.val * 5000 + p.val, by omega⟩ : Fin 100000) k)
    refine congrArg (V c main_v26) ?_
    funext a; apply Fin.ext
    match a with
    | ⟨0, _⟩ => show win2_1.index t (0 : Fin 2) * 5000 + 1 * p.val = t.val * 5000 + p.val; omega
    | ⟨1, _⟩ => show win2_1.index t (1 : Fin 2) * 128 + 1 * k.val = k.val; omega
  · funext y
    show V c main_v28 (((cfg2.win 2).blk t).view.emb y) = V c main_v28 y
    refine congrArg (V c main_v28) ?_
    funext a; apply Fin.ext
    match a with
    | ⟨0, _⟩ => show win2_2.index t (0 : Fin 2) * 128 + 1 * (y 0).val = (y 0).val; omega
    | ⟨1, _⟩ => show win2_2.index t (1 : Fin 2) * 128 + 1 * (y 1).val = (y 1).val; omega
  · funext y
    show V c main_v35 (((cfg2.win 3).blk t).view.emb y) = V c main_v35 y
    refine congrArg (V c main_v35) ?_
    funext a; apply Fin.ext
    match a with
    | ⟨0, _⟩ => show win2_3.index t (0 : Fin 2) * 1 + 1 * (y 0).val = (y 0).val; omega
    | ⟨1, _⟩ => show win2_3.index t (1 : Fin 2) * 128 + 1 * (y 1).val = (y 1).val; omega
  · funext y
    show V c main_v32 (((cfg2.win 4).blk t).view.emb y) = V c main_v32 y
    refine congrArg (V c main_v32) ?_
    funext a; apply Fin.ext
    match a with
    | ⟨0, _⟩ => show win2_4.index t (0 : Fin 2) * 128 + 1 * (y 0).val = (y 0).val; omega
    | ⟨1, _⟩ => show win2_4.index t (1 : Fin 2) * 128 + 1 * (y 1).val = (y 1).val; omega
  · funext y
    show V c main_v36 (((cfg2.win 5).blk t).view.emb y) = V c main_v36 y
    refine congrArg (V c main_v36) ?_
    funext a; apply Fin.ext
    match a with
    | ⟨0, _⟩ => show win2_5.index t (0 : Fin 2) * 1 + 1 * (y 0).val = (y 0).val; omega
    | ⟨1, _⟩ => show win2_5.index t (1 : Fin 2) * 128 + 1 * (y 1).val = (y 1).val; omega

/-- An index of the array is in point t's block iff each coordinate is in the block's range on its axis. -/
theorem mem_blk (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v37).slice (win2_6.rect t)).set ↔ _
  rw [View.set_slice_whole, Rect.mem_set_unit]
  exact Iff.rfl

/-- The 20 blocks of 5000 rows tile the 100000 rows: row r is in the block of point r / 5000. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  refine ⟨⟨(i 0).val / 5000, by show (i 0).val / 5000 < 20; omega⟩, flush2_6 _, ?_⟩
  rw [mem_blk]
  obtain ⟨-, -, -, -, -, -, -, -, -, -, -, -, e60, e61⟩ := idx_facts ⟨(i 0).val / 5000, by show (i 0).val / 5000 < 20; omega⟩
  intro a
  match a with
  | ⟨0, _⟩ =>
    show win2_6.index ⟨(i 0).val / 5000, _⟩ (0 : Fin 2) * 5000 ≤ (i 0).val
      ∧ (i 0).val < win2_6.index ⟨(i 0).val / 5000, _⟩ (0 : Fin 2) * 5000 + 5000
    rw [e60]; show (i 0).val / 5000 * 5000 ≤ (i 0).val ∧ (i 0).val < (i 0).val / 5000 * 5000 + 5000; omega
  | ⟨1, _⟩ =>
    show win2_6.index ⟨(i 0).val / 5000, _⟩ (1 : Fin 2) * 128 ≤ (i 1).val
      ∧ (i 1).val < win2_6.index ⟨(i 0).val / 5000, _⟩ (1 : Fin 2) * 128 + 128
    rw [e61]; omega

/-- THE OUTPUT ARRAY WHEN THE REGION ENDS: mlpG of the feature, message, weight and bias arrays as the region finds
    them. -/
theorem final (c : Dev nD) :
    (dat2 (F := Ideal) V c).arrAt 6 cfg2.N
      = mlpG (V c main_v8) (V c main_v26) (V c main_v28) (V c main_v35) (V c main_v32) (V c main_v36) :=
  (dat2 (F := Ideal) V c).arrAt_eq_of_cover 6 _ (fun t _ => flushed_eq V c t) cover

end Cert.KernelIdeal.Region2

end
-- ==== Proof.KLayer0.lean ====
/-
  One layer of the kernel program between two node-feature arrays, in terms of the launch memory.

  The layer enters with the node features X in one buffer and leaves with the updated features in another. A stretch
  of host operations cuts the layer's edge-projection weights and bias out of the stacked arguments (We_val, be_val);
  the edge-projection region then leaves edgeG of the attributes and those (e_val). The next three stretches gather
  the source node's features along each edge and add the projection (v22_val), clip below at 0 (v23_val), sum over the
  edges into the destination rows (agg_val: this is aggr) and cut the two dense maps' weights and biases out of the
  stacked arguments (W1_val … b2_val); the node-update region leaves mlpG of all these (layer): the layer is layerG.
  What a stretch leaves in a buffer it writes is read off its operations over ANY entry contents (the section Stretch);
  between the segments the features' buffer is not written (x_at4, x_at7), and the stacked arguments and the two
  edge-index rows hold what they held after the first stretch.
-/
import proofs.«424670_j1254130450544_1_alg».proof.Proof.KBase
import proofs.«424670_j1254130450544_1_alg».proof.Proof.Region1
import proofs.«424670_j1254130450544_1_alg».proof.Proof.Region2

set_option maxRecDepth 16384

noncomputable section

namespace Cert.KernelIdeal.KLayer0

open Cert.KernelIdeal Cert.KernelIdeal.Gen Cert.KernelIdeal.Keep Cert.KernelIdeal.KBase Cert.Gine
open Idealize.ShloMosaic Idealize.ShloMosaic.TcCoe Idealize.SL.Sem Idealize.ShloMosaic.StableHlo

/-! ## The layer's slices of the stacked weights -/

/-- The layer's 4 × 128 edge-projection weights out of the stack of three. -/
def cutWe (a : FVec Ideal S3x4x128 .f32) : Mat 4 128 :=
  shapeCast S4x128 (extractStridedSlice S1x4x128 ![0, 0, 0] a slices_S3x4x128_S1x4x128_0_0_0) shapeCasts_S1x4x128_S4x128
/-- The layer's 128 × 128 weights out of a stack of three. -/
def cutW (a : FVec Ideal S3x128x128 .f32) : Mat 128 128 :=
  shapeCast S128x128 (extractStridedSlice S1x128x128 ![0, 0, 0] a slices_S3x128x128_S1x128x128_0_0_0) shapeCasts_S1x128x128_S128x128
/-- The layer's bias out of a stack of three, reshaped to a vector and then to a 1 × 128 row. -/
def cutb (a : FVec Ideal S3x128 .f32) : Mat 1 128 :=
  shapeCast S1x128 (shapeCast S128 (extractStridedSlice S1x128 ![0, 0] a slices_S3x128_S1x128_0_0) shapeCasts_S1x128_S128) shapeCasts_S128_S1x128

/-! ## What each stretch leaves in the buffers it writes, over any entry contents -/

section Stretch
variable (Wv : Valuation τ sig (Elt Ideal))

set_option maxHeartbeats 2000000 in
theorem s1_We : StableHlo.after hostOps1 Wv (Proc.devRef .tc main_v10) = cutWe (Wv (Proc.devRef .tc main_arg1)) := by
  simp only [hostOps1]
  after_results
  try rfl
set_option maxHeartbeats 2000000 in
theorem s1_be : StableHlo.after hostOps1 Wv (Proc.devRef .tc main_v13) = cutb (Wv (Proc.devRef .tc main_arg2)) := by
  simp only [hostOps1]
  after_results
  try rfl

set_option maxHeartbeats 2000000 in
theorem s2_v22 : StableHlo.after hostOps2 Wv (Proc.devRef .tc main_v22)
    = addf (F := Ideal) (φ := .f32)
        (Host.gather gather_S100000x128_S600000x1_S600000x128_1_0_n_n_0_1_1128 (Wv (Proc.devRef .tc main_v8))
          (broadcastInDim S600000x1 ![0] bcast_S600000_S600000x1_0
            (select (cmpi .slt (Wv (Proc.devRef .tc main_v1)) (broadcastInDim S600000 ![] bcast_S_S600000 (constantI S_ 32 0#32)))
              (addi (Wv (Proc.devRef .tc main_v1)) (broadcastInDim S600000 ![] bcast_S_S600000 (constantI S_ 32 100000#32))) (Wv (Proc.devRef .tc main_v1)))))
        (Wv (Proc.devRef .tc main_v14)) := by
  simp only [hostOps2]
  after_results
  try rfl

set_option maxHeartbeats 2000000 in
theorem s21_v23 : StableHlo.after hostOps2_1 Wv (Proc.devRef .tc main_v23)
    = maximumf (F := Ideal) (φ := .f32) (Wv (Proc.devRef .tc main_v22))
        (broadcastInDim S600000x128 ![] bcast_S_S600000x128 (constant (F := Ideal) S_ .f32 0x00000000#32)) := by
  simp only [hostOps2_1]
  after_results
  try rfl

set_option maxHeartbeats 2000000 in
theorem s22_v26 : StableHlo.after hostOps2_2 Wv (Proc.devRef .tc main_v26)
    = Host.scatterAdd (F := Ideal) (φ := .f32) scatter_S100000x128_S600000x1_S600000x128_1_0_0_1
        (broadcastInDim S100000x128 ![] bcast_S_S100000x128 (constant (F := Ideal) S_ .f32 0x00000000#32))
        (broadcastInDim S600000x1 ![0] bcast_S600000_S600000x1_0 (Wv (Proc.devRef .tc main_v3)))
        (Wv (Proc.devRef .tc main_v23)) := by
  simp only [hostOps2_2]
  after_results
  try rfl
set_option maxHeartbeats 2000000 in
theorem s22_v28 : StableHlo.after hostOps2_2 Wv (Proc.devRef .tc main_v28) = cutW (Wv (Proc.devRef .tc main_arg3)) := by
  simp only [hostOps2_2]
  after_results
  try rfl
set_option maxHeartbeats 2000000 in
theorem s22_v35 : StableHlo.after hostOps2_2 Wv (Proc.devRef .tc main_v35) = cutb (Wv (Proc.devRef .tc main_arg4)) := by
  simp only [hostOps2_2]
  after_results
  try rfl
set_option maxHeartbeats 2000000 in
theorem s22_v32 : StableHlo.after hostOps2_2 Wv (Proc.devRef .tc main_v32) = cutW (Wv (Proc.devRef .tc main_arg5)) := by
  simp only [hostOps2_2]
  after_results
  try rfl
set_option maxHeartbeats 2000000 in
theorem s22_v36 : StableHlo.after hostOps2_2 Wv (Proc.devRef .tc main_v36) = cutb (Wv (Proc.devRef .tc main_arg6)) := by
  simp only [hostOps2_2]
  after_results
  try rfl

end Stretch

variable (m : (ℓ : Loc nD τ sig) → Buf (Elt Ideal) ℓ) (ρ : Dev nD → PrngReg) (c : Dev nD)

/-- The layer's weights as the host operations cut them out of the stacked arguments. -/
def PK : LayerP where
  We := cutWe (m ((c.tc : Thread nD τ).loc main_arg1))
  be := cutb (m ((c.tc : Thread nD τ).loc main_arg2))
  W1 := cutW (m ((c.tc : Thread nD τ).loc main_arg3))
  b1 := cutb (m ((c.tc : Thread nD τ).loc main_arg4))
  «W2» := cutW (m ((c.tc : Thread nD τ).loc main_arg5))
  b2 := cutb (m ((c.tc : Thread nD τ).loc main_arg6))

/-- The layer's input features, as the layer finds them. -/
abbrev Xin : Mat NN 128 := W2 m ρ c (Proc.devRef .tc main_v8)

/-! ## The edge projection -/

theorem We_val : W3 m ρ c (Proc.devRef .tc main_v10) = (PK m c).We :=
  (s1_We (W2 m ρ c)).trans (congrArg cutWe ((at2 m ρ c s9_arg1).trans (arg1_at1 m ρ c)))
theorem be_val : W3 m ρ c (Proc.devRef .tc main_v13) = (PK m c).be :=
  (s1_be (W2 m ρ c)).trans (congrArg cutb ((at2 m ρ c s9_arg2).trans (arg2_at1 m ρ c)))
theorem ea_val : W3 m ρ c (Proc.devRef .tc main_arg7) = eaK m c := (at3 m ρ c s9_arg7).trans (arg7_at1 m ρ c)

/-- The edge-projection region's output as the next segments find it. -/
theorem e_val : W4 m ρ c (Proc.devRef .tc main_v14) = edgeG (eaK m c) (PK m c).We (PK m c).be := by
  refine (W4_arr m ρ c 3).trans ((Region1.final (V3 m ρ) c).trans ?_)
  show edgeG (W3 m ρ c (Proc.devRef .tc main_arg7)) (W3 m ρ c (Proc.devRef .tc main_v10)) (W3 m ρ c (Proc.devRef .tc main_v13)) = _
  rw [ea_val, We_val, be_val]

/-! ## The messages -/

/-- The features' buffer is not written by the projection's stretch nor by its region. -/
theorem x_at4 : W4 m ρ c (Proc.devRef .tc main_v8) = Xin m ρ c :=
  (W4_of_ne m ρ c main_v8 (by decide)).trans (by keep_host hostOps1)

/-- The source node's features along each edge plus the edge's projection. -/
theorem v22_val : W5 m ρ c (Proc.devRef .tc main_v22)
    = addf (F := Ideal) (φ := .f32)
        (Host.gather gather_S100000x128_S600000x1_S600000x128_1_0_n_n_0_1_1128 (Xin m ρ c)
          (broadcastInDim S600000x1 ![0] bcast_S600000_S600000x1_0
            (select (cmpi .slt (srcK m c) (broadcastInDim S600000 ![] bcast_S_S600000 (constantI S_ 32 0#32)))
              (addi (srcK m c) (broadcastInDim S600000 ![] bcast_S_S600000 (constantI S_ 32 100000#32))) (srcK m c))))
        (edgeG (eaK m c) (PK m c).We (PK m c).be) := by
  refine (s2_v22 (W4 m ρ c)).trans ?_
  rw [x_at4, e_val, (at4 m ρ c s9_v1).trans (v1_at1 m ρ c)]

/-- … clipped below at 0. -/
theorem v23_val : W6 m ρ c (Proc.devRef .tc main_v23)
    = maximumf (F := Ideal) (φ := .f32)
        (addf (F := Ideal) (φ := .f32)
        (Host.gather gather_S100000x128_S600000x1_S600000x128_1_0_n_n_0_1_1128 (Xin m ρ c)
          (broadcastInDim S600000x1 ![0] bcast_S600000_S600000x1_0
            (select (cmpi .slt (srcK m c) (broadcastInDim S600000 ![] bcast_S_S600000 (constantI S_ 32 0#32)))
              (addi (srcK m c) (broadcastInDim S600000 ![] bcast_S_S600000 (constantI S_ 32 100000#32))) (srcK m c))))
        (edgeG (eaK m c) (PK m c).We (PK m c).be))
        (broadcastInDim S600000x128 ![] bcast_S_S600000x128 (constant (F := Ideal) S_ .f32 0x00000000#32)) := by
  refine (s21_v23 (W5 m ρ c)).trans ?_
  rw [v22_val]

/-- … summed over the edges into their destination rows: the aggregated messages. -/
theorem agg_val : W7 m ρ c (Proc.devRef .tc main_v26)
    = aggr gather_S100000x128_S600000x1_S600000x128_1_0_n_n_0_1_1128 scatter_S100000x128_S600000x1_S600000x128_1_0_0_1
        (Xin m ρ c) (edgeG (eaK m c) (PK m c).We (PK m c).be) (srcK m c) (dstK m c) := by
  refine (s22_v26 (W6 m ρ c)).trans ?_
  rw [v23_val, (at6 m ρ c s9_v3).trans (v3_at1 m ρ c)]
  rfl

/-! ## The dense maps' weights -/

theorem W1_val : W7 m ρ c (Proc.devRef .tc main_v28) = (PK m c).W1 :=
  (s22_v28 (W6 m ρ c)).trans (congrArg cutW ((at6 m ρ c s9_arg3).trans (arg3_at1 m ρ c)))
theorem b1_val : W7 m ρ c (Proc.devRef .tc main_v35) = (PK m c).b1 :=
  (s22_v35 (W6 m ρ c)).trans (congrArg cutb ((at6 m ρ c s9_arg4).trans (arg4_at1 m ρ c)))
theorem W2_val : W7 m ρ c (Proc.devRef .tc main_v32) = (PK m c).«W2» :=
  (s22_v32 (W6 m ρ c)).trans (congrArg cutW ((at6 m ρ c s9_arg5).trans (arg5_at1 m ρ c)))
theorem b2_val : W7 m ρ c (Proc.devRef .tc main_v36) = (PK m c).b2 :=
  (s22_v36 (W6 m ρ c)).trans (congrArg cutb ((at6 m ρ c s9_arg6).trans (arg6_at1 m ρ c)))

/-- The features' buffer is not written by the three message stretches. -/
theorem x_at7 : W7 m ρ c (Proc.devRef .tc main_v8) = Xin m ρ c :=
  ((by keep_host hostOps2_2 : W7 m ρ c (Proc.devRef .tc main_v8) = W6 m ρ c (Proc.devRef .tc main_v8)).trans
    ((by keep_host hostOps2_1 : W6 m ρ c (Proc.devRef .tc main_v8) = W5 m ρ c (Proc.devRef .tc main_v8)).trans
      (by keep_host hostOps2 : W5 m ρ c (Proc.devRef .tc main_v8) = W4 m ρ c (Proc.devRef .tc main_v8)))).trans (x_at4 m ρ c)

/-! ## The layer -/

/-- THE NODE-UPDATE REGION'S OUTPUT as the next segments find it: one layer over the features the layer found. -/
theorem layer : W8 m ρ c (Proc.devRef .tc main_v37)
    = layerG gather_S100000x128_S600000x1_S600000x128_1_0_n_n_0_1_1128 scatter_S100000x128_S600000x1_S600000x128_1_0_0_1
        (eaK m c) (srcK m c) (dstK m c) (Xin m ρ c) (PK m c) := by
  refine (W8_arr m ρ c 6).trans ((Region2.final (V7 m ρ) c).trans ?_)
  show mlpG (W7 m ρ c (Proc.devRef .tc main_v8)) (W7 m ρ c (Proc.devRef .tc main_v26)) (W7 m ρ c (Proc.devRef .tc main_v28)) (W7 m ρ c (Proc.devRef .tc main_v35))
    (W7 m ρ c (Proc.devRef .tc main_v32)) (W7 m ρ c (Proc.devRef .tc main_v36)) = _
  rw [x_at7, agg_val, W1_val, b1_val, W2_val, b2_val]
  rfl

end Cert.KernelIdeal.KLayer0

end
-- ==== Proof.Region3.lean ====
/-
  The edge projection's region: what its output array holds when the region ends.

  The grid has 75 points; point t stages rows 8000·t … 8000·t + 7999 of the edge attributes, the whole 4 × 128 weight
  matrix and the whole 1 × 128 bias row, and writes back rows 8000·t … 8000·t + 7999 of the output. The body's one store
  is, entry (p, q) of the block, the 4 attributes of block row p against column q of the weights plus the bias
  (pay_apply: the product into a zero accumulator is the plain sum, a change of float format is the identity, the bias row
  is broadcast down the rows). Row p of block t of the attributes is row 8000·t + p of the array and the two small
  windows are their arrays whole, so what point t writes back is block t of edgeG of the three arrays as the region finds
  them (flushed_eq). The 75 blocks tile the 600000 rows (cover), so the array ends at edgeG of them (final).
-/
import proofs.«424670_j1254130450544_1_alg».proof.Proof.Gen.KernelIdeal.Frame
import Idealize.ShloMosaic.Lib.Pipeline.Value
import Idealize.ShloMosaic.Lib.ValueIdx
import Idealize.ShloMosaic.PureOps.Ideal.Laws
import proofs.«424670_j1254130450544_1_alg».proof.Proof.LibPlainDot
import proofs.«424670_j1254130450544_1_alg».proof.Proof.Spec

set_option maxRecDepth 16384

noncomputable section

namespace Cert.KernelIdeal.Region3

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The edge projection at a row depends on that row of the attributes, and on the weights and the bias. -/
theorem edgeAt_congr3 {R R' : Nat} (ea : Mat R 4) (ea' : Mat R' 4) (We We' : Mat 4 128) (be be' : Mat 1 128) (p : Fin R)
    (p' : Fin R') (h : ∀ k : Fin 4, ea (ix2 p k) = ea' (ix2 p' k)) (hW : We = We') (hb : be = be') (q : Fin 128) :
    edgeAt ea We be p q = edgeAt ea' We' be' p' q := by
  subst hW hb
  exact edgeAt_congr ea ea' We be p p' h q

/-- THE BODY'S STORE at (p, q): the 4 attributes of block row p against column q of the weights, plus the bias. -/
theorem pay_apply (x0 : Vec Ideal S8000x4 .f32) (x1 : Vec Ideal S4x128 .f32) (x2 : Vec Ideal S1x128 .f32)
    (p : Fin 8000) (q : Fin 128) :
    k3_pay1 (F := Ideal) x0 x1 x2 (ix2 p q) = edgeAt x0 x1 x2 p q := by
  unfold k3_pay1 edgeAt
  refine (addf_apply _ _ (ix2 p q)).trans ?_
  congr 1
  · refine (Cert.LibPlainDot.matmul_zero_plain dot_S8000x4_S4x128_S8000x128_1_0_0_1_n_n rfl rfl rfl rfl rfl rfl none _ _ p q).trans ?_
    refine Finset.sum_congr rfl fun k _ => ?_
    rw [shapeCast_self]
    rfl
  · rw [shapeCast_self]
    exact broadcastTo_apply x2 _ (ix2 p q) (ix2 (0 : Fin 1) q) (fun a => by
      match a with
      | ⟨0, _⟩ => rfl
      | ⟨1, _⟩ => rfl)

/-- The printed index maps over the grid: the row windows are at block t, the small windows at block 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

set_option maxHeartbeats 2000000 in
/-- WHAT POINT t WRITES BACK is block t of edgeG of the arrays as the region finds them. -/
theorem flushed_eq (c : Dev nD) (t : Fin cfg3.N) :
    (dat3 (F := Ideal) V c).flushed 3 t
      = ((cfg3.win 3).blk t).view.read (Elt Ideal) (edgeG (V c main_arg7) (V c main_v39) (V c main_v42)) := by
  show (cfg3.win 3).cut (grid3.coords t) ((dat3 (F := Ideal) V c).after 3 t) = _
  rw [after3_3]
  unfold out3_3
  rw [View.canon_unit_zero hz]
  simp only [View.ld_unit_zero (S := S8000x4) hz, View.ld_unit_zero (S := S4x128) hz, View.ld_unit_zero (S := S1x128) hz]
  obtain ⟨e00, e01, e10, e11, e20, e21, e30, e31⟩ := idx_facts t
  have ht : t.val < 75 := t.isLt
  funext j
  obtain ⟨p, q, rfl⟩ : ∃ (p : Fin 8000) (q : Fin 128), j = ix2 p q := ⟨j 0, j 1, eq_ix2 j⟩
  have hp := p.isLt
  have hq := q.isLt
  show k3_pay1 (F := Ideal) (iblk3 V c 0 t) (iblk3 V c 1 t) (iblk3 V c 2 t) (ix2 p q)
    = edgeG (V c main_arg7) (V c main_v39) (V c main_v42) (((cfg3.win 3).blk t).view.emb (ix2 p q))
  refine (pay_apply (iblk3 V c 0 t) (iblk3 V c 1 t) (iblk3 V c 2 t) p q).trans ?_
  have hemb : ((cfg3.win 3).blk t).view.emb (ix2 p q)
      = (ix2 (⟨t.val * 8000 + p.val, by omega⟩ : Fin 600000) q : S600000x128.Idx) := by
    funext a; apply Fin.ext
    match a with
    | ⟨0, _⟩ => show win3_3.index t (0 : Fin 2) * 8000 + 1 * p.val = t.val * 8000 + p.val; omega
    | ⟨1, _⟩ => show win3_3.index t (1 : Fin 2) * 128 + 1 * q.val = q.val; omega
  rw [hemb, edgeG_apply]
  refine edgeAt_congr3 (iblk3 V c 0 t) (V c main_arg7) (iblk3 V c 1 t) (V c main_v39) (iblk3 V c 2 t) (V c main_v42)
    p ⟨t.val * 8000 + p.val, by omega⟩ (fun k => ?_) ?_ ?_ q
  · show V c main_arg7 (((cfg3.win 0).blk t).view.emb (ix2 p k)) = V c main_arg7 (ix2 (⟨t.val * 8000 + p.val, by omega⟩ : Fin 600000) k)
    refine congrArg (V c main_arg7) ?_
    funext a; apply Fin.ext
    match a with
    | ⟨0, _⟩ => show win3_0.index t (0 : Fin 2) * 8000 + 1 * p.val = t.val * 8000 + p.val; omega
    | ⟨1, _⟩ => show win3_0.index t (1 : Fin 2) * 4 + 1 * k.val = k.val; omega
  · funext y
    show V c main_v39 (((cfg3.win 1).blk t).view.emb y) = V c main_v39 y
    refine congrArg (V c main_v39) ?_
    funext a; apply Fin.ext
    match a with
    | ⟨0, _⟩ => show win3_1.index t (0 : Fin 2) * 4 + 1 * (y 0).val = (y 0).val; omega
    | ⟨1, _⟩ => show win3_1.index t (1 : Fin 2) * 128 + 1 * (y 1).val = (y 1).val; omega
  · funext y
    show V c main_v42 (((cfg3.win 2).blk t).view.emb y) = V c main_v42 y
    refine congrArg (V c main_v42) ?_
    funext a; apply Fin.ext
    match a with
    | ⟨0, _⟩ => show win3_2.index t (0 : Fin 2) * 1 + 1 * (y 0).val = (y 0).val; omega
    | ⟨1, _⟩ => show win3_2.index t (1 : Fin 2) * 128 + 1 * (y 1).val = (y 1).val; omega

/-- An index of the array is in point t's block iff each coordinate is in the block's range on its axis. -/
theorem mem_blk (t : Fin cfg3.N) (i : S600000x128.Idx) :
    i ∈ ((cfg3.win 3).blk t).view.set ↔ ∀ a : Fin 2, win3_3.index t a * S8000x128.size a ≤ (i a).val
      ∧ (i a).val < win3_3.index t a * S8000x128.size a + S8000x128.size a := by
  show i ∈ ((View.whole main_v43).slice (win3_3.rect t)).set ↔ _
  rw [View.set_slice_whole, Rect.mem_set_unit]
  exact Iff.rfl

/-- The 75 blocks of 8000 rows tile the 600000 rows: row r is in the block of point r / 8000. -/
theorem cover (i : S600000x128.Idx) :
    ∃ t : Fin cfg3.N, (cfg3.win 3).flush t = true ∧ i ∈ ((cfg3.win 3).blk t).view.set := by
  have hi0 : (i 0).val < 600000 := (i 0).isLt
  have hi1 : (i 1).val < 128 := (i 1).isLt
  refine ⟨⟨(i 0).val / 8000, by show (i 0).val / 8000 < 75; omega⟩, flush3_3 _, ?_⟩
  rw [mem_blk]
  obtain ⟨-, -, -, -, -, -, e30, e31⟩ := idx_facts ⟨(i 0).val / 8000, by show (i 0).val / 8000 < 75; omega⟩
  intro a
  match a with
  | ⟨0, _⟩ =>
    show win3_3.index ⟨(i 0).val / 8000, _⟩ (0 : Fin 2) * 8000 ≤ (i 0).val
      ∧ (i 0).val < win3_3.index ⟨(i 0).val / 8000, _⟩ (0 : Fin 2) * 8000 + 8000
    rw [e30]; show (i 0).val / 8000 * 8000 ≤ (i 0).val ∧ (i 0).val < (i 0).val / 8000 * 8000 + 8000; omega
  | ⟨1, _⟩ =>
    show win3_3.index ⟨(i 0).val / 8000, _⟩ (1 : Fin 2) * 128 ≤ (i 1).val
      ∧ (i 1).val < win3_3.index ⟨(i 0).val / 8000, _⟩ (1 : Fin 2) * 128 + 128
    rw [e31]; omega

/-- THE OUTPUT ARRAY WHEN THE REGION ENDS: edgeG of the attribute, weight and bias arrays as the region finds them. -/
theorem final (c : Dev nD) :
    (dat3 (F := Ideal) V c).arrAt 3 cfg3.N = edgeG (V c main_arg7) (V c main_v39) (V c main_v42) :=
  (dat3 (F := Ideal) V c).arrAt_eq_of_cover 3 _ (fun t _ => flushed_eq V c t) cover

end Cert.KernelIdeal.Region3

end
-- ==== Proof.Region4.lean ====
/-
  The node update's region: what its output array holds when the region ends.

  The grid has 20 points; point t stages rows 5000·t … 5000·t + 4999 of the node features and of the aggregated messages, the
  two 128 × 128 weight matrices and the two 1 × 128 bias rows whole, and writes back rows 5000·t … 5000·t + 4999 of the
  output. The body adds features and messages, multiplies by the first weights and adds the first bias (hid_apply), passes
  each entry t to t · logistic t, multiplies by the second weights and adds the second bias (pay_apply): entry (p, q) of
  the stored block is mlpAt of the staged blocks at (p, q); the products into a zero accumulator are plain sums and a
  change of float format is the identity. Row p of block t of a row window is row 5000·t + p of its array and the four
  small windows are their arrays whole, so what point t writes back is block t of mlpG of the six arrays as the region
  finds them (flushed_eq). The 20 blocks tile the 100000 rows (cover), so the array ends at mlpG of them (final).
-/
import proofs.«424670_j1254130450544_1_alg».proof.Proof.Gen.KernelIdeal.Frame
import Idealize.ShloMosaic.Lib.Pipeline.Value
import Idealize.ShloMosaic.Lib.ValueIdx
import Idealize.ShloMosaic.PureOps.Ideal.Laws
import proofs.«424670_j1254130450544_1_alg».proof.Proof.LibPlainDot
import proofs.«424670_j1254130450544_1_alg».proof.Proof.Spec

set_option maxRecDepth 16384

noncomputable section

namespace Cert.KernelIdeal.Region4

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The update of a node depends on that node's row of the features and of the messages, and on the weights. -/
theorem mlpAt_congr6 {R R' : Nat} (x agg : Mat R 128) (x' agg' : Mat R' 128) (W1 W1' : Mat 128 128) (b1 b1' : Mat 1 128)
    (W2 W2' : Mat 128 128) (b2 b2' : Mat 1 128) (p : Fin R) (p' : Fin R')
    (hx : ∀ j : Fin 128, x (ix2 p j) = x' (ix2 p' j)) (ha : ∀ j : Fin 128, agg (ix2 p j) = agg' (ix2 p' j))
    (h1 : W1 = W1') (h2 : b1 = b1') (h3 : W2 = W2') (h4 : b2 = b2') (q : Fin 128) :
    mlpAt x agg W1 b1 W2 b2 p q = mlpAt x' agg' W1' b1' W2' b2' p' q := by
  subst h1 h2 h3 h4
  exact mlpAt_congr x agg x' agg' W1 b1 W2 b2 p p' hx ha q

/-- The hidden value at (p, k): the sum of features and messages of block row p against column k of the first weights,
    plus the first bias. -/
theorem hid_apply (x0 x1 : Vec Ideal S5000x128 .f32) (x2 : Vec Ideal S128x128 .f32) (x3 : Vec Ideal S1x128 .f32)
    (p : Fin 5000) (k : Fin 128) :
    addf (F := Ideal) (φ := .f32)
        (matmul dot_S5000x128_S128x128_S5000x128_1_0_0_1_n_n none
          (truncf .bf16 (addf (F := Ideal) (φ := .f32) x0 x1) bitsLt_bf16_f32) (truncf .bf16 x2 bitsLt_bf16_f32)
          (constant S5000x128 .f32 0x00000000#32))
        (broadcastTo S5000x128 x3 broadcasts_S1x128_S5000x128) (ix2 p k)
      = hiddenAt x0 x1 x2 x3 p k := by
  refine (addf_apply _ _ (ix2 p k)).trans ?_
  unfold hiddenAt
  congr 1
  · refine (Cert.LibPlainDot.matmul_zero_plain dot_S5000x128_S128x128_S5000x128_1_0_0_1_n_n rfl rfl rfl rfl rfl rfl none _ _ p k).trans ?_
    exact Finset.sum_congr rfl fun j _ => rfl
  · exact broadcastTo_apply x3 _ (ix2 p k) (ix2 (0 : Fin 1) k) (fun a => by
      match a with
      | ⟨0, _⟩ => rfl
      | ⟨1, _⟩ => rfl)

/-- THE BODY'S STORE at (p, q): the node update of block row p, channel q. -/
theorem pay_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k4_pay1 (F := Ideal) x0 x1 x2 x3 x4 x5 (ix2 p q) = mlpAt x0 x1 x2 x3 x4 x5 p q := by
  unfold k4_pay1 mlpAt
  simp only [shapeCast_self]
  refine (addf_apply _ _ (ix2 p q)).trans ?_
  congr 1
  · refine (Cert.LibPlainDot.matmul_zero_plain dot_S5000x128_S128x128_S5000x128_1_0_0_1_n_n rfl rfl rfl rfl rfl rfl none _ _ p q).trans ?_
    refine Finset.sum_congr rfl fun k _ => ?_
    refine congrArg (· * (x4 (ix2 k q) : EReal)) ?_
    unfold silu
    rw [← hid_apply x0 x1 x2 x3 p k]
    rfl
  · exact broadcastTo_apply x5 _ (ix2 p q) (ix2 (0 : Fin 1) q) (fun a => by
      match a with
      | ⟨0, _⟩ => rfl
      | ⟨1, _⟩ => rfl)

/-- The printed index maps over the grid: the row windows are at block t, the small windows at block 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

set_option maxHeartbeats 2000000 in
/-- WHAT POINT t WRITES BACK is block t of mlpG of the arrays as the region finds them. -/
theorem flushed_eq (c : Dev nD) (t : Fin cfg4.N) :
    (dat4 (F := Ideal) V c).flushed 6 t
      = ((cfg4.win 6).blk t).view.read (Elt Ideal)
          (mlpG (V c main_v37) (V c main_v55) (V c main_v57) (V c main_v64) (V c main_v61) (V c main_v65)) := by
  show (cfg4.win 6).cut (grid4.coords t) ((dat4 (F := Ideal) V c).after 6 t) = _
  rw [after4_6]
  unfold out4_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61⟩ := idx_facts t
  have ht : t.val < 20 := t.isLt
  funext j
  obtain ⟨p, q, rfl⟩ : ∃ (p : Fin 5000) (q : Fin 128), j = ix2 p q := ⟨j 0, j 1, eq_ix2 j⟩
  have hp := p.isLt
  have hq := q.isLt
  show k4_pay1 (F := Ideal) (iblk4 V c 0 t) (iblk4 V c 1 t) (iblk4 V c 2 t) (iblk4 V c 3 t) (iblk4 V c 4 t) (iblk4 V c 5 t) (ix2 p q)
    = mlpG (V c main_v37) (V c main_v55) (V c main_v57) (V c main_v64) (V c main_v61) (V c main_v65)
        (((cfg4.win 6).blk t).view.emb (ix2 p q))
  refine (pay_apply (iblk4 V c 0 t) (iblk4 V c 1 t) (iblk4 V c 2 t) (iblk4 V c 3 t) (iblk4 V c 4 t) (iblk4 V c 5 t) p q).trans ?_
  have hemb : ((cfg4.win 6).blk t).view.emb (ix2 p q)
      = (ix2 (⟨t.val * 5000 + p.val, by omega⟩ : Fin 100000) q : S100000x128.Idx) := by
    funext a; apply Fin.ext
    match a with
    | ⟨0, _⟩ => show win4_6.index t (0 : Fin 2) * 5000 + 1 * p.val = t.val * 5000 + p.val; omega
    | ⟨1, _⟩ => show win4_6.index t (1 : Fin 2) * 128 + 1 * q.val = q.val; omega
  rw [hemb, mlpG_apply]
  refine mlpAt_congr6 (iblk4 V c 0 t) (iblk4 V c 1 t) (V c main_v37) (V c main_v55) (iblk4 V c 2 t) (V c main_v57)
    (iblk4 V c 3 t) (V c main_v64) (iblk4 V c 4 t) (V c main_v61) (iblk4 V c 5 t) (V c main_v65)
    p ⟨t.val * 5000 + p.val, by omega⟩ (fun k => ?_) (fun k => ?_) ?_ ?_ ?_ ?_ q
  · show V c main_v37 (((cfg4.win 0).blk t).view.emb (ix2 p k)) = V c main_v37 (ix2 (⟨t.val * 5000 + p.val, by omega⟩ : Fin 100000) k)
    refine congrArg (V c main_v37) ?_
    funext a; apply Fin.ext
    match a with
    | ⟨0, _⟩ => show win4_0.index t (0 : Fin 2) * 5000 + 1 * p.val = t.val * 5000 + p.val; omega
    | ⟨1, _⟩ => show win4_0.index t (1 : Fin 2) * 128 + 1 * k.val = k.val; omega
  · show V c main_v55 (((cfg4.win 1).blk t).view.emb (ix2 p k)) = V c main_v55 (ix2 (⟨t.val * 5000 + p.val, by omega⟩ : Fin 100000) k)
    refine congrArg (V c main_v55) ?_
    funext a; apply Fin.ext
    match a with
    | ⟨0, _⟩ => show win4_1.index t (0 : Fin 2) * 5000 + 1 * p.val = t.val * 5000 + p.val; omega
    | ⟨1, _⟩ => show win4_1.index t (1 : Fin 2) * 128 + 1 * k.val = k.val; omega
  · funext y
    show V c main_v57 (((cfg4.win 2).blk t).view.emb y) = V c main_v57 y
    refine congrArg (V c main_v57) ?_
    funext a; apply Fin.ext
    match a with
    | ⟨0, _⟩ => show win4_2.index t (0 : Fin 2) * 128 + 1 * (y 0).val = (y 0).val; omega
    | ⟨1, _⟩ => show win4_2.index t (1 : Fin 2) * 128 + 1 * (y 1).val = (y 1).val; omega
  · funext y
    show V c main_v64 (((cfg4.win 3).blk t).view.emb y) = V c main_v64 y
    refine congrArg (V c main_v64) ?_
    funext a; apply Fin.ext
    match a with
    | ⟨0, _⟩ => show win4_3.index t (0 : Fin 2) * 1 + 1 * (y 0).val = (y 0).val; omega
    | ⟨1, _⟩ => show win4_3.index t (1 : Fin 2) * 128 + 1 * (y 1).val = (y 1).val; omega
  · funext y
    show V c main_v61 (((cfg4.win 4).blk t).view.emb y) = V c main_v61 y
    refine congrArg (V c main_v61) ?_
    funext a; apply Fin.ext
    match a with
    | ⟨0, _⟩ => show win4_4.index t (0 : Fin 2) * 128 + 1 * (y 0).val = (y 0).val; omega
    | ⟨1, _⟩ => show win4_4.index t (1 : Fin 2) * 128 + 1 * (y 1).val = (y 1).val; omega
  · funext y
    show V c main_v65 (((cfg4.win 5).blk t).view.emb y) = V c main_v65 y
    refine congrArg (V c main_v65) ?_
    funext a; apply Fin.ext
    match a with
    | ⟨0, _⟩ => show win4_5.index t (0 : Fin 2) * 1 + 1 * (y 0).val = (y 0).val; omega
    | ⟨1, _⟩ => show win4_5.index t (1 : Fin 2) * 128 + 1 * (y 1).val = (y 1).val; omega

/-- An index of the array is in point t's block iff each coordinate is in the block's range on its axis. -/
theorem mem_blk (t : Fin cfg4.N) (i : S100000x128.Idx) :
    i ∈ ((cfg4.win 6).blk t).view.set ↔ ∀ a : Fin 2, win4_6.index t a * S5000x128.size a ≤ (i a).val
      ∧ (i a).val < win4_6.index t a * S5000x128.size a + S5000x128.size a := by
  show i ∈ ((View.whole main_v66).slice (win4_6.rect t)).set ↔ _
  rw [View.set_slice_whole, Rect.mem_set_unit]
  exact Iff.rfl

/-- The 20 blocks of 5000 rows tile the 100000 rows: row r is in the block of point r / 5000. -/
theorem cover (i : S100000x128.Idx) :
    ∃ t : Fin cfg4.N, (cfg4.win 6).flush t = true ∧ i ∈ ((cfg4.win 6).blk t).view.set := by
  have hi0 : (i 0).val < 100000 := (i 0).isLt
  have hi1 : (i 1).val < 128 := (i 1).isLt
  refine ⟨⟨(i 0).val / 5000, by show (i 0).val / 5000 < 20; omega⟩, flush4_6 _, ?_⟩
  rw [mem_blk]
  obtain ⟨-, -, -, -, -, -, -, -, -, -, -, -, e60, e61⟩ := idx_facts ⟨(i 0).val / 5000, by show (i 0).val / 5000 < 20; omega⟩
  intro a
  match a with
  | ⟨0, _⟩ =>
    show win4_6.index ⟨(i 0).val / 5000, _⟩ (0 : Fin 2) * 5000 ≤ (i 0).val
      ∧ (i 0).val < win4_6.index ⟨(i 0).val / 5000, _⟩ (0 : Fin 2) * 5000 + 5000
    rw [e60]; show (i 0).val / 5000 * 5000 ≤ (i 0).val ∧ (i 0).val < (i 0).val / 5000 * 5000 + 5000; omega
  | ⟨1, _⟩ =>
    show win4_6.index ⟨(i 0).val / 5000, _⟩ (1 : Fin 2) * 128 ≤ (i 1).val
      ∧ (i 1).val < win4_6.index ⟨(i 0).val / 5000, _⟩ (1 : Fin 2) * 128 + 128
    rw [e61]; omega

/-- THE OUTPUT ARRAY WHEN THE REGION ENDS: mlpG of the feature, message, weight and bias arrays as the region finds
    them. -/
theorem final (c : Dev nD) :
    (dat4 (F := Ideal) V c).arrAt 6 cfg4.N
      = mlpG (V c main_v37) (V c main_v55) (V c main_v57) (V c main_v64) (V c main_v61) (V c main_v65) :=
  (dat4 (F := Ideal) V c).arrAt_eq_of_cover 6 _ (fun t _ => flushed_eq V c t) cover

end Cert.KernelIdeal.Region4

end
-- ==== Proof.KLayer1.lean ====
/-
  One layer of the kernel program between two node-feature arrays, in terms of the launch memory.

  The layer enters with the node features X in one buffer and leaves with the updated features in another. A stretch
  of host operations cuts the layer's edge-projection weights and bias out of the stacked arguments (We_val, be_val);
  the edge-projection region then leaves edgeG of the attributes and those (e_val). The next three stretches gather
  the source node's features along each edge and add the projection (v22_val), clip below at 0 (v23_val), sum over the
  edges into the destination rows (agg_val: this is aggr) and cut the two dense maps' weights and biases out of the
  stacked arguments (W1_val … b2_val); the node-update region leaves mlpG of all these (layer): the layer is layerG.
  What a stretch leaves in a buffer it writes is read off its operations over ANY entry contents (the section Stretch);
  between the segments the features' buffer is not written (x_at4, x_at7), and the stacked arguments and the two
  edge-index rows hold what they held after the first stretch.
-/
import proofs.«424670_j1254130450544_1_alg».proof.Proof.KBase
import proofs.«424670_j1254130450544_1_alg».proof.Proof.Region3
import proofs.«424670_j1254130450544_1_alg».proof.Proof.Region4

set_option maxRecDepth 16384

noncomputable section

namespace Cert.KernelIdeal.KLayer1

open Cert.KernelIdeal Cert.KernelIdeal.Gen Cert.KernelIdeal.Keep Cert.KernelIdeal.KBase Cert.Gine
open Idealize.ShloMosaic Idealize.ShloMosaic.TcCoe Idealize.SL.Sem Idealize.ShloMosaic.StableHlo

/-! ## The layer's slices of the stacked weights -/

/-- The layer's 4 × 128 edge-projection weights out of the stack of three. -/
def cutWe (a : FVec Ideal S3x4x128 .f32) : Mat 4 128 :=
  shapeCast S4x128 (extractStridedSlice S1x4x128 ![1, 0, 0] a slices_S3x4x128_S1x4x128_1_0_0) shapeCasts_S1x4x128_S4x128
/-- The layer's 128 × 128 weights out of a stack of three. -/
def cutW (a : FVec Ideal S3x128x128 .f32) : Mat 128 128 :=
  shapeCast S128x128 (extractStridedSlice S1x128x128 ![1, 0, 0] a slices_S3x128x128_S1x128x128_1_0_0) shapeCasts_S1x128x128_S128x128
/-- The layer's bias out of a stack of three, reshaped to a vector and then to a 1 × 128 row. -/
def cutb (a : FVec Ideal S3x128 .f32) : Mat 1 128 :=
  shapeCast S1x128 (shapeCast S128 (extractStridedSlice S1x128 ![1, 0] a slices_S3x128_S1x128_1_0) shapeCasts_S1x128_S128) shapeCasts_S128_S1x128

/-! ## What each stretch leaves in the buffers it writes, over any entry contents -/

section Stretch
variable (Wv : Valuation τ sig (Elt Ideal))

set_option maxHeartbeats 2000000 in
theorem s1_We : StableHlo.after hostOps3 Wv (Proc.devRef .tc main_v39) = cutWe (Wv (Proc.devRef .tc main_arg1)) := by
  simp only [hostOps3]
  after_results
  try rfl
set_option maxHeartbeats 2000000 in
theorem s1_be : StableHlo.after hostOps3 Wv (Proc.devRef .tc main_v42) = cutb (Wv (Proc.devRef .tc main_arg2)) := by
  simp only [hostOps3]
  after_results
  try rfl

set_option maxHeartbeats 2000000 in
theorem s2_v22 : StableHlo.after hostOps4 Wv (Proc.devRef .tc main_v51)
    = addf (F := Ideal) (φ := .f32)
        (Host.gather gather_S100000x128_S600000x1_S600000x128_1_0_n_n_0_1_1128 (Wv (Proc.devRef .tc main_v37))
          (broadcastInDim S600000x1 ![0] bcast_S600000_S600000x1_0
            (select (cmpi .slt (Wv (Proc.devRef .tc main_v1)) (broadcastInDim S600000 ![] bcast_S_S600000 (constantI S_ 32 0#32)))
              (addi (Wv (Proc.devRef .tc main_v1)) (broadcastInDim S600000 ![] bcast_S_S600000 (constantI S_ 32 100000#32))) (Wv (Proc.devRef .tc main_v1)))))
        (Wv (Proc.devRef .tc main_v43)) := by
  simp only [hostOps4]
  after_results
  try rfl

set_option maxHeartbeats 2000000 in
theorem s21_v23 : StableHlo.after hostOps4_1 Wv (Proc.devRef .tc main_v52)
    = maximumf (F := Ideal) (φ := .f32) (Wv (Proc.devRef .tc main_v51))
        (broadcastInDim S600000x128 ![] bcast_S_S600000x128 (constant (F := Ideal) S_ .f32 0x00000000#32)) := by
  simp only [hostOps4_1]
  after_results
  try rfl

set_option maxHeartbeats 2000000 in
theorem s22_v26 : StableHlo.after hostOps4_2 Wv (Proc.devRef .tc main_v55)
    = Host.scatterAdd (F := Ideal) (φ := .f32) scatter_S100000x128_S600000x1_S600000x128_1_0_0_1
        (broadcastInDim S100000x128 ![] bcast_S_S100000x128 (constant (F := Ideal) S_ .f32 0x00000000#32))
        (broadcastInDim S600000x1 ![0] bcast_S600000_S600000x1_0 (Wv (Proc.devRef .tc main_v3)))
        (Wv (Proc.devRef .tc main_v52)) := by
  simp only [hostOps4_2]
  after_results
  try rfl
set_option maxHeartbeats 2000000 in
theorem s22_v28 : StableHlo.after hostOps4_2 Wv (Proc.devRef .tc main_v57) = cutW (Wv (Proc.devRef .tc main_arg3)) := by
  simp only [hostOps4_2]
  after_results
  try rfl
set_option maxHeartbeats 2000000 in
theorem s22_v35 : StableHlo.after hostOps4_2 Wv (Proc.devRef .tc main_v64) = cutb (Wv (Proc.devRef .tc main_arg4)) := by
  simp only [hostOps4_2]
  after_results
  try rfl
set_option maxHeartbeats 2000000 in
theorem s22_v32 : StableHlo.after hostOps4_2 Wv (Proc.devRef .tc main_v61) = cutW (Wv (Proc.devRef .tc main_arg5)) := by
  simp only [hostOps4_2]
  after_results
  try rfl
set_option maxHeartbeats 2000000 in
theorem s22_v36 : StableHlo.after hostOps4_2 Wv (Proc.devRef .tc main_v65) = cutb (Wv (Proc.devRef .tc main_arg6)) := by
  simp only [hostOps4_2]
  after_results
  try rfl

end Stretch

variable (m : (ℓ : Loc nD τ sig) → Buf (Elt Ideal) ℓ) (ρ : Dev nD → PrngReg) (c : Dev nD)

/-- The layer's weights as the host operations cut them out of the stacked arguments. -/
def PK : LayerP where
  We := cutWe (m ((c.tc : Thread nD τ).loc main_arg1))
  be := cutb (m ((c.tc : Thread nD τ).loc main_arg2))
  W1 := cutW (m ((c.tc : Thread nD τ).loc main_arg3))
  b1 := cutb (m ((c.tc : Thread nD τ).loc main_arg4))
  «W2» := cutW (m ((c.tc : Thread nD τ).loc main_arg5))
  b2 := cutb (m ((c.tc : Thread nD τ).loc main_arg6))

/-- The layer's input features, as the layer finds them. -/
abbrev Xin : Mat NN 128 := W8 m ρ c (Proc.devRef .tc main_v37)

/-! ## The edge projection -/

theorem We_val : W9 m ρ c (Proc.devRef .tc main_v39) = (PK m c).We :=
  (s1_We (W8 m ρ c)).trans (congrArg cutWe ((at8 m ρ c s9_arg1).trans (arg1_at1 m ρ c)))
theorem be_val : W9 m ρ c (Proc.devRef .tc main_v42) = (PK m c).be :=
  (s1_be (W8 m ρ c)).trans (congrArg cutb ((at8 m ρ c s9_arg2).trans (arg2_at1 m ρ c)))
theorem ea_val : W9 m ρ c (Proc.devRef .tc main_arg7) = eaK m c := (at9 m ρ c s9_arg7).trans (arg7_at1 m ρ c)

/-- The edge-projection region's output as the next segments find it. -/
theorem e_val : W10 m ρ c (Proc.devRef .tc main_v43) = edgeG (eaK m c) (PK m c).We (PK m c).be := by
  refine (W10_arr m ρ c 3).trans ((Region3.final (V9 m ρ) c).trans ?_)
  show edgeG (W9 m ρ c (Proc.devRef .tc main_arg7)) (W9 m ρ c (Proc.devRef .tc main_v39)) (W9 m ρ c (Proc.devRef .tc main_v42)) = _
  rw [ea_val, We_val, be_val]

/-! ## The messages -/

/-- The features' buffer is not written by the projection's stretch nor by its region. -/
theorem x_at4 : W10 m ρ c (Proc.devRef .tc main_v37) = Xin m ρ c :=
  (W10_of_ne m ρ c main_v37 (by decide)).trans (by keep_host hostOps3)

/-- The source node's features along each edge plus the edge's projection. -/
theorem v22_val : W11 m ρ c (Proc.devRef .tc main_v51)
    = addf (F := Ideal) (φ := .f32)
        (Host.gather gather_S100000x128_S600000x1_S600000x128_1_0_n_n_0_1_1128 (Xin m ρ c)
          (broadcastInDim S600000x1 ![0] bcast_S600000_S600000x1_0
            (select (cmpi .slt (srcK m c) (broadcastInDim S600000 ![] bcast_S_S600000 (constantI S_ 32 0#32)))
              (addi (srcK m c) (broadcastInDim S600000 ![] bcast_S_S600000 (constantI S_ 32 100000#32))) (srcK m c))))
        (edgeG (eaK m c) (PK m c).We (PK m c).be) := by
  refine (s2_v22 (W10 m ρ c)).trans ?_
  rw [x_at4, e_val, (at10 m ρ c s9_v1).trans (v1_at1 m ρ c)]

/-- … clipped below at 0. -/
theorem v23_val : W12 m ρ c (Proc.devRef .tc main_v52)
    = maximumf (F := Ideal) (φ := .f32)
        (addf (F := Ideal) (φ := .f32)
        (Host.gather gather_S100000x128_S600000x1_S600000x128_1_0_n_n_0_1_1128 (Xin m ρ c)
          (broadcastInDim S600000x1 ![0] bcast_S600000_S600000x1_0
            (select (cmpi .slt (srcK m c) (broadcastInDim S600000 ![] bcast_S_S600000 (constantI S_ 32 0#32)))
              (addi (srcK m c) (broadcastInDim S600000 ![] bcast_S_S600000 (constantI S_ 32 100000#32))) (srcK m c))))
        (edgeG (eaK m c) (PK m c).We (PK m c).be))
        (broadcastInDim S600000x128 ![] bcast_S_S600000x128 (constant (F := Ideal) S_ .f32 0x00000000#32)) := by
  refine (s21_v23 (W11 m ρ c)).trans ?_
  rw [v22_val]

/-- … summed over the edges into their destination rows: the aggregated messages. -/
theorem agg_val : W13 m ρ c (Proc.devRef .tc main_v55)
    = aggr gather_S100000x128_S600000x1_S600000x128_1_0_n_n_0_1_1128 scatter_S100000x128_S600000x1_S600000x128_1_0_0_1
        (Xin m ρ c) (edgeG (eaK m c) (PK m c).We (PK m c).be) (srcK m c) (dstK m c) := by
  refine (s22_v26 (W12 m ρ c)).trans ?_
  rw [v23_val, (at12 m ρ c s9_v3).trans (v3_at1 m ρ c)]
  rfl

/-! ## The dense maps' weights -/

theorem W1_val : W13 m ρ c (Proc.devRef .tc main_v57) = (PK m c).W1 :=
  (s22_v28 (W12 m ρ c)).trans (congrArg cutW ((at12 m ρ c s9_arg3).trans (arg3_at1 m ρ c)))
theorem b1_val : W13 m ρ c (Proc.devRef .tc main_v64) = (PK m c).b1 :=
  (s22_v35 (W12 m ρ c)).trans (congrArg cutb ((at12 m ρ c s9_arg4).trans (arg4_at1 m ρ c)))
theorem W2_val : W13 m ρ c (Proc.devRef .tc main_v61) = (PK m c).«W2» :=
  (s22_v32 (W12 m ρ c)).trans (congrArg cutW ((at12 m ρ c s9_arg5).trans (arg5_at1 m ρ c)))
theorem b2_val : W13 m ρ c (Proc.devRef .tc main_v65) = (PK m c).b2 :=
  (s22_v36 (W12 m ρ c)).trans (congrArg cutb ((at12 m ρ c s9_arg6).trans (arg6_at1 m ρ c)))

/-- The features' buffer is not written by the three message stretches. -/
theorem x_at7 : W13 m ρ c (Proc.devRef .tc main_v37) = Xin m ρ c :=
  ((by keep_host hostOps4_2 : W13 m ρ c (Proc.devRef .tc main_v37) = W12 m ρ c (Proc.devRef .tc main_v37)).trans
    ((by keep_host hostOps4_1 : W12 m ρ c (Proc.devRef .tc main_v37) = W11 m ρ c (Proc.devRef .tc main_v37)).trans
      (by keep_host hostOps4 : W11 m ρ c (Proc.devRef .tc main_v37) = W10 m ρ c (Proc.devRef .tc main_v37)))).trans (x_at4 m ρ c)

/-! ## The layer -/

/-- THE NODE-UPDATE REGION'S OUTPUT as the next segments find it: one layer over the features the layer found. -/
theorem layer : W14 m ρ c (Proc.devRef .tc main_v66)
    = layerG gather_S100000x128_S600000x1_S600000x128_1_0_n_n_0_1_1128 scatter_S100000x128_S600000x1_S600000x128_1_0_0_1
        (eaK m c) (srcK m c) (dstK m c) (Xin m ρ c) (PK m c) := by
  refine (W14_arr m ρ c 6).trans ((Region4.final (V13 m ρ) c).trans ?_)
  show mlpG (W13 m ρ c (Proc.devRef .tc main_v37)) (W13 m ρ c (Proc.devRef .tc main_v55)) (W13 m ρ c (Proc.devRef .tc main_v57)) (W13 m ρ c (Proc.devRef .tc main_v64))
    (W13 m ρ c (Proc.devRef .tc main_v61)) (W13 m ρ c (Proc.devRef .tc main_v65)) = _
  rw [x_at7, agg_val, W1_val, b1_val, W2_val, b2_val]
  rfl

end Cert.KernelIdeal.KLayer1

end
-- ==== Proof.Region5.lean ====
/-
  The edge projection's region: what its output array holds when the region ends.

  The grid has 75 points; point t stages rows 8000·t … 8000·t + 7999 of the edge attributes, the whole 4 × 128 weight
  matrix and the whole 1 × 128 bias row, and writes back rows 8000·t … 8000·t + 7999 of the output. The body's one store
  is, entry (p, q) of the block, the 4 attributes of block row p against column q of the weights plus the bias
  (pay_apply: the product into a zero accumulator is the plain sum, a change of float format is the identity, the bias row
  is broadcast down the rows). Row p of block t of the attributes is row 8000·t + p of the array and the two small
  windows are their arrays whole, so what point t writes back is block t of edgeG of the three arrays as the region finds
  them (flushed_eq). The 75 blocks tile the 600000 rows (cover), so the array ends at edgeG of them (final).
-/
import proofs.«424670_j1254130450544_1_alg».proof.Proof.Gen.KernelIdeal.Frame
import Idealize.ShloMosaic.Lib.Pipeline.Value
import Idealize.ShloMosaic.Lib.ValueIdx
import Idealize.ShloMosaic.PureOps.Ideal.Laws
import proofs.«424670_j1254130450544_1_alg».proof.Proof.LibPlainDot
import proofs.«424670_j1254130450544_1_alg».proof.Proof.Spec

set_option maxRecDepth 16384

noncomputable section

namespace Cert.KernelIdeal.Region5

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The edge projection at a row depends on that row of the attributes, and on the weights and the bias. -/
theorem edgeAt_congr3 {R R' : Nat} (ea : Mat R 4) (ea' : Mat R' 4) (We We' : Mat 4 128) (be be' : Mat 1 128) (p : Fin R)
    (p' : Fin R') (h : ∀ k : Fin 4, ea (ix2 p k) = ea' (ix2 p' k)) (hW : We = We') (hb : be = be') (q : Fin 128) :
    edgeAt ea We be p q = edgeAt ea' We' be' p' q := by
  subst hW hb
  exact edgeAt_congr ea ea' We be p p' h q

/-- THE BODY'S STORE at (p, q): the 4 attributes of block row p against column q of the weights, plus the bias. -/
theorem pay_apply (x0 : Vec Ideal S8000x4 .f32) (x1 : Vec Ideal S4x128 .f32) (x2 : Vec Ideal S1x128 .f32)
    (p : Fin 8000) (q : Fin 128) :
    k5_pay1 (F := Ideal) x0 x1 x2 (ix2 p q) = edgeAt x0 x1 x2 p q := by
  unfold k5_pay1 edgeAt
  refine (addf_apply _ _ (ix2 p q)).trans ?_
  congr 1
  · refine (Cert.LibPlainDot.matmul_zero_plain dot_S8000x4_S4x128_S8000x128_1_0_0_1_n_n rfl rfl rfl rfl rfl rfl none _ _ p q).trans ?_
    refine Finset.sum_congr rfl fun k _ => ?_
    rw [shapeCast_self]
    rfl
  · rw [shapeCast_self]
    exact broadcastTo_apply x2 _ (ix2 p q) (ix2 (0 : Fin 1) q) (fun a => by
      match a with
      | ⟨0, _⟩ => rfl
      | ⟨1, _⟩ => rfl)

/-- The printed index maps over the grid: the row windows are at block t, the small windows at block 0. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

set_option maxHeartbeats 2000000 in
/-- WHAT POINT t WRITES BACK is block t of edgeG of the arrays as the region finds them. -/
theorem flushed_eq (c : Dev nD) (t : Fin cfg5.N) :
    (dat5 (F := Ideal) V c).flushed 3 t
      = ((cfg5.win 3).blk t).view.read (Elt Ideal) (edgeG (V c main_arg7) (V c main_v68) (V c main_v71)) := by
  show (cfg5.win 3).cut (grid5.coords t) ((dat5 (F := Ideal) V c).after 3 t) = _
  rw [after5_3]
  unfold out5_3
  rw [View.canon_unit_zero hz]
  simp only [View.ld_unit_zero (S := S8000x4) hz, View.ld_unit_zero (S := S4x128) hz, View.ld_unit_zero (S := S1x128) hz]
  obtain ⟨e00, e01, e10, e11, e20, e21, e30, e31⟩ := idx_facts t
  have ht : t.val < 75 := t.isLt
  funext j
  obtain ⟨p, q, rfl⟩ : ∃ (p : Fin 8000) (q : Fin 128), j = ix2 p q := ⟨j 0, j 1, eq_ix2 j⟩
  have hp := p.isLt
  have hq := q.isLt
  show k5_pay1 (F := Ideal) (iblk5 V c 0 t) (iblk5 V c 1 t) (iblk5 V c 2 t) (ix2 p q)
    = edgeG (V c main_arg7) (V c main_v68) (V c main_v71) (((cfg5.win 3).blk t).view.emb (ix2 p q))
  refine (pay_apply (iblk5 V c 0 t) (iblk5 V c 1 t) (iblk5 V c 2 t) p q).trans ?_
  have hemb : ((cfg5.win 3).blk t).view.emb (ix2 p q)
      = (ix2 (⟨t.val * 8000 + p.val, by omega⟩ : Fin 600000) q : S600000x128.Idx) := by
    funext a; apply Fin.ext
    match a with
    | ⟨0, _⟩ => show win5_3.index t (0 : Fin 2) * 8000 + 1 * p.val = t.val * 8000 + p.val; omega
    | ⟨1, _⟩ => show win5_3.index t (1 : Fin 2) * 128 + 1 * q.val = q.val; omega
  rw [hemb, edgeG_apply]
  refine edgeAt_congr3 (iblk5 V c 0 t) (V c main_arg7) (iblk5 V c 1 t) (V c main_v68) (iblk5 V c 2 t) (V c main_v71)
    p ⟨t.val * 8000 + p.val, by omega⟩ (fun k => ?_) ?_ ?_ q
  · show V c main_arg7 (((cfg5.win 0).blk t).view.emb (ix2 p k)) = V c main_arg7 (ix2 (⟨t.val * 8000 + p.val, by omega⟩ : Fin 600000) k)
    refine congrArg (V c main_arg7) ?_
    funext a; apply Fin.ext
    match a with
    | ⟨0, _⟩ => show win5_0.index t (0 : Fin 2) * 8000 + 1 * p.val = t.val * 8000 + p.val; omega
    | ⟨1, _⟩ => show win5_0.index t (1 : Fin 2) * 4 + 1 * k.val = k.val; omega
  · funext y
    show V c main_v68 (((cfg5.win 1).blk t).view.emb y) = V c main_v68 y
    refine congrArg (V c main_v68) ?_
    funext a; apply Fin.ext
    match a with
    | ⟨0, _⟩ => show win5_1.index t (0 : Fin 2) * 4 + 1 * (y 0).val = (y 0).val; omega
    | ⟨1, _⟩ => show win5_1.index t (1 : Fin 2) * 128 + 1 * (y 1).val = (y 1).val; omega
  · funext y
    show V c main_v71 (((cfg5.win 2).blk t).view.emb y) = V c main_v71 y
    refine congrArg (V c main_v71) ?_
    funext a; apply Fin.ext
    match a with
    | ⟨0, _⟩ => show win5_2.index t (0 : Fin 2) * 1 + 1 * (y 0).val = (y 0).val; omega
    | ⟨1, _⟩ => show win5_2.index t (1 : Fin 2) * 128 + 1 * (y 1).val = (y 1).val; omega

/-- An index of the array is in point t's block iff each coordinate is in the block's range on its axis. -/
theorem mem_blk (t : Fin cfg5.N) (i : S600000x128.Idx) :
    i ∈ ((cfg5.win 3).blk t).view.set ↔ ∀ a : Fin 2, win5_3.index t a * S8000x128.size a ≤ (i a).val
      ∧ (i a).val < win5_3.index t a * S8000x128.size a + S8000x128.size a := by
  show i ∈ ((View.whole main_v72).slice (win5_3.rect t)).set ↔ _
  rw [View.set_slice_whole, Rect.mem_set_unit]
  exact Iff.rfl

/-- The 75 blocks of 8000 rows tile the 600000 rows: row r is in the block of point r / 8000. -/
theorem cover (i : S600000x128.Idx) :
    ∃ t : Fin cfg5.N, (cfg5.win 3).flush t = true ∧ i ∈ ((cfg5.win 3).blk t).view.set := by
  have hi0 : (i 0).val < 600000 := (i 0).isLt
  have hi1 : (i 1).val < 128 := (i 1).isLt
  refine ⟨⟨(i 0).val / 8000, by show (i 0).val / 8000 < 75; omega⟩, flush5_3 _, ?_⟩
  rw [mem_blk]
  obtain ⟨-, -, -, -, -, -, e30, e31⟩ := idx_facts ⟨(i 0).val / 8000, by show (i 0).val / 8000 < 75; omega⟩
  intro a
  match a with
  | ⟨0, _⟩ =>
    show win5_3.index ⟨(i 0).val / 8000, _⟩ (0 : Fin 2) * 8000 ≤ (i 0).val
      ∧ (i 0).val < win5_3.index ⟨(i 0).val / 8000, _⟩ (0 : Fin 2) * 8000 + 8000
    rw [e30]; show (i 0).val / 8000 * 8000 ≤ (i 0).val ∧ (i 0).val < (i 0).val / 8000 * 8000 + 8000; omega
  | ⟨1, _⟩ =>
    show win5_3.index ⟨(i 0).val / 8000, _⟩ (1 : Fin 2) * 128 ≤ (i 1).val
      ∧ (i 1).val < win5_3.index ⟨(i 0).val / 8000, _⟩ (1 : Fin 2) * 128 + 128
    rw [e31]; omega

/-- THE OUTPUT ARRAY WHEN THE REGION ENDS: edgeG of the attribute, weight and bias arrays as the region finds them. -/
theorem final (c : Dev nD) :
    (dat5 (F := Ideal) V c).arrAt 3 cfg5.N = edgeG (V c main_arg7) (V c main_v68) (V c main_v71) :=
  (dat5 (F := Ideal) V c).arrAt_eq_of_cover 3 _ (fun t _ => flushed_eq V c t) cover

end Cert.KernelIdeal.Region5

end
-- ==== Proof.Region6.lean ====
/-
  The node update's region: what its output array holds when the region ends.

  The grid has 20 points; point t stages rows 5000·t … 5000·t + 4999 of the node features and of the aggregated messages, the
  two 128 × 128 weight matrices and the two 1 × 128 bias rows whole, and writes back rows 5000·t … 5000·t + 4999 of the
  output. The body adds features and messages, multiplies by the first weights and adds the first bias (hid_apply), passes
  each entry t to t · logistic t, multiplies by the second weights and adds the second bias (pay_apply): entry (p, q) of
  the stored block is mlpAt of the staged blocks at (p, q); the products into a zero accumulator are plain sums and a
  change of float format is the identity. Row p of block t of a row window is row 5000·t + p of its array and the four
  small windows are their arrays whole, so what point t writes back is block t of mlpG of the six arrays as the region
  finds them (flushed_eq). The 20 blocks tile the 100000 rows (cover), so the array ends at mlpG of them (final).
-/
import proofs.«424670_j1254130450544_1_alg».proof.Proof.Gen.KernelIdeal.Frame
import Idealize.ShloMosaic.Lib.Pipeline.Value
import Idealize.ShloMosaic.Lib.ValueIdx
import Idealize.ShloMosaic.PureOps.Ideal.Laws
import proofs.«424670_j1254130450544_1_alg».proof.Proof.LibPlainDot
import proofs.«424670_j1254130450544_1_alg».proof.Proof.Spec

set_option maxRecDepth 16384

noncomputable section

namespace Cert.KernelIdeal.Region6

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The update of a node depends on that node's row of the features and of the messages, and on the weights. -/
theorem mlpAt_congr6 {R R' : Nat} (x agg : Mat R 128) (x' agg' : Mat R' 128) (W1 W1' : Mat 128 128) (b1 b1' : Mat 1 128)
    (W2 W2' : Mat 128 128) (b2 b2' : Mat 1 128) (p : Fin R) (p' : Fin R')
    (hx : ∀ j : Fin 128, x (ix2 p j) = x' (ix2 p' j)) (ha : ∀ j : Fin 128, agg (ix2 p j) = agg' (ix2 p' j))
    (h1 : W1 = W1') (h2 : b1 = b1') (h3 : W2 = W2') (h4 : b2 = b2') (q : Fin 128) :
    mlpAt x agg W1 b1 W2 b2 p q = mlpAt x' agg' W1' b1' W2' b2' p' q := by
  subst h1 h2 h3 h4
  exact mlpAt_congr x agg x' agg' W1 b1 W2 b2 p p' hx ha q

/-- The hidden value at (p, k): the sum of features and messages of block row p against column k of the first weights,
    plus the first bias. -/
theorem hid_apply (x0 x1 : Vec Ideal S5000x128 .f32) (x2 : Vec Ideal S128x128 .f32) (x3 : Vec Ideal S1x128 .f32)
    (p : Fin 5000) (k : Fin 128) :
    addf (F := Ideal) (φ := .f32)
        (matmul dot_S5000x128_S128x128_S5000x128_1_0_0_1_n_n none
          (truncf .bf16 (addf (F := Ideal) (φ := .f32) x0 x1) bitsLt_bf16_f32) (truncf .bf16 x2 bitsLt_bf16_f32)
          (constant S5000x128 .f32 0x00000000#32))
        (broadcastTo S5000x128 x3 broadcasts_S1x128_S5000x128) (ix2 p k)
      = hiddenAt x0 x1 x2 x3 p k := by
  refine (addf_apply _ _ (ix2 p k)).trans ?_
  unfold hiddenAt
  congr 1
  · refine (Cert.LibPlainDot.matmul_zero_plain dot_S5000x128_S128x128_S5000x128_1_0_0_1_n_n rfl rfl rfl rfl rfl rfl none _ _ p k).trans ?_
    exact Finset.sum_congr rfl fun j _ => rfl
  · exact broadcastTo_apply x3 _ (ix2 p k) (ix2 (0 : Fin 1) k) (fun a => by
      match a with
      | ⟨0, _⟩ => rfl
      | ⟨1, _⟩ => rfl)

/-- THE BODY'S STORE at (p, q): the node update of block row p, channel q. -/
theorem pay_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k6_pay1 (F := Ideal) x0 x1 x2 x3 x4 x5 (ix2 p q) = mlpAt x0 x1 x2 x3 x4 x5 p q := by
  unfold k6_pay1 mlpAt
  simp only [shapeCast_self]
  refine (addf_apply _ _ (ix2 p q)).trans ?_
  congr 1
  · refine (Cert.LibPlainDot.matmul_zero_plain dot_S5000x128_S128x128_S5000x128_1_0_0_1_n_n rfl rfl rfl rfl rfl rfl none _ _ p q).trans ?_
    refine Finset.sum_congr rfl fun k _ => ?_
    refine congrArg (· * (x4 (ix2 k q) : EReal)) ?_
    unfold silu
    rw [← hid_apply x0 x1 x2 x3 p k]
    rfl
  · exact broadcastTo_apply x5 _ (ix2 p q) (ix2 (0 : Fin 1) q) (fun a => by
      match a with
      | ⟨0, _⟩ => rfl
      | ⟨1, _⟩ => rfl)

/-- The printed index maps over the grid: the row windows are at block t, the small windows at block 0. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

set_option maxHeartbeats 2000000 in
/-- WHAT POINT t WRITES BACK is block t of mlpG of the arrays as the region finds them. -/
theorem flushed_eq (c : Dev nD) (t : Fin cfg6.N) :
    (dat6 (F := Ideal) V c).flushed 6 t
      = ((cfg6.win 6).blk t).view.read (Elt Ideal)
          (mlpG (V c main_v66) (V c main_v84) (V c main_v86) (V c main_v93) (V c main_v90) (V c main_v94)) := by
  show (cfg6.win 6).cut (grid6.coords t) ((dat6 (F := Ideal) V c).after 6 t) = _
  rw [after6_6]
  unfold out6_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61⟩ := idx_facts t
  have ht : t.val < 20 := t.isLt
  funext j
  obtain ⟨p, q, rfl⟩ : ∃ (p : Fin 5000) (q : Fin 128), j = ix2 p q := ⟨j 0, j 1, eq_ix2 j⟩
  have hp := p.isLt
  have hq := q.isLt
  show k6_pay1 (F := Ideal) (iblk6 V c 0 t) (iblk6 V c 1 t) (iblk6 V c 2 t) (iblk6 V c 3 t) (iblk6 V c 4 t) (iblk6 V c 5 t) (ix2 p q)
    = mlpG (V c main_v66) (V c main_v84) (V c main_v86) (V c main_v93) (V c main_v90) (V c main_v94)
        (((cfg6.win 6).blk t).view.emb (ix2 p q))
  refine (pay_apply (iblk6 V c 0 t) (iblk6 V c 1 t) (iblk6 V c 2 t) (iblk6 V c 3 t) (iblk6 V c 4 t) (iblk6 V c 5 t) p q).trans ?_
  have hemb : ((cfg6.win 6).blk t).view.emb (ix2 p q)
      = (ix2 (⟨t.val * 5000 + p.val, by omega⟩ : Fin 100000) q : S100000x128.Idx) := by
    funext a; apply Fin.ext
    match a with
    | ⟨0, _⟩ => show win6_6.index t (0 : Fin 2) * 5000 + 1 * p.val = t.val * 5000 + p.val; omega
    | ⟨1, _⟩ => show win6_6.index t (1 : Fin 2) * 128 + 1 * q.val = q.val; omega
  rw [hemb, mlpG_apply]
  refine mlpAt_congr6 (iblk6 V c 0 t) (iblk6 V c 1 t) (V c main_v66) (V c main_v84) (iblk6 V c 2 t) (V c main_v86)
    (iblk6 V c 3 t) (V c main_v93) (iblk6 V c 4 t) (V c main_v90) (iblk6 V c 5 t) (V c main_v94)
    p ⟨t.val * 5000 + p.val, by omega⟩ (fun k => ?_) (fun k => ?_) ?_ ?_ ?_ ?_ q
  · show V c main_v66 (((cfg6.win 0).blk t).view.emb (ix2 p k)) = V c main_v66 (ix2 (⟨t.val * 5000 + p.val, by omega⟩ : Fin 100000) k)
    refine congrArg (V c main_v66) ?_
    funext a; apply Fin.ext
    match a with
    | ⟨0, _⟩ => show win6_0.index t (0 : Fin 2) * 5000 + 1 * p.val = t.val * 5000 + p.val; omega
    | ⟨1, _⟩ => show win6_0.index t (1 : Fin 2) * 128 + 1 * k.val = k.val; omega
  · show V c main_v84 (((cfg6.win 1).blk t).view.emb (ix2 p k)) = V c main_v84 (ix2 (⟨t.val * 5000 + p.val, by omega⟩ : Fin 100000) k)
    refine congrArg (V c main_v84) ?_
    funext a; apply Fin.ext
    match a with
    | ⟨0, _⟩ => show win6_1.index t (0 : Fin 2) * 5000 + 1 * p.val = t.val * 5000 + p.val; omega
    | ⟨1, _⟩ => show win6_1.index t (1 : Fin 2) * 128 + 1 * k.val = k.val; omega
  · funext y
    show V c main_v86 (((cfg6.win 2).blk t).view.emb y) = V c main_v86 y
    refine congrArg (V c main_v86) ?_
    funext a; apply Fin.ext
    match a with
    | ⟨0, _⟩ => show win6_2.index t (0 : Fin 2) * 128 + 1 * (y 0).val = (y 0).val; omega
    | ⟨1, _⟩ => show win6_2.index t (1 : Fin 2) * 128 + 1 * (y 1).val = (y 1).val; omega
  · funext y
    show V c main_v93 (((cfg6.win 3).blk t).view.emb y) = V c main_v93 y
    refine congrArg (V c main_v93) ?_
    funext a; apply Fin.ext
    match a with
    | ⟨0, _⟩ => show win6_3.index t (0 : Fin 2) * 1 + 1 * (y 0).val = (y 0).val; omega
    | ⟨1, _⟩ => show win6_3.index t (1 : Fin 2) * 128 + 1 * (y 1).val = (y 1).val; omega
  · funext y
    show V c main_v90 (((cfg6.win 4).blk t).view.emb y) = V c main_v90 y
    refine congrArg (V c main_v90) ?_
    funext a; apply Fin.ext
    match a with
    | ⟨0, _⟩ => show win6_4.index t (0 : Fin 2) * 128 + 1 * (y 0).val = (y 0).val; omega
    | ⟨1, _⟩ => show win6_4.index t (1 : Fin 2) * 128 + 1 * (y 1).val = (y 1).val; omega
  · funext y
    show V c main_v94 (((cfg6.win 5).blk t).view.emb y) = V c main_v94 y
    refine congrArg (V c main_v94) ?_
    funext a; apply Fin.ext
    match a with
    | ⟨0, _⟩ => show win6_5.index t (0 : Fin 2) * 1 + 1 * (y 0).val = (y 0).val; omega
    | ⟨1, _⟩ => show win6_5.index t (1 : Fin 2) * 128 + 1 * (y 1).val = (y 1).val; omega

/-- An index of the array is in point t's block iff each coordinate is in the block's range on its axis. -/
theorem mem_blk (t : Fin cfg6.N) (i : S100000x128.Idx) :
    i ∈ ((cfg6.win 6).blk t).view.set ↔ ∀ a : Fin 2, win6_6.index t a * S5000x128.size a ≤ (i a).val
      ∧ (i a).val < win6_6.index t a * S5000x128.size a + S5000x128.size a := by
  show i ∈ ((View.whole main_v95).slice (win6_6.rect t)).set ↔ _
  rw [View.set_slice_whole, Rect.mem_set_unit]
  exact Iff.rfl

/-- The 20 blocks of 5000 rows tile the 100000 rows: row r is in the block of point r / 5000. -/
theorem cover (i : S100000x128.Idx) :
    ∃ t : Fin cfg6.N, (cfg6.win 6).flush t = true ∧ i ∈ ((cfg6.win 6).blk t).view.set := by
  have hi0 : (i 0).val < 100000 := (i 0).isLt
  have hi1 : (i 1).val < 128 := (i 1).isLt
  refine ⟨⟨(i 0).val / 5000, by show (i 0).val / 5000 < 20; omega⟩, flush6_6 _, ?_⟩
  rw [mem_blk]
  obtain ⟨-, -, -, -, -, -, -, -, -, -, -, -, e60, e61⟩ := idx_facts ⟨(i 0).val / 5000, by show (i 0).val / 5000 < 20; omega⟩
  intro a
  match a with
  | ⟨0, _⟩ =>
    show win6_6.index ⟨(i 0).val / 5000, _⟩ (0 : Fin 2) * 5000 ≤ (i 0).val
      ∧ (i 0).val < win6_6.index ⟨(i 0).val / 5000, _⟩ (0 : Fin 2) * 5000 + 5000
    rw [e60]; show (i 0).val / 5000 * 5000 ≤ (i 0).val ∧ (i 0).val < (i 0).val / 5000 * 5000 + 5000; omega
  | ⟨1, _⟩ =>
    show win6_6.index ⟨(i 0).val / 5000, _⟩ (1 : Fin 2) * 128 ≤ (i 1).val
      ∧ (i 1).val < win6_6.index ⟨(i 0).val / 5000, _⟩ (1 : Fin 2) * 128 + 128
    rw [e61]; omega

/-- THE OUTPUT ARRAY WHEN THE REGION ENDS: mlpG of the feature, message, weight and bias arrays as the region finds
    them. -/
theorem final (c : Dev nD) :
    (dat6 (F := Ideal) V c).arrAt 6 cfg6.N
      = mlpG (V c main_v66) (V c main_v84) (V c main_v86) (V c main_v93) (V c main_v90) (V c main_v94) :=
  (dat6 (F := Ideal) V c).arrAt_eq_of_cover 6 _ (fun t _ => flushed_eq V c t) cover

end Cert.KernelIdeal.Region6

end
-- ==== Proof.KLayer2.lean ====
/-
  One layer of the kernel program between two node-feature arrays, in terms of the launch memory.

  The layer enters with the node features X in one buffer and leaves with the updated features in another. A stretch
  of host operations cuts the layer's edge-projection weights and bias out of the stacked arguments (We_val, be_val);
  the edge-projection region then leaves edgeG of the attributes and those (e_val). The next three stretches gather
  the source node's features along each edge and add the projection (v22_val), clip below at 0 (v23_val), sum over the
  edges into the destination rows (agg_val: this is aggr) and cut the two dense maps' weights and biases out of the
  stacked arguments (W1_val … b2_val); the node-update region leaves mlpG of all these (layer): the layer is layerG.
  What a stretch leaves in a buffer it writes is read off its operations over ANY entry contents (the section Stretch);
  between the segments the features' buffer is not written (x_at4, x_at7), and the stacked arguments and the two
  edge-index rows hold what they held after the first stretch.
-/
import proofs.«424670_j1254130450544_1_alg».proof.Proof.KBase
import proofs.«424670_j1254130450544_1_alg».proof.Proof.Region5
import proofs.«424670_j1254130450544_1_alg».proof.Proof.Region6

set_option maxRecDepth 16384

noncomputable section

namespace Cert.KernelIdeal.KLayer2

open Cert.KernelIdeal Cert.KernelIdeal.Gen Cert.KernelIdeal.Keep Cert.KernelIdeal.KBase Cert.Gine
open Idealize.ShloMosaic Idealize.ShloMosaic.TcCoe Idealize.SL.Sem Idealize.ShloMosaic.StableHlo

/-! ## The layer's slices of the stacked weights -/

/-- The layer's 4 × 128 edge-projection weights out of the stack of three. -/
def cutWe (a : FVec Ideal S3x4x128 .f32) : Mat 4 128 :=
  shapeCast S4x128 (extractStridedSlice S1x4x128 ![2, 0, 0] a slices_S3x4x128_S1x4x128_2_0_0) shapeCasts_S1x4x128_S4x128
/-- The layer's 128 × 128 weights out of a stack of three. -/
def cutW (a : FVec Ideal S3x128x128 .f32) : Mat 128 128 :=
  shapeCast S128x128 (extractStridedSlice S1x128x128 ![2, 0, 0] a slices_S3x128x128_S1x128x128_2_0_0) shapeCasts_S1x128x128_S128x128
/-- The layer's bias out of a stack of three, reshaped to a vector and then to a 1 × 128 row. -/
def cutb (a : FVec Ideal S3x128 .f32) : Mat 1 128 :=
  shapeCast S1x128 (shapeCast S128 (extractStridedSlice S1x128 ![2, 0] a slices_S3x128_S1x128_2_0) shapeCasts_S1x128_S128) shapeCasts_S128_S1x128

/-! ## What each stretch leaves in the buffers it writes, over any entry contents -/

section Stretch
variable (Wv : Valuation τ sig (Elt Ideal))

set_option maxHeartbeats 2000000 in
theorem s1_We : StableHlo.after hostOps5 Wv (Proc.devRef .tc main_v68) = cutWe (Wv (Proc.devRef .tc main_arg1)) := by
  simp only [hostOps5]
  after_results
  try rfl
set_option maxHeartbeats 2000000 in
theorem s1_be : StableHlo.after hostOps5 Wv (Proc.devRef .tc main_v71) = cutb (Wv (Proc.devRef .tc main_arg2)) := by
  simp only [hostOps5]
  after_results
  try rfl

set_option maxHeartbeats 2000000 in
theorem s2_v22 : StableHlo.after hostOps6 Wv (Proc.devRef .tc main_v80)
    = addf (F := Ideal) (φ := .f32)
        (Host.gather gather_S100000x128_S600000x1_S600000x128_1_0_n_n_0_1_1128 (Wv (Proc.devRef .tc main_v66))
          (broadcastInDim S600000x1 ![0] bcast_S600000_S600000x1_0
            (select (cmpi .slt (Wv (Proc.devRef .tc main_v1)) (broadcastInDim S600000 ![] bcast_S_S600000 (constantI S_ 32 0#32)))
              (addi (Wv (Proc.devRef .tc main_v1)) (broadcastInDim S600000 ![] bcast_S_S600000 (constantI S_ 32 100000#32))) (Wv (Proc.devRef .tc main_v1)))))
        (Wv (Proc.devRef .tc main_v72)) := by
  simp only [hostOps6]
  after_results
  try rfl

set_option maxHeartbeats 2000000 in
theorem s21_v23 : StableHlo.after hostOps6_1 Wv (Proc.devRef .tc main_v81)
    = maximumf (F := Ideal) (φ := .f32) (Wv (Proc.devRef .tc main_v80))
        (broadcastInDim S600000x128 ![] bcast_S_S600000x128 (constant (F := Ideal) S_ .f32 0x00000000#32)) := by
  simp only [hostOps6_1]
  after_results
  try rfl

set_option maxHeartbeats 2000000 in
theorem s22_v26 : StableHlo.after hostOps6_2 Wv (Proc.devRef .tc main_v84)
    = Host.scatterAdd (F := Ideal) (φ := .f32) scatter_S100000x128_S600000x1_S600000x128_1_0_0_1
        (broadcastInDim S100000x128 ![] bcast_S_S100000x128 (constant (F := Ideal) S_ .f32 0x00000000#32))
        (broadcastInDim S600000x1 ![0] bcast_S600000_S600000x1_0 (Wv (Proc.devRef .tc main_v3)))
        (Wv (Proc.devRef .tc main_v81)) := by
  simp only [hostOps6_2]
  after_results
  try rfl
set_option maxHeartbeats 2000000 in
theorem s22_v28 : StableHlo.after hostOps6_2 Wv (Proc.devRef .tc main_v86) = cutW (Wv (Proc.devRef .tc main_arg3)) := by
  simp only [hostOps6_2]
  after_results
  try rfl
set_option maxHeartbeats 2000000 in
theorem s22_v35 : StableHlo.after hostOps6_2 Wv (Proc.devRef .tc main_v93) = cutb (Wv (Proc.devRef .tc main_arg4)) := by
  simp only [hostOps6_2]
  after_results
  try rfl
set_option maxHeartbeats 2000000 in
theorem s22_v32 : StableHlo.after hostOps6_2 Wv (Proc.devRef .tc main_v90) = cutW (Wv (Proc.devRef .tc main_arg5)) := by
  simp only [hostOps6_2]
  after_results
  try rfl
set_option maxHeartbeats 2000000 in
theorem s22_v36 : StableHlo.after hostOps6_2 Wv (Proc.devRef .tc main_v94) = cutb (Wv (Proc.devRef .tc main_arg6)) := by
  simp only [hostOps6_2]
  after_results
  try rfl

end Stretch

variable (m : (ℓ : Loc nD τ sig) → Buf (Elt Ideal) ℓ) (ρ : Dev nD → PrngReg) (c : Dev nD)

/-- The layer's weights as the host operations cut them out of the stacked arguments. -/
def PK : LayerP where
  We := cutWe (m ((c.tc : Thread nD τ).loc main_arg1))
  be := cutb (m ((c.tc : Thread nD τ).loc main_arg2))
  W1 := cutW (m ((c.tc : Thread nD τ).loc main_arg3))
  b1 := cutb (m ((c.tc : Thread nD τ).loc main_arg4))
  «W2» := cutW (m ((c.tc : Thread nD τ).loc main_arg5))
  b2 := cutb (m ((c.tc : Thread nD τ).loc main_arg6))

/-- The layer's input features, as the layer finds them. -/
abbrev Xin : Mat NN 128 := W14 m ρ c (Proc.devRef .tc main_v66)

/-! ## The edge projection -/

theorem We_val : W15 m ρ c (Proc.devRef .tc main_v68) = (PK m c).We :=
  (s1_We (W14 m ρ c)).trans (congrArg cutWe ((at14 m ρ c s9_arg1).trans (arg1_at1 m ρ c)))
theorem be_val : W15 m ρ c (Proc.devRef .tc main_v71) = (PK m c).be :=
  (s1_be (W14 m ρ c)).trans (congrArg cutb ((at14 m ρ c s9_arg2).trans (arg2_at1 m ρ c)))
theorem ea_val : W15 m ρ c (Proc.devRef .tc main_arg7) = eaK m c := (at15 m ρ c s9_arg7).trans (arg7_at1 m ρ c)

/-- The edge-projection region's output as the next segments find it. -/
theorem e_val : W16 m ρ c (Proc.devRef .tc main_v72) = edgeG (eaK m c) (PK m c).We (PK m c).be := by
  refine (W16_arr m ρ c 3).trans ((Region5.final (V15 m ρ) c).trans ?_)
  show edgeG (W15 m ρ c (Proc.devRef .tc main_arg7)) (W15 m ρ c (Proc.devRef .tc main_v68)) (W15 m ρ c (Proc.devRef .tc main_v71)) = _
  rw [ea_val, We_val, be_val]

/-! ## The messages -/

/-- The features' buffer is not written by the projection's stretch nor by its region. -/
theorem x_at4 : W16 m ρ c (Proc.devRef .tc main_v66) = Xin m ρ c :=
  (W16_of_ne m ρ c main_v66 (by decide)).trans (by keep_host hostOps5)

/-- The source node's features along each edge plus the edge's projection. -/
theorem v22_val : W17 m ρ c (Proc.devRef .tc main_v80)
    = addf (F := Ideal) (φ := .f32)
        (Host.gather gather_S100000x128_S600000x1_S600000x128_1_0_n_n_0_1_1128 (Xin m ρ c)
          (broadcastInDim S600000x1 ![0] bcast_S600000_S600000x1_0
            (select (cmpi .slt (srcK m c) (broadcastInDim S600000 ![] bcast_S_S600000 (constantI S_ 32 0#32)))
              (addi (srcK m c) (broadcastInDim S600000 ![] bcast_S_S600000 (constantI S_ 32 100000#32))) (srcK m c))))
        (edgeG (eaK m c) (PK m c).We (PK m c).be) := by
  refine (s2_v22 (W16 m ρ c)).trans ?_
  rw [x_at4, e_val, (at16 m ρ c s9_v1).trans (v1_at1 m ρ c)]

/-- … clipped below at 0. -/
theorem v23_val : W18 m ρ c (Proc.devRef .tc main_v81)
    = maximumf (F := Ideal) (φ := .f32)
        (addf (F := Ideal) (φ := .f32)
        (Host.gather gather_S100000x128_S600000x1_S600000x128_1_0_n_n_0_1_1128 (Xin m ρ c)
          (broadcastInDim S600000x1 ![0] bcast_S600000_S600000x1_0
            (select (cmpi .slt (srcK m c) (broadcastInDim S600000 ![] bcast_S_S600000 (constantI S_ 32 0#32)))
              (addi (srcK m c) (broadcastInDim S600000 ![] bcast_S_S600000 (constantI S_ 32 100000#32))) (srcK m c))))
        (edgeG (eaK m c) (PK m c).We (PK m c).be))
        (broadcastInDim S600000x128 ![] bcast_S_S600000x128 (constant (F := Ideal) S_ .f32 0x00000000#32)) := by
  refine (s21_v23 (W17 m ρ c)).trans ?_
  rw [v22_val]

/-- … summed over the edges into their destination rows: the aggregated messages. -/
theorem agg_val : W19 m ρ c (Proc.devRef .tc main_v84)
    = aggr gather_S100000x128_S600000x1_S600000x128_1_0_n_n_0_1_1128 scatter_S100000x128_S600000x1_S600000x128_1_0_0_1
        (Xin m ρ c) (edgeG (eaK m c) (PK m c).We (PK m c).be) (srcK m c) (dstK m c) := by
  refine (s22_v26 (W18 m ρ c)).trans ?_
  rw [v23_val, (at18 m ρ c s9_v3).trans (v3_at1 m ρ c)]
  rfl

/-! ## The dense maps' weights -/

theorem W1_val : W19 m ρ c (Proc.devRef .tc main_v86) = (PK m c).W1 :=
  (s22_v28 (W18 m ρ c)).trans (congrArg cutW ((at18 m ρ c s9_arg3).trans (arg3_at1 m ρ c)))
theorem b1_val : W19 m ρ c (Proc.devRef .tc main_v93) = (PK m c).b1 :=
  (s22_v35 (W18 m ρ c)).trans (congrArg cutb ((at18 m ρ c s9_arg4).trans (arg4_at1 m ρ c)))
theorem W2_val : W19 m ρ c (Proc.devRef .tc main_v90) = (PK m c).«W2» :=
  (s22_v32 (W18 m ρ c)).trans (congrArg cutW ((at18 m ρ c s9_arg5).trans (arg5_at1 m ρ c)))
theorem b2_val : W19 m ρ c (Proc.devRef .tc main_v94) = (PK m c).b2 :=
  (s22_v36 (W18 m ρ c)).trans (congrArg cutb ((at18 m ρ c s9_arg6).trans (arg6_at1 m ρ c)))

/-- The features' buffer is not written by the three message stretches. -/
theorem x_at7 : W19 m ρ c (Proc.devRef .tc main_v66) = Xin m ρ c :=
  ((by keep_host hostOps6_2 : W19 m ρ c (Proc.devRef .tc main_v66) = W18 m ρ c (Proc.devRef .tc main_v66)).trans
    ((by keep_host hostOps6_1 : W18 m ρ c (Proc.devRef .tc main_v66) = W17 m ρ c (Proc.devRef .tc main_v66)).trans
      (by keep_host hostOps6 : W17 m ρ c (Proc.devRef .tc main_v66) = W16 m ρ c (Proc.devRef .tc main_v66)))).trans (x_at4 m ρ c)

/-! ## The layer -/

/-- THE NODE-UPDATE REGION'S OUTPUT as the next segments find it: one layer over the features the layer found. -/
theorem layer : W20 m ρ c (Proc.devRef .tc main_v95)
    = layerG gather_S100000x128_S600000x1_S600000x128_1_0_n_n_0_1_1128 scatter_S100000x128_S600000x1_S600000x128_1_0_0_1
        (eaK m c) (srcK m c) (dstK m c) (Xin m ρ c) (PK m c) := by
  refine (W20_arr m ρ c 6).trans ((Region6.final (V19 m ρ) c).trans ?_)
  show mlpG (W19 m ρ c (Proc.devRef .tc main_v66)) (W19 m ρ c (Proc.devRef .tc main_v84)) (W19 m ρ c (Proc.devRef .tc main_v86)) (W19 m ρ c (Proc.devRef .tc main_v93))
    (W19 m ρ c (Proc.devRef .tc main_v90)) (W19 m ρ c (Proc.devRef .tc main_v94)) = _
  rw [x_at7, agg_val, W1_val, b1_val, W2_val, b2_val]
  rfl

end Cert.KernelIdeal.KLayer2

end
-- ==== Proof.KValue.lean ====
/-
  The kernel program's result in terms of the launch memory: three layers over the looked-up rows.

  Each layer's node-update region leaves layerG of the features the layer found (KLayer0.layer … KLayer2.layer), the
  features a layer finds are what the layer before left, and the first layer finds the rows the first region looked up
  (KBase.x0_val). So the result buffer at the last boundary is layerG applied three times to the looked-up rows.
-/
import proofs.«424670_j1254130450544_1_alg».proof.Proof.KLayer0
import proofs.«424670_j1254130450544_1_alg».proof.Proof.KLayer1
import proofs.«424670_j1254130450544_1_alg».proof.Proof.KLayer2

set_option maxRecDepth 16384

noncomputable section

namespace Cert.KernelIdeal.KValue

open Cert.KernelIdeal Cert.KernelIdeal.Gen Cert.KernelIdeal.KBase Cert.Gine
open Idealize.ShloMosaic Idealize.ShloMosaic.TcCoe Idealize.SL.Sem

variable (m : (ℓ : Loc nD τ sig) → Buf (Elt Ideal) ℓ) (ρ : Dev nD → PrngReg) (c : Dev nD)

/-- One layer, with this program's gather and scatter dimension numbers, attributes and edge-index rows. -/
abbrev lay (X : Mat NN 128) (P : LayerP) : Mat NN 128 :=
  layerG gather_S100000x128_S600000x1_S600000x128_1_0_n_n_0_1_1128 scatter_S100000x128_S600000x1_S600000x128_1_0_0_1
    (eaK m c) (srcK m c) (dstK m c) X P

/-- The network's value: three layers over the looked-up rows. -/
def KV : Mat NN 128 :=
  lay m c (lay m c (lay m c (lookupG (zcolK m c) (padK m c)) (KLayer0.PK m c)) (KLayer1.PK m c)) (KLayer2.PK m c)

/-- THE RESULT BUFFER AT THE LAST BOUNDARY is the network's value. -/
theorem result_val : W20 m ρ c (Proc.devRef .tc main_v95) = KV m c :=
  (KLayer2.layer m ρ c).trans (congrArg (fun X => lay m c X (KLayer2.PK m c))
    ((KLayer1.layer m ρ c).trans (congrArg (fun X => lay m c X (KLayer1.PK m c))
      ((KLayer0.layer m ρ c).trans (congrArg (fun X => lay m c X (KLayer0.PK m c)) (x0_val m ρ c))))))

end Cert.KernelIdeal.KValue

end
-- ==== Proof.SpecRef.lean ====
/-
  The reference's whole-array stages are the specification's index-by-index sums.

  The reference computes the edge projection and the two dense maps of the node update as a matrix product of whole
  arrays, plus the bias held as a 1 × 128 row and broadcast down the rows; between the two dense maps it multiplies the
  hidden array by 1 / (1 + e^(−hidden)), built from a negation, an exponential, an addition of 1 and a division, the 1
  being the 32-bit word 0x3F800000 broadcast to the array. The specification writes the same quantities at each (p, q)
  as finite sums. Read at an index, the sum of two arrays is the sum of their entries, the product of an [R, K] and a
  [K, 128] matrix is the sum over k < K of the entries' products (whatever R is, for dimension numbers that contract
  axis 1 against axis 0 with no batch axis), the broadcast row is its entry in column q (rows_apply), and the word
  0x3F800000 is the number 1, so the built expression is t · logistic t by logistic's definition. Hence the two forms
  are the same function of (p, q): edge_ref for the edge projection, mlp_ref for the node update. A bias that arrives as
  a vector of 128 is the same 1 × 128 row whether reshaped or broadcast along axis 1 (row_of_vec).
-/
import Idealize.ShloMosaic.PureOps.Ideal
import Idealize.ShloMosaic.PureOps.Ideal.Laws
import Idealize.ShloMosaic.PureOps.ShapeOps
import Idealize.ShloMosaic.PureOps.Contract
import Idealize.ShloMosaic.Lib.ValueIdx
import Idealize.ShloMosaic.Lib.Pipeline.Value
import proofs.«424670_j1254130450544_1_alg».proof.Proof.LibPlainDot
import proofs.«424670_j1254130450544_1_alg».proof.Proof.Spec

noncomputable section

open scoped BigOperators

namespace Cert.Gine

open Idealize.ShloMosaic Idealize.ShloMosaic.ValueIdx

/-- A 1 × 128 row broadcast down R rows, read at (p, q), is the row's entry q: the row axis of the operand has extent 1,
    so its coordinate is 0, and the column axis is carried over. -/
theorem rows_apply {R : Nat} (h : (⟨2, ![1, 128]⟩ : Shape).BroadcastsInDim ⟨2, ![R, 128]⟩ ![0, 1]) (b : Mat 1 128) (p : Fin R) (q : Fin 128) :
    broadcastInDim ⟨2, ![R, 128]⟩ ![0, 1] h b (ix2 p q) = b (ix2 (0 : Fin 1) q) := by
  refine broadcastInDim_apply _ h b (ix2 p q) (ix2 (0 : Fin 1) q) fun a => ?_
  match a with
  | ⟨0, _⟩ => rfl
  | ⟨1, _⟩ => rfl

/-- A vector of 128 viewed as a 1 × 128 row by a reshape is the same row as by a broadcast along axis 1: entry (0, q) of
    either is entry q of the vector (the reshape keeps the row-major position 0 · 128 + q = q; the broadcast carries
    the column over). -/
theorem row_of_vec (v : (⟨1, ![128]⟩ : Shape).Idx → EReal) (hc : (⟨1, ![128]⟩ : Shape).ShapeCasts ⟨2, ![1, 128]⟩)
    (hb : (⟨1, ![128]⟩ : Shape).BroadcastsInDim ⟨2, ![1, 128]⟩ ![1]) :
    shapeCast ⟨2, ![1, 128]⟩ v hc = broadcastInDim ⟨2, ![1, 128]⟩ ![1] hb v := by
  funext j
  obtain ⟨p, q, rfl⟩ : ∃ (p : Fin 1) (q : Fin 128), j = ix2 p q := ⟨j 0, j 1, eq_ix2 j⟩
  have hp : p.val = 0 := by omega
  have e1 : shapeCast ⟨2, ![1, 128]⟩ v hc (ix2 p q) = v (ix1 q) := by
    refine shapeCast_apply v hc (ix2 p q) (ix1 q) ?_
    rw [Shape.rowMajor_val_one, Shape.rowMajor_val_two]
    show q.val = p.val * 128 + q.val
    omega
  have e2 : broadcastInDim ⟨2, ![1, 128]⟩ ![1] hb v (ix2 p q) = v (ix1 q) := by
    refine broadcastInDim_apply _ hb v (ix2 p q) (ix1 q) fun a => ?_
    match a with
    | ⟨0, _⟩ => rfl
  exact e1.trans e2.symm

/-- The 32-bit word 0x3F800000 is the number 1. -/
private theorem one_f32 : Ideal.ofBits .f32 0x3F800000#32 = 1 := IdealRules.sign_bit.ideal_onePat .f32

/-- A dense map as the host computes it — a matrix product with the bias row broadcast down the rows added — read at
    (p, q): the sum over the K inputs of input k times weight (k, q), plus bias q. -/
private theorem dense_apply {R K : Nat} (d : DotDims ⟨2, ![R, K]⟩ ⟨2, ![K, 128]⟩ ⟨2, ![R, 128]⟩)
    (hlc : d.lhsContracting = [1]) (hrc : d.rhsContracting = [0]) (hln : d.lhsNonContracting = [0])
    (hrn : d.rhsNonContracting = [1]) (hlb : d.lhsBatch = []) (hrb : d.rhsBatch = [])
    (h : (⟨2, ![1, 128]⟩ : Shape).BroadcastsInDim ⟨2, ![R, 128]⟩ ![0, 1])
    (a : Mat R K) (W : Mat K 128) (b : Mat 1 128) (p : Fin R) (q : Fin 128) :
    addf (F := Ideal) (φ := .f32) (Host.dotGeneral (F := Ideal) (φ₁ := .f32) (φ₂ := .f32) d none a W)
        (broadcastInDim ⟨2, ![R, 128]⟩ ![0, 1] h b) (ix2 p q)
      = (∑ k : Fin K, a (ix2 p k) * W (ix2 k q)) + b (ix2 (0 : Fin 1) q) :=
  (addf_apply _ _ _).trans
    (congrArg₂ (· + ·) (Cert.LibPlainDot.dotGeneral_plain d hlc hrc hln hrn hlb hrb none .single a W p q)
      (rows_apply h b p q))

/-- The edge projection: the host's product-plus-bias is the index-by-index sum. -/
theorem edge_ref {R : Nat} (d : DotDims ⟨2, ![R, 4]⟩ ⟨2, ![4, 128]⟩ ⟨2, ![R, 128]⟩)
    (hlc : d.lhsContracting = [1]) (hrc : d.rhsContracting = [0]) (hln : d.lhsNonContracting = [0])
    (hrn : d.rhsNonContracting = [1]) (hlb : d.lhsBatch = []) (hrb : d.rhsBatch = [])
    (h : (⟨2, ![1, 128]⟩ : Shape).BroadcastsInDim ⟨2, ![R, 128]⟩ ![0, 1])
    (ea : Mat R 4) (We : Mat 4 128) (be : Mat 1 128) :
    addf (F := Ideal) (φ := .f32) (Host.dotGeneral (F := Ideal) (φ₁ := .f32) (φ₂ := .f32) d none ea We) (broadcastInDim ⟨2, ![R, 128]⟩ ![0, 1] h be)
      = edgeG ea We be := by
  funext i
  obtain ⟨p, q, rfl⟩ : ∃ (p : Fin R) (q : Fin 128), i = ix2 p q := ⟨i 0, i 1, eq_ix2 i⟩
  exact dense_apply d hlc hrc hln hrn hlb hrb h ea We be p q

/-- The unit between the two dense maps as the host spells it — t times 1 / (1 + e^(−t)), the 1 a constant word
    broadcast to the array — is t · logistic t at every index. -/
private theorem gate_apply {R : Nat} (h0 : (⟨0, ![]⟩ : Shape).BroadcastsInDim ⟨2, ![R, 128]⟩ ![]) (z : Mat R 128)
    (i : (⟨2, ![R, 128]⟩ : Shape).Idx) :
    mulf (F := Ideal) (φ := .f32) z
        (Host.divf (F := Ideal) (φ := .f32)
          (broadcastInDim ⟨2, ![R, 128]⟩ ![] h0 (constant (F := Ideal) ⟨0, ![]⟩ .f32 0x3F800000#32))
          (addf (F := Ideal) (φ := .f32)
            (broadcastInDim ⟨2, ![R, 128]⟩ ![] h0 (constant (F := Ideal) ⟨0, ![]⟩ .f32 0x3F800000#32))
            (Host.exp (F := Ideal) (φ := .f32) (Host.negf (F := Ideal) (φ := .f32) z)))) i
      = silu (z i) := by
  show z i * Ideal.div (Ideal.ofBits .f32 0x3F800000#32) (Ideal.ofBits .f32 0x3F800000#32 + Ideal.exp (-(z i)))
      = z i * Ideal.div 1 (1 + Ideal.exp (-(z i)))
  rw [one_f32]

/-- The node update with the two local names written out. -/
private theorem mlp_ref_aux {R : Nat} (d : DotDims ⟨2, ![R, 128]⟩ ⟨2, ![128, 128]⟩ ⟨2, ![R, 128]⟩)
    (hlc : d.lhsContracting = [1]) (hrc : d.rhsContracting = [0]) (hln : d.lhsNonContracting = [0])
    (hrn : d.rhsNonContracting = [1]) (hlb : d.lhsBatch = []) (hrb : d.rhsBatch = [])
    (h : (⟨2, ![1, 128]⟩ : Shape).BroadcastsInDim ⟨2, ![R, 128]⟩ ![0, 1])
    (h0 : (⟨0, ![]⟩ : Shape).BroadcastsInDim ⟨2, ![R, 128]⟩ ![])
    (x agg : Mat R 128) (W1 : Mat 128 128) (b1 : Mat 1 128) (W2 : Mat 128 128) (b2 : Mat 1 128)
    (hid : Mat R 128)
    (hhid : hid = addf (F := Ideal) (φ := .f32) (Host.dotGeneral (F := Ideal) (φ₁ := .f32) (φ₂ := .f32) d none (addf (F := Ideal) (φ := .f32) x agg) W1) (broadcastInDim ⟨2, ![R, 128]⟩ ![0, 1] h b1)) :
    addf (F := Ideal) (φ := .f32) (Host.dotGeneral (F := Ideal) (φ₁ := .f32) (φ₂ := .f32) d none
        (mulf (F := Ideal) (φ := .f32) hid
          (Host.divf (F := Ideal) (φ := .f32)
            (broadcastInDim ⟨2, ![R, 128]⟩ ![] h0 (constant (F := Ideal) ⟨0, ![]⟩ .f32 0x3F800000#32))
            (addf (F := Ideal) (φ := .f32)
              (broadcastInDim ⟨2, ![R, 128]⟩ ![] h0 (constant (F := Ideal) ⟨0, ![]⟩ .f32 0x3F800000#32))
              (Host.exp (F := Ideal) (φ := .f32) (Host.negf (F := Ideal) (φ := .f32) hid))))) W2)
        (broadcastInDim ⟨2, ![R, 128]⟩ ![0, 1] h b2)
      = mlpG x agg W1 b1 W2 b2 := by
  funext i
  obtain ⟨p, q, rfl⟩ : ∃ (p : Fin R) (q : Fin 128), i = ix2 p q := ⟨i 0, i 1, eq_ix2 i⟩
  refine (dense_apply d hlc hrc hln hrn hlb hrb h _ W2 b2 p q).trans ?_
  refine congrArg (· + b2 (ix2 (0 : Fin 1) q)) (Finset.sum_congr rfl fun k _ => ?_)
  refine congrArg (· * W2 (ix2 k q)) ?_
  refine (gate_apply h0 hid (ix2 p k)).trans ?_
  rw [hhid]
  exact congrArg silu (dense_apply d hlc hrc hln hrn hlb hrb h (addf (F := Ideal) (φ := .f32) x agg) W1 b1 p k)

/-- The node update: the host's two products-plus-bias with the sigmoid-weighted unit between them are the
    index-by-index sums. -/
theorem mlp_ref {R : Nat} (d : DotDims ⟨2, ![R, 128]⟩ ⟨2, ![128, 128]⟩ ⟨2, ![R, 128]⟩)
    (hlc : d.lhsContracting = [1]) (hrc : d.rhsContracting = [0]) (hln : d.lhsNonContracting = [0])
    (hrn : d.rhsNonContracting = [1]) (hlb : d.lhsBatch = []) (hrb : d.rhsBatch = [])
    (h : (⟨2, ![1, 128]⟩ : Shape).BroadcastsInDim ⟨2, ![R, 128]⟩ ![0, 1])
    (h0 : (⟨0, ![]⟩ : Shape).BroadcastsInDim ⟨2, ![R, 128]⟩ ![])
    (x agg : Mat R 128) (W1 : Mat 128 128) (b1 : Mat 1 128) (W2 : Mat 128 128) (b2 : Mat 1 128) :
    (let hid : FVec Ideal ⟨2, ![R, 128]⟩ .f32 := addf (F := Ideal) (φ := .f32) (Host.dotGeneral (F := Ideal) (φ₁ := .f32) (φ₂ := .f32) d none (addf (F := Ideal) (φ := .f32) x agg) W1) (broadcastInDim ⟨2, ![R, 128]⟩ ![0, 1] h b1)
     let one : FVec Ideal ⟨2, ![R, 128]⟩ .f32 := broadcastInDim ⟨2, ![R, 128]⟩ ![] h0 (constant (F := Ideal) ⟨0, ![]⟩ .f32 0x3F800000#32)
     addf (F := Ideal) (φ := .f32) (Host.dotGeneral (F := Ideal) (φ₁ := .f32) (φ₂ := .f32) d none (mulf (F := Ideal) (φ := .f32) hid (Host.divf (F := Ideal) (φ := .f32) one (addf (F := Ideal) (φ := .f32) one (Host.exp (F := Ideal) (φ := .f32) (Host.negf (F := Ideal) (φ := .f32) hid))))) W2) (broadcastInDim ⟨2, ![R, 128]⟩ ![0, 1] h b2))
      = mlpG x agg W1 b1 W2 b2 :=
  mlp_ref_aux d hlc hrc hln hrn hlb hrb h h0 x agg W1 b1 W2 b2 _ rfl

end Cert.Gine

end
-- ==== Proof.RefValue.lean ====
/-
  The reference's result as three layers over the looked-up rows.

  The reference computes, on whole arrays: the embedding rows by a gather (X0), then three times: the edge projection
  as a matrix product plus a broadcast bias, the messages by gather, add, maximum with 0 and scatter-add, and the node
  update as two matrix products with broadcast biases around t ↦ t · (1 / (1 + e^(-t))). The product-plus-bias forms are
  the index-by-index functions edgeG and mlpG (edge_ref, mlp_ref), so the run's result term is layerG applied three
  times to X0 with the three layers' weight slices (ref_value).
-/
import proofs.«424670_j1254130450544_1_alg».proof.Proof.Gen.ReferenceIdeal.Run
import proofs.«424670_j1254130450544_1_alg».proof.Proof.Spec
import proofs.«424670_j1254130450544_1_alg».proof.Proof.SpecRef

set_option maxRecDepth 16384

noncomputable section

namespace Cert.ReferenceIdeal.RefValue

open Cert.ReferenceIdeal Cert.ReferenceIdeal.Gen Cert.ReferenceIdeal.Value Cert.Gine
open Idealize.ShloMosaic Idealize.ShloMosaic.TcCoe Idealize.SL.Sem

variable (m : (ℓ : Loc nD τ sig) → Buf (Elt Ideal) ℓ) (c : Dev nD)

/-- The edge attributes, and the source and destination rows of the edge index. -/
def ea : Mat NE 4 := (m ((c.tc : Thread nD τ).loc main_arg7))
def src : IVec ⟨1, ![NE]⟩ 32 :=
  shapeCast S600000 (extractStridedSlice S1x600000 ![0, 0] (m ((c.tc : Thread nD τ).loc main_arg9)) slices_S2x600000_S1x600000_0_0) shapeCasts_S1x600000_S600000
def dst : IVec ⟨1, ![NE]⟩ 32 :=
  shapeCast S600000 (extractStridedSlice S1x600000 ![1, 0] (m ((c.tc : Thread nD τ).loc main_arg9)) slices_S2x600000_S1x600000_1_0) shapeCasts_S1x600000_S600000

/-- Layer 0's weights: slice 0 of each stacked argument, each bias lifted to a 1 × 128 row. -/
def P0 : LayerP where
  We := (shapeCast S4x128 (extractStridedSlice S1x4x128 ![0, 0, 0] (m ((c.tc : Thread nD τ).loc main_arg1)) slices_S3x4x128_S1x4x128_0_0_0) shapeCasts_S1x4x128_S4x128)
  be := broadcastInDim S1x128 ![1] bcast_S128_S1x128_1 (shapeCast S128 (extractStridedSlice S1x128 ![0, 0] (m ((c.tc : Thread nD τ).loc main_arg2)) slices_S3x128_S1x128_0_0) shapeCasts_S1x128_S128)
  W1 := (shapeCast S128x128 (extractStridedSlice S1x128x128 ![0, 0, 0] (m ((c.tc : Thread nD τ).loc main_arg3)) slices_S3x128x128_S1x128x128_0_0_0) shapeCasts_S1x128x128_S128x128)
  b1 := broadcastInDim S1x128 ![1] bcast_S128_S1x128_1 (shapeCast S128 (extractStridedSlice S1x128 ![0, 0] (m ((c.tc : Thread nD τ).loc main_arg4)) slices_S3x128_S1x128_0_0) shapeCasts_S1x128_S128)
  W2 := (shapeCast S128x128 (extractStridedSlice S1x128x128 ![0, 0, 0] (m ((c.tc : Thread nD τ).loc main_arg5)) slices_S3x128x128_S1x128x128_0_0_0) shapeCasts_S1x128x128_S128x128)
  b2 := broadcastInDim S1x128 ![1] bcast_S128_S1x128_1 (shapeCast S128 (extractStridedSlice S1x128 ![0, 0] (m ((c.tc : Thread nD τ).loc main_arg6)) slices_S3x128_S1x128_0_0) shapeCasts_S1x128_S128)

/-- Layer 1's weights: slice 1 of each stacked argument, each bias lifted to a 1 × 128 row. -/
def P1 : LayerP where
  We := (shapeCast S4x128 (extractStridedSlice S1x4x128 ![1, 0, 0] (m ((c.tc : Thread nD τ).loc main_arg1)) slices_S3x4x128_S1x4x128_1_0_0) shapeCasts_S1x4x128_S4x128)
  be := broadcastInDim S1x128 ![1] bcast_S128_S1x128_1 (shapeCast S128 (extractStridedSlice S1x128 ![1, 0] (m ((c.tc : Thread nD τ).loc main_arg2)) slices_S3x128_S1x128_1_0) shapeCasts_S1x128_S128)
  W1 := (shapeCast S128x128 (extractStridedSlice S1x128x128 ![1, 0, 0] (m ((c.tc : Thread nD τ).loc main_arg3)) slices_S3x128x128_S1x128x128_1_0_0) shapeCasts_S1x128x128_S128x128)
  b1 := broadcastInDim S1x128 ![1] bcast_S128_S1x128_1 (shapeCast S128 (extractStridedSlice S1x128 ![1, 0] (m ((c.tc : Thread nD τ).loc main_arg4)) slices_S3x128_S1x128_1_0) shapeCasts_S1x128_S128)
  W2 := (shapeCast S128x128 (extractStridedSlice S1x128x128 ![1, 0, 0] (m ((c.tc : Thread nD τ).loc main_arg5)) slices_S3x128x128_S1x128x128_1_0_0) shapeCasts_S1x128x128_S128x128)
  b2 := broadcastInDim S1x128 ![1] bcast_S128_S1x128_1 (shapeCast S128 (extractStridedSlice S1x128 ![1, 0] (m ((c.tc : Thread nD τ).loc main_arg6)) slices_S3x128_S1x128_1_0) shapeCasts_S1x128_S128)

/-- Layer 2's weights: slice 2 of each stacked argument, each bias lifted to a 1 × 128 row. -/
def P2 : LayerP where
  We := (shapeCast S4x128 (extractStridedSlice S1x4x128 ![2, 0, 0] (m ((c.tc : Thread nD τ).loc main_arg1)) slices_S3x4x128_S1x4x128_2_0_0) shapeCasts_S1x4x128_S4x128)
  be := broadcastInDim S1x128 ![1] bcast_S128_S1x128_1 (shapeCast S128 (extractStridedSlice S1x128 ![2, 0] (m ((c.tc : Thread nD τ).loc main_arg2)) slices_S3x128_S1x128_2_0) shapeCasts_S1x128_S128)
  W1 := (shapeCast S128x128 (extractStridedSlice S1x128x128 ![2, 0, 0] (m ((c.tc : Thread nD τ).loc main_arg3)) slices_S3x128x128_S1x128x128_2_0_0) shapeCasts_S1x128x128_S128x128)
  b1 := broadcastInDim S1x128 ![1] bcast_S128_S1x128_1 (shapeCast S128 (extractStridedSlice S1x128 ![2, 0] (m ((c.tc : Thread nD τ).loc main_arg4)) slices_S3x128_S1x128_2_0) shapeCasts_S1x128_S128)
  W2 := (shapeCast S128x128 (extractStridedSlice S1x128x128 ![2, 0, 0] (m ((c.tc : Thread nD τ).loc main_arg5)) slices_S3x128x128_S1x128x128_2_0_0) shapeCasts_S1x128x128_S128x128)
  b2 := broadcastInDim S1x128 ![1] bcast_S128_S1x128_1 (shapeCast S128 (extractStridedSlice S1x128 ![2, 0] (m ((c.tc : Thread nD τ).loc main_arg6)) slices_S3x128_S1x128_2_0) shapeCasts_S1x128_S128)

/-- The embedding rows, as the reference gathers them: a negative node type counted from the table's end, then clamped. -/
def X0 : Mat NN 128 :=
  Host.gather gather_S100x128_S100000x1_S100000x128_1_0_n_n_0_1_1128 (m ((c.tc : Thread nD τ).loc main_arg0))
    (broadcastInDim S100000x1 ![0] bcast_S100000_S100000x1_0
      (select (cmpi .slt (m ((c.tc : Thread nD τ).loc main_arg8)) (broadcastInDim S100000 ![] bcast_S_S100000 (constantI S_ 32 0#32)))
        (addi (m ((c.tc : Thread nD τ).loc main_arg8)) (broadcastInDim S100000 ![] bcast_S_S100000 (constantI S_ 32 100#32))) (m ((c.tc : Thread nD τ).loc main_arg8))))

/-- The edge projection's product-plus-bias is edgeG. -/
theorem hE (a : Mat NE 4) (We : Mat 4 128) (be : Mat 1 128) :
    addf (F := Ideal) (φ := .f32) (Host.dotGeneral (F := Ideal) (φ₁ := .f32) (φ₂ := .f32) dot_S600000x4_S4x128_S600000x128_1_0_0_1_n_n none a We)
        (broadcastInDim S600000x128 ![0, 1] bcast_S1x128_S600000x128_0_1 be)
      = edgeG a We be :=
  edge_ref dot_S600000x4_S4x128_S600000x128_1_0_0_1_n_n rfl rfl rfl rfl rfl rfl bcast_S1x128_S600000x128_0_1 a We be

/-- The node update's two products with biases around t ↦ t · (1 / (1 + e^(-t))) is mlpG. -/
theorem hM (x agg : Mat NN 128) (W1 : Mat 128 128) (b1 : Mat 1 128) (W2 : Mat 128 128) (b2 : Mat 1 128) :
    addf (F := Ideal) (φ := .f32)
        (Host.dotGeneral (F := Ideal) (φ₁ := .f32) (φ₂ := .f32) dot_S100000x128_S128x128_S100000x128_1_0_0_1_n_n none
          (mulf (F := Ideal) (φ := .f32)
            (addf (F := Ideal) (φ := .f32) (Host.dotGeneral (F := Ideal) (φ₁ := .f32) (φ₂ := .f32) dot_S100000x128_S128x128_S100000x128_1_0_0_1_n_n none (addf (F := Ideal) (φ := .f32) x agg) W1) (broadcastInDim S100000x128 ![0, 1] bcast_S1x128_S100000x128_0_1 b1))
            (Host.divf (F := Ideal) (φ := .f32) (broadcastInDim S100000x128 ![] bcast_S_S100000x128 (constant (F := Ideal) S_ .f32 0x3F800000#32))
              (addf (F := Ideal) (φ := .f32) (broadcastInDim S100000x128 ![] bcast_S_S100000x128 (constant (F := Ideal) S_ .f32 0x3F800000#32))
                (Host.exp (F := Ideal) (φ := .f32) (Host.negf (F := Ideal) (φ := .f32)
                  (addf (F := Ideal) (φ := .f32) (Host.dotGeneral (F := Ideal) (φ₁ := .f32) (φ₂ := .f32) dot_S100000x128_S128x128_S100000x128_1_0_0_1_n_n none (addf (F := Ideal) (φ := .f32) x agg) W1) (broadcastInDim S100000x128 ![0, 1] bcast_S1x128_S100000x128_0_1 b1)))))))
          W2)
        (broadcastInDim S100000x128 ![0, 1] bcast_S1x128_S100000x128_0_1 b2)
      = mlpG x agg W1 b1 W2 b2 :=
  mlp_ref dot_S100000x128_S128x128_S100000x128_1_0_0_1_n_n rfl rfl rfl rfl rfl rfl bcast_S1x128_S100000x128_0_1 bcast_S_S100000x128 x agg W1 b1 W2 b2

set_option maxHeartbeats 4000000 in
/-- THE REFERENCE'S RESULT: three layers over the gathered embedding rows. -/
theorem ref_value : res_main_v124 (F := Ideal) m c
    = layerG gather_S100000x128_S600000x1_S600000x128_1_0_n_n_0_1_1128 scatter_S100000x128_S600000x1_S600000x128_1_0_0_1
        (ea m c) (src m c) (dst m c)
        (layerG gather_S100000x128_S600000x1_S600000x128_1_0_n_n_0_1_1128 scatter_S100000x128_S600000x1_S600000x128_1_0_0_1
          (ea m c) (src m c) (dst m c)
          (layerG gather_S100000x128_S600000x1_S600000x128_1_0_n_n_0_1_1128 scatter_S100000x128_S600000x1_S600000x128_1_0_0_1
            (ea m c) (src m c) (dst m c) (X0 m c) (P0 m c))
          (P1 m c))
        (P2 m c) := by
  unfold res_main_v124
  rw [hE, hE, hE]
  rw [hM]
  rw [hM]
  rw [hM]
  rfl

end Cert.ReferenceIdeal.RefValue

end
-- ==== Proof.LibRows.lean ====
/-
  A row gather and a row scatter-add read at an index.

  `x[i]` along axis 0 of a matrix or of a rank-3 array is a gather whose start indices are an `[E, 1]` column of row
  numbers: the operand's axis 0 is collapsed and start-indexed, its other axes are offset axes. Result row `e` is the
  operand's row whose number is entry `e` of the column, read as a signed integer and clamped into `[0, N - 1]`
  (`gather_rows2`, `gather_rows3`).

  A segment sum along axis 0 is a scatter with an add body over the same column: the operand's axis 0 is inserted and
  indexed, the other axes are the updates' window axes. At the extended reals the result at row `n` is the operand's
  element plus the sum of the update rows `e` whose row number, read signed and NOT clamped, is `n`; a row number
  outside `[0, N)` lands nowhere and contributes nothing (`scatterAdd_rows2`, `scatterAdd_rows3`).

  Each is proved by reading the dimension numbers' index functions axis by axis: on the row axis the start is the
  column's entry and the window or offset coordinate is 0; on every other axis the start is 0 and the coordinate is
  the update's or result's own. For the scatters this gives "update `(e, c)` lands at `(n, c')` iff entry `e` is `n` and
  `c = c'`", and the filtered sum over update indices is re-indexed by the row `e` alone.
-/
import Idealize.ShloMosaic.PureOps.Ideal
import Idealize.ShloMosaic.PureOps.ShapeOps
import Idealize.ShloMosaic.PureOps.Contract
import Idealize.ShloMosaic.Lib.ValueIdx

noncomputable section

open scoped BigOperators

namespace Cert.LibRows

open Idealize.ShloMosaic Idealize.ShloMosaic.ValueIdx

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- Axis 1 of two is not axis 0. -/
theorem fin2_one_nmem : (1 : Fin 2) ∉ ([0] : List (Fin 2)) := by decide
/-- Axis 1 of three is not axis 0. -/
theorem fin3_one_nmem : (1 : Fin 3) ∉ ([0] : List (Fin 3)) := by decide
/-- Axis 2 of three is not axis 0. -/
theorem fin3_two_nmem : (2 : Fin 3) ∉ ([0] : List (Fin 3)) := by decide

/-! ## The row scatter-add over a matrix: `[N, C]` operand, `[E, 1]` row numbers, `[E, C]` updates -/

section Scatter2
variable {N C E w : Nat} (d : ScatterDims ⟨2, ![N, C]⟩ ⟨2, ![E, 1]⟩ ⟨2, ![E, C]⟩)

/-- On the row axis the window of update `(e, c)` starts at row number `e`'s entry, read signed. -/
theorem sc2_start0 (huw : d.updateWindowDims = [1]) (hsd : d.scatterDimsToOperandDims = [0])
    (hivd : d.indexVectorDim = 1) (idx : IVec ⟨2, ![E, 1]⟩ w) (j : (⟨2, ![E, C]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

/-- On the column axis, which the map does not name, the window starts at 0. -/
theorem sc2_start1 (hsd : d.scatterDimsToOperandDims = [0])
    (idx : IVec ⟨2, ![E, 1]⟩ w) (j : (⟨2, ![E, C]⟩ : Shape).Idx) :
    d.start j idx 1 = 0 := by
  unfold ScatterDims.start
  rw [dif_neg (by rw [hsd]; exact fin2_one_nmem)]

/-- The row axis is inserted: its window coordinate is 0. -/
theorem sc2_window0 (hiw : d.insertedWindowDims = [0]) (j : (⟨2, ![E, C]⟩ : Shape).Idx) :
    d.window j 0 = 0 := by
  unfold ScatterDims.window
  rw [dif_neg (by rw [ScatterDims.sKept, mem_kept, hiw]; exact fun h => h (List.mem_singleton.mpr rfl))]

/-- The column axis takes the update's column. -/
theorem sc2_window1 (huw : d.updateWindowDims = [1]) (hiw : d.insertedWindowDims = [0])
    (j : (⟨2, ![E, C]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin2_one_nmem)]
  rfl

/-- Update `(e, c)` lands at `(n, c')` exactly when row number `e`'s entry, read signed, is `n` and the columns agree;
    an entry outside `[0, N)` lands nowhere. -/
theorem sc2_resultIdx (huw : d.updateWindowDims = [1]) (hiw : d.insertedWindowDims = [0])
    (hsd : d.scatterDimsToOperandDims = [0]) (hivd : d.indexVectorDim = 1)
    (idx : IVec ⟨2, ![E, 1]⟩ w) (e : Fin E) (c : Fin C) (n : Fin N) (c' : Fin C) :
    d.resultIdx? (ix2 e c) idx = some (ix2 n c') ↔ (idx (ix2 e (0 : Fin 1))).toInt = (n.val : Int) ∧ c = c' := by
  have hs0 : d.start (ix2 e c) idx 0 = (idx (ix2 e (0 : Fin 1))).toInt := sc2_start0 d huw hsd hivd idx _
  have hs1 : d.start (ix2 e c) idx 1 = 0 := sc2_start1 d hsd idx _
  have hw0 : d.window (ix2 e c) 0 = 0 := sc2_window0 d hiw _
  have hw1 : d.window (ix2 e c) 1 = c.val := sc2_window1 d huw hiw _
  generalize (idx (ix2 e (0 : Fin 1))).toInt = z at hs0 ⊢
  have hn := n.isLt
  have hc := c.isLt
  unfold ScatterDims.resultIdx?
  split
  · next h =>
    rw [Option.some.injEq]
    constructor
    · intro hf
      have h0 : (d.start (ix2 e c) idx 0 + (d.window (ix2 e c) 0 : Int)).toNat = n.val :=
        congrArg (fun f : (⟨2, ![N, C]⟩ : Shape).Idx => (f 0).val) hf
      have h1 : (d.start (ix2 e c) idx 1 + (d.window (ix2 e c) 1 : Int)).toNat = c'.val :=
        congrArg (fun f : (⟨2, ![N, C]⟩ : Shape).Idx => (f 1).val) hf
      have h00 := (h 0).1
      rw [hs0, hw0] at h0 h00
      rw [hs1, hw1] at h1
      exact ⟨by omega, Fin.ext (by omega)⟩
    · rintro ⟨hz, rfl⟩
      funext a
      match a with
      | ⟨0, _⟩ =>
        refine Fin.ext ?_
        show (d.start (ix2 e c) idx 0 + (d.window (ix2 e c) 0 : Int)).toNat = n.val
        rw [hs0, hw0]; omega
      | ⟨1, _⟩ =>
        refine Fin.ext ?_
        show (d.start (ix2 e c) idx 1 + (d.window (ix2 e c) 1 : Int)).toNat = c.val
        rw [hs1, hw1]; omega
  · next h =>
    constructor
    · intro hf; cases hf
    · rintro ⟨hz, rfl⟩
      refine absurd ?_ h
      intro a
      match a with
      | ⟨0, _⟩ =>
        show 0 ≤ d.start (ix2 e c) idx 0 + (d.window (ix2 e c) 0 : Int)
          ∧ d.start (ix2 e c) idx 0 + (d.window (ix2 e c) 0 : Int) < (N : Int)
        rw [hs0, hw0]; omega
      | ⟨1, _⟩ =>
        show 0 ≤ d.start (ix2 e c) idx 1 + (d.window (ix2 e c) 1 : Int)
          ∧ d.start (ix2 e c) idx 1 + (d.window (ix2 e c) 1 : Int) < (C : Int)
        rw [hs1, hw1]; omega

/-- THE ROW SCATTER-ADD READ AT `(n, c)` (a segment sum over a matrix: the operand's axis 0 inserted and indexed by the
    `[E, 1]` column of row numbers, its axis 1 the updates' window axis): the operand's element plus the sum of column `c`
    of the update rows `e` whose row number, read signed, is `n`. A row number outside `[0, N)` contributes nowhere. -/
theorem scatterAdd_rows2 (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c) = x (ix2 n c)
      + ∑ e ∈ Finset.univ.filter (fun e : Fin E => (idx (ix2 e (0 : Fin 1))).toInt = (n.val : Int)), upd (ix2 e c) := by
  unfold Ideal.hostScatterAdd
  congr 1
  refine Finset.sum_bij' (fun j _ => (j 0 : Fin E)) (fun e _ => ix2 e c) ?_ ?_ ?_ ?_ ?_
  · intro j hj
    obtain ⟨e, c', rfl⟩ : ∃ (e : Fin E) (c' : Fin C), j = ix2 e c' := ⟨j 0, j 1, eq_ix2 j⟩
    exact Finset.mem_filter.2 ⟨Finset.mem_univ _,
      ((sc2_resultIdx d huw hiw hsd hivd idx e c' n c).1 (Finset.mem_filter.1 hj).2).1⟩
  · intro e he
    exact Finset.mem_filter.2 ⟨Finset.mem_univ _,
      (sc2_resultIdx d huw hiw hsd hivd idx e c n c).2 ⟨(Finset.mem_filter.1 he).2, rfl⟩⟩
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl
  · intro e _
    rfl
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl

end Scatter2

/-! ## The row scatter-add over a rank-3 array: `[N, H, K]` operand, `[E, 1]` row numbers, `[E, H, K]` updates -/

section Scatter3
variable {N H K E w : Nat} (d : ScatterDims ⟨3, ![N, H, K]⟩ ⟨2, ![E, 1]⟩ ⟨3, ![E, H, K]⟩)

/-- On the row axis the window of update `(e, h, k)` starts at row number `e`'s entry, read signed. -/
theorem sc3_start0 (huw : d.updateWindowDims = [1, 2]) (hsd : d.scatterDimsToOperandDims = [0])
    (hivd : d.indexVectorDim = 1) (idx : IVec ⟨2, ![E, 1]⟩ w) (j : (⟨3, ![E, H, K]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

/-- On axis 1, which the map does not name, the window starts at 0. -/
theorem sc3_start1 (hsd : d.scatterDimsToOperandDims = [0])
    (idx : IVec ⟨2, ![E, 1]⟩ w) (j : (⟨3, ![E, H, K]⟩ : Shape).Idx) :
    d.start j idx 1 = 0 := by
  unfold ScatterDims.start
  rw [dif_neg (by rw [hsd]; exact fin3_one_nmem)]

/-- On axis 2, which the map does not name, the window starts at 0. -/
theorem sc3_start2 (hsd : d.scatterDimsToOperandDims = [0])
    (idx : IVec ⟨2, ![E, 1]⟩ w) (j : (⟨3, ![E, H, K]⟩ : Shape).Idx) :
    d.start j idx 2 = 0 := by
  unfold ScatterDims.start
  rw [dif_neg (by rw [hsd]; exact fin3_two_nmem)]

/-- The row axis is inserted: its window coordinate is 0. -/
theorem sc3_window0 (hiw : d.insertedWindowDims = [0]) (j : (⟨3, ![E, H, K]⟩ : Shape).Idx) :
    d.window j 0 = 0 := by
  unfold ScatterDims.window
  rw [dif_neg (by rw [ScatterDims.sKept, mem_kept, hiw]; exact fun h => h (List.mem_singleton.mpr rfl))]

/-- Axis 1 takes the update's coordinate on its axis 1. -/
theorem sc3_window1 (huw : d.updateWindowDims = [1, 2]) (hiw : d.insertedWindowDims = [0])
    (j : (⟨3, ![E, H, K]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin3_one_nmem)]
  rfl

/-- Axis 2 takes the update's coordinate on its axis 2. -/
theorem sc3_window2 (huw : d.updateWindowDims = [1, 2]) (hiw : d.insertedWindowDims = [0])
    (j : (⟨3, ![E, H, K]⟩ : Shape).Idx) :
    d.window j 2 = (j 2).val := by
  obtain ⟨uw, iw, sd, ivd, wf⟩ := d
  simp only at huw hiw
  subst huw hiw
  unfold ScatterDims.window
  rw [dif_pos (by rw [ScatterDims.sKept, mem_kept]; exact fin3_two_nmem)]
  rfl

/-- Update `(e, h, k)` lands at `(n, h', k')` exactly when row number `e`'s entry, read signed, is `n` and the other two
    coordinates agree; an entry outside `[0, N)` lands nowhere. -/
theorem sc3_resultIdx (huw : d.updateWindowDims = [1, 2]) (hiw : d.insertedWindowDims = [0])
    (hsd : d.scatterDimsToOperandDims = [0]) (hivd : d.indexVectorDim = 1)
    (idx : IVec ⟨2, ![E, 1]⟩ w) (e : Fin E) (h : Fin H) (k : Fin K) (n : Fin N) (h' : Fin H) (k' : Fin K) :
    d.resultIdx? (ix3 e h k) idx = some (ix3 n h' k')
      ↔ (idx (ix2 e (0 : Fin 1))).toInt = (n.val : Int) ∧ h = h' ∧ k = k' := by
  have hs0 : d.start (ix3 e h k) idx 0 = (idx (ix2 e (0 : Fin 1))).toInt := sc3_start0 d huw hsd hivd idx _
  have hs1 : d.start (ix3 e h k) idx 1 = 0 := sc3_start1 d hsd idx _
  have hs2 : d.start (ix3 e h k) idx 2 = 0 := sc3_start2 d hsd idx _
  have hw0 : d.window (ix3 e h k) 0 = 0 := sc3_window0 d hiw _
  have hw1 : d.window (ix3 e h k) 1 = h.val := sc3_window1 d huw hiw _
  have hw2 : d.window (ix3 e h k) 2 = k.val := sc3_window2 d huw hiw _
  generalize (idx (ix2 e (0 : Fin 1))).toInt = z at hs0 ⊢
  have hn := n.isLt
  have hh := h.isLt
  have hk := k.isLt
  unfold ScatterDims.resultIdx?
  split
  · next hin =>
    rw [Option.some.injEq]
    constructor
    · intro hf
      have h0 : (d.start (ix3 e h k) idx 0 + (d.window (ix3 e h k) 0 : Int)).toNat = n.val :=
        congrArg (fun f : (⟨3, ![N, H, K]⟩ : Shape).Idx => (f 0).val) hf
      have h1 : (d.start (ix3 e h k) idx 1 + (d.window (ix3 e h k) 1 : Int)).toNat = h'.val :=
        congrArg (fun f : (⟨3, ![N, H, K]⟩ : Shape).Idx => (f 1).val) hf
      have h2 : (d.start (ix3 e h k) idx 2 + (d.window (ix3 e h k) 2 : Int)).toNat = k'.val :=
        congrArg (fun f : (⟨3, ![N, H, K]⟩ : Shape).Idx => (f 2).val) hf
      have h00 := (hin 0).1
      rw [hs0, hw0] at h0 h00
      rw [hs1, hw1] at h1
      rw [hs2, hw2] at h2
      exact ⟨by omega, Fin.ext (by omega), Fin.ext (by omega)⟩
    · rintro ⟨hz, rfl, rfl⟩
      funext a
      match a with
      | ⟨0, _⟩ =>
        refine Fin.ext ?_
        show (d.start (ix3 e h k) idx 0 + (d.window (ix3 e h k) 0 : Int)).toNat = n.val
        rw [hs0, hw0]; omega
      | ⟨1, _⟩ =>
        refine Fin.ext ?_
        show (d.start (ix3 e h k) idx 1 + (d.window (ix3 e h k) 1 : Int)).toNat = h.val
        rw [hs1, hw1]; omega
      | ⟨2, _⟩ =>
        refine Fin.ext ?_
        show (d.start (ix3 e h k) idx 2 + (d.window (ix3 e h k) 2 : Int)).toNat = k.val
        rw [hs2, hw2]; omega
  · next hin =>
    constructor
    · intro hf; cases hf
    · rintro ⟨hz, rfl, rfl⟩
      refine absurd ?_ hin
      intro a
      match a with
      | ⟨0, _⟩ =>
        show 0 ≤ d.start (ix3 e h k) idx 0 + (d.window (ix3 e h k) 0 : Int)
          ∧ d.start (ix3 e h k) idx 0 + (d.window (ix3 e h k) 0 : Int) < (N : Int)
        rw [hs0, hw0]; omega
      | ⟨1, _⟩ =>
        show 0 ≤ d.start (ix3 e h k) idx 1 + (d.window (ix3 e h k) 1 : Int)
          ∧ d.start (ix3 e h k) idx 1 + (d.window (ix3 e h k) 1 : Int) < (H : Int)
        rw [hs1, hw1]; omega
      | ⟨2, _⟩ =>
        show 0 ≤ d.start (ix3 e h k) idx 2 + (d.window (ix3 e h k) 2 : Int)
          ∧ d.start (ix3 e h k) idx 2 + (d.window (ix3 e h k) 2 : Int) < (K : Int)
        rw [hs2, hw2]; omega

/-- THE ROW SCATTER-ADD READ AT `(n, h, k)` (a segment sum over a rank-3 array: the operand's axis 0 inserted and indexed
    by the `[E, 1]` column of row numbers, its axes 1 and 2 the updates' window axes): the operand's element plus the sum
    of entry `(h, k)` of the update rows `e` whose row number, read signed, is `n`. A row number outside `[0, N)`
    contributes nowhere. -/
theorem scatterAdd_rows3 (huw : d.updateWindowDims = [1, 2]) (hiw : d.insertedWindowDims = [0])
    (hsd : d.scatterDimsToOperandDims = [0]) (hivd : d.indexVectorDim = 1)
    (x : (⟨3, ![N, H, K]⟩ : Shape).Idx → EReal) (idx : IVec ⟨2, ![E, 1]⟩ w)
    (upd : (⟨3, ![E, H, K]⟩ : Shape).Idx → EReal) (n : Fin N) (h : Fin H) (k : Fin K) :
    Ideal.hostScatterAdd d x idx upd (ix3 n h k) = x (ix3 n h k)
      + ∑ e ∈ Finset.univ.filter (fun e : Fin E => (idx (ix2 e (0 : Fin 1))).toInt = (n.val : Int)), upd (ix3 e h k) := by
  unfold Ideal.hostScatterAdd
  congr 1
  refine Finset.sum_bij' (fun j _ => (j 0 : Fin E)) (fun e _ => ix3 e h k) ?_ ?_ ?_ ?_ ?_
  · intro j hj
    obtain ⟨e, h', k', rfl⟩ : ∃ (e : Fin E) (h' : Fin H) (k' : Fin K), j = ix3 e h' k' := ⟨j 0, j 1, j 2, eq_ix3 j⟩
    exact Finset.mem_filter.2 ⟨Finset.mem_univ _,
      ((sc3_resultIdx d huw hiw hsd hivd idx e h' k' n h k).1 (Finset.mem_filter.1 hj).2).1⟩
  · intro e he
    exact Finset.mem_filter.2 ⟨Finset.mem_univ _,
      (sc3_resultIdx d huw hiw hsd hivd idx e h k n h k).2 ⟨(Finset.mem_filter.1 he).2, rfl, rfl⟩⟩
  · intro j hj
    obtain ⟨e, h', k', rfl⟩ : ∃ (e : Fin E) (h' : Fin H) (k' : Fin K), j = ix3 e h' k' := ⟨j 0, j 1, j 2, eq_ix3 j⟩
    obtain ⟨-, rfl, rfl⟩ := (sc3_resultIdx d huw hiw hsd hivd idx e h' k' n h k).1 (Finset.mem_filter.1 hj).2
    rfl
  · intro e _
    rfl
  · intro j hj
    obtain ⟨e, h', k', rfl⟩ : ∃ (e : Fin E) (h' : Fin H) (k' : Fin K), j = ix3 e h' k' := ⟨j 0, j 1, j 2, eq_ix3 j⟩
    obtain ⟨-, rfl, rfl⟩ := (sc3_resultIdx d huw hiw hsd hivd idx e h' k' n h k).1 (Finset.mem_filter.1 hj).2
    rfl

end Scatter3

/-! ## The row gather from a matrix: `[N, C]` operand, `[E, 1]` row numbers, `[E, C]` result -/

section Gather2
variable {N C E w : Nat} (d : GatherDims ⟨2, ![N, C]⟩ ⟨2, ![E, 1]⟩ ⟨2, ![E, C]⟩)

/-- On the row axis the slice of result `(e, c)` starts at row number `e`'s entry, read signed and clamped into
    `[0, N - 1]`. -/
theorem g2_start0 (hoff : d.offsetDims = [1]) (hcoll : d.collapsedSliceDims = [0])
    (hsim : d.startIndexMap = [0]) (hivd : d.indexVectorDim = 1)
    (idx : IVec ⟨2, ![E, 1]⟩ w) (j : (⟨2, ![E, C]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- On the column axis, which the start index map does not name, the slice starts at 0. -/
theorem g2_start1 (hsim : d.startIndexMap = [0]) (idx : IVec ⟨2, ![E, 1]⟩ w) (j : (⟨2, ![E, C]⟩ : Shape).Idx) :
    d.start j idx 1 = 0 := by
  unfold GatherDims.start
  rw [dif_neg (by rw [hsim]; exact fin2_one_nmem)]

/-- The row axis is collapsed: its offset coordinate is 0. -/
theorem g2_off0 (hcoll : d.collapsedSliceDims = [0]) (j : (⟨2, ![E, C]⟩ : Shape).Idx) :
    d.offCoord j 0 = 0 :=
  d.offCoord_eq_zero j 0 fun h => ((d.mem_sKept 0).1 h).1 (by rw [hcoll]; exact List.mem_singleton.mpr rfl)

/-- The column axis takes the result's column. -/
theorem g2_off1 (hoff : d.offsetDims = [1]) (hcoll : d.collapsedSliceDims = [0]) (hob : d.operandBatchingDims = [])
    (j : (⟨2, ![E, C]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin2_one_nmem, List.not_mem_nil⟩)]
  rfl

end Gather2

/-- THE ROW GATHER READ AT `(e, c)` (`x[i]` of a matrix: the operand's axis 0 collapsed and indexed by the `[E, 1]` column
    of row numbers, its axis 1 an offset axis): column `c` of the operand's row whose number is entry `e` of the column,
    read signed and clamped into `[0, N - 1]`. -/
theorem gather_rows2 {α : Type} {N C E w : Nat} (hN : 0 < N) (d : GatherDims ⟨2, ![N, C]⟩ ⟨2, ![E, 1]⟩ ⟨2, ![E, C]⟩)
    (hoff : d.offsetDims = [1]) (hcoll : d.collapsedSliceDims = [0])
    (hob : d.operandBatchingDims = []) (hsim : d.startIndexMap = [0]) (hivd : d.indexVectorDim = 1)
    (x : (⟨2, ![N, C]⟩ : Shape).Idx → α) (idx : IVec ⟨2, ![E, 1]⟩ w) (e : Fin E) (c : Fin C) :
    Host.gather d x idx (ix2 e c)
      = x (ix2 ⟨min (idx (ix2 e (0 : Fin 1))).toInt.toNat (N - 1), by omega⟩ c) := by
  have hb : ∀ a, d.batchCoord (ix2 e c) a = 0 := fun a =>
    d.batchCoord_eq_zero _ a (by rw [hob]; exact List.not_mem_nil)
  unfold Host.gather
  congr 1
  funext a
  refine Fin.ext ?_
  match a with
  | ⟨0, _⟩ =>
    show d.start (ix2 e c) idx 0 + d.batchCoord (ix2 e c) 0 + d.offCoord (ix2 e c) 0 = _
    rw [hb, g2_off0 d hcoll, g2_start0 d hoff hcoll hsim hivd]
    rfl
  | ⟨1, _⟩ =>
    show d.start (ix2 e c) idx 1 + d.batchCoord (ix2 e c) 1 + d.offCoord (ix2 e c) 1 = _
    rw [hb, g2_off1 d hoff hcoll hob, g2_start1 d hsim]
    show 0 + 0 + c.val = c.val
    omega

/-! ## The row gather from a rank-3 array: `[N, H, K]` operand, `[E, 1]` row numbers, `[E, H, K]` result -/

section Gather3
variable {N H K E w : Nat} (d : GatherDims ⟨3, ![N, H, K]⟩ ⟨2, ![E, 1]⟩ ⟨3, ![E, H, K]⟩)

/-- On the row axis the slice of result `(e, h, k)` starts at row number `e`'s entry, read signed and clamped into
    `[0, N - 1]`. -/
theorem g3_start0 (hoff : d.offsetDims = [1, 2]) (hcoll : d.collapsedSliceDims = [0])
    (hsim : d.startIndexMap = [0]) (hivd : d.indexVectorDim = 1)
    (idx : IVec ⟨2, ![E, 1]⟩ w) (j : (⟨3, ![E, H, K]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- On axis 1, which the start index map does not name, the slice starts at 0. -/
theorem g3_start1 (hsim : d.startIndexMap = [0]) (idx : IVec ⟨2, ![E, 1]⟩ w) (j : (⟨3, ![E, H, K]⟩ : Shape).Idx) :
    d.start j idx 1 = 0 := by
  unfold GatherDims.start
  rw [dif_neg (by rw [hsim]; exact fin3_one_nmem)]

/-- On axis 2, which the start index map does not name, the slice starts at 0. -/
theorem g3_start2 (hsim : d.startIndexMap = [0]) (idx : IVec ⟨2, ![E, 1]⟩ w) (j : (⟨3, ![E, H, K]⟩ : Shape).Idx) :
    d.start j idx 2 = 0 := by
  unfold GatherDims.start
  rw [dif_neg (by rw [hsim]; exact fin3_two_nmem)]

/-- The row axis is collapsed: its offset coordinate is 0. -/
theorem g3_off0 (hcoll : d.collapsedSliceDims = [0]) (j : (⟨3, ![E, H, K]⟩ : Shape).Idx) :
    d.offCoord j 0 = 0 :=
  d.offCoord_eq_zero j 0 fun h => ((d.mem_sKept 0).1 h).1 (by rw [hcoll]; exact List.mem_singleton.mpr rfl)

/-- Axis 1 takes the result's coordinate on its axis 1. -/
theorem g3_off1 (hoff : d.offsetDims = [1, 2]) (hcoll : d.collapsedSliceDims = [0]) (hob : d.operandBatchingDims = [])
    (j : (⟨3, ![E, H, K]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin3_one_nmem, List.not_mem_nil⟩)]
  rfl

/-- Axis 2 takes the result's coordinate on its axis 2. -/
theorem g3_off2 (hoff : d.offsetDims = [1, 2]) (hcoll : d.collapsedSliceDims = [0]) (hob : d.operandBatchingDims = [])
    (j : (⟨3, ![E, H, K]⟩ : Shape).Idx) :
    d.offCoord j 2 = (j 2).val := by
  obtain ⟨od, cd, ob, sb, sm, ivd, ss, wf⟩ := d
  simp only at hoff hcoll hob
  subst hoff hcoll hob
  unfold GatherDims.offCoord
  rw [dif_pos (by rw [GatherDims.mem_sKept]; exact ⟨fin3_two_nmem, List.not_mem_nil⟩)]
  rfl

end Gather3

/-- THE ROW GATHER READ AT `(e, h, k)` (`x[i]` of a rank-3 array: the operand's axis 0 collapsed and indexed by the
    `[E, 1]` column of row numbers, its axes 1 and 2 offset axes): entry `(h, k)` of the operand's row whose number is entry
    `e` of the column, read signed and clamped into `[0, N - 1]`. -/
theorem gather_rows3 {α : Type} {N H K E w : Nat} (hN : 0 < N)
    (d : GatherDims ⟨3, ![N, H, K]⟩ ⟨2, ![E, 1]⟩ ⟨3, ![E, H, K]⟩)
    (hoff : d.offsetDims = [1, 2]) (hcoll : d.collapsedSliceDims = [0])
    (hob : d.operandBatchingDims = []) (hsim : d.startIndexMap = [0]) (hivd : d.indexVectorDim = 1)
    (x : (⟨3, ![N, H, K]⟩ : Shape).Idx → α) (idx : IVec ⟨2, ![E, 1]⟩ w) (e : Fin E) (h : Fin H) (k : Fin K) :
    Host.gather d x idx (ix3 e h k)
      = x (ix3 ⟨min (idx (ix2 e (0 : Fin 1))).toInt.toNat (N - 1), by omega⟩ h k) := by
  have hb : ∀ a, d.batchCoord (ix3 e h k) a = 0 := fun a =>
    d.batchCoord_eq_zero _ a (by rw [hob]; exact List.not_mem_nil)
  unfold Host.gather
  congr 1
  funext a
  refine Fin.ext ?_
  match a with
  | ⟨0, _⟩ =>
    show d.start (ix3 e h k) idx 0 + d.batchCoord (ix3 e h k) 0 + d.offCoord (ix3 e h k) 0 = _
    rw [hb, g3_off0 d hcoll, g3_start0 d hoff hcoll hsim hivd]
    rfl
  | ⟨1, _⟩ =>
    show d.start (ix3 e h k) idx 1 + d.batchCoord (ix3 e h k) 1 + d.offCoord (ix3 e h k) 1 = _
    rw [hb, g3_off1 d hoff hcoll hob, g3_start1 d hsim]
    show 0 + 0 + h.val = h.val
    omega
  | ⟨2, _⟩ =>
    show d.start (ix3 e h k) idx 2 + d.batchCoord (ix3 e h k) 2 + d.offCoord (ix3 e h k) 2 = _
    rw [hb, g3_off2 d hoff hcoll hob, g3_start2 d hsim]
    show 0 + 0 + k.val = k.val
    omega

end Cert.LibRows

end
-- ==== Proof.LibSetRows.lean ====
/-
  A leading block of rows overwritten, read at an index.

  Writing an [R, C] matrix u over rows 0 … R-1 of an [N, C] matrix x (R ≤ N) is a scatter with ONE start index, the
  one-element vector holding 0: both axes of u are window axes, no operand axis is inserted, the start index names
  the row axis, and the scatter's body returns the update. Update (r, c) therefore lands at (0 + r, c): distinct updates
  land at distinct places, every one inside the operand. A fold of such updates, in whatever order, leaves at a place
  that exactly one update names that update's value (foldl_hit) and at a place none names the operand's own
  (foldl_miss). So the result at (r, c) with r < R is u (r, c) (setRows_lt), and at a row r ≥ R it is x (r, c)
  (setRows_ge).
-/
import Idealize.ShloMosaic.PureOps.ShapeOps
import Idealize.ShloMosaic.Lib.ValueIdx

namespace Cert.LibSetRows

open Idealize.ShloMosaic Idealize.ShloMosaic.ValueIdx

/-! ## A fold of point updates -/

section Fold
variable {ι κ α : Type} [DecidableEq κ] (g : ι → Option κ) (upd : ι → α) (step : (κ → α) → ι → κ → α)
  (h1 : ∀ r n i', g n = some i' → ∀ i, step r n i = if i = i' then upd n else r i)
  (h2 : ∀ r n, g n = none → step r n = r)

include h1 h2 in
/-- A place no update of the list names keeps what it held. -/
theorem foldl_miss (i : κ) : ∀ (L : List ι) (x : κ → α), (∀ n ∈ L, g n ≠ some i) → L.foldl step x i = x i := by
  intro L
  induction L with
  | nil => intro x _; rfl
  | cons a L ih =>
    intro x hmiss
    rw [List.foldl_cons, ih (step x a) fun n hn => hmiss n (List.mem_cons_of_mem _ hn)]
    cases hga : g a with
    | none => rw [h2 x a hga]
    | some i' =>
      rw [h1 x a i' hga i, if_neg]
      intro hii
      exact hmiss a List.mem_cons_self (by rw [hii]; exact hga)

include h1 h2 in
/-- A place exactly one update of the list names ends at that update's value. -/
theorem foldl_hit (i : κ) : ∀ (L : List ι) (x : κ → α) (n₀ : ι), n₀ ∈ L → g n₀ = some i →
    (∀ n ∈ L, g n = some i → n = n₀) → L.foldl step x i = upd n₀ := by
  intro L
  induction L with
  | nil => intro x n₀ hmem; cases hmem
  | cons a L ih =>
    intro x n₀ hmem hg huniq
    rw [List.foldl_cons]
    by_cases hL : n₀ ∈ L
    · exact ih (step x a) n₀ hL hg fun n hn => huniq n (List.mem_cons_of_mem _ hn)
    · have ha : n₀ = a := (List.mem_cons.mp hmem).resolve_right hL
      subst ha
      rw [foldl_miss g upd step h1 h2 i L (step x n₀) fun n hn hgn =>
        hL (by rw [← huniq n (List.mem_cons_of_mem _ hn) hgn]; exact hn)]
      rw [h1 x n₀ i hg i, if_pos rfl]

end Fold

/-! ## The dimension numbers of a block of leading rows, axis by axis -/

section Dims
variable {N C R w : Nat} (d : ScatterDims ⟨2, ![N, C]⟩ ⟨1, ![1]⟩ ⟨2, ![R, C]⟩)

/-- An axis is kept exactly when it is not among the removed ones. -/
private theorem mem_kept {s : Shape} (axes : List (Fin s.rank)) (a : Fin s.rank) : a ∈ s.kept axes ↔ a ∉ axes := by
  simp [Shape.kept, List.mem_filter, List.mem_finRange]

/-- Axis 1 of two is not axis 0. -/
private theorem fin2_one_nmem : (1 : Fin 2) ∉ ([0] : List (Fin 2)) := by decide

/-- On the row axis every window starts at the one start index's entry, read signed. -/
theorem start0 (hsd : d.scatterDimsToOperandDims = [0]) (hivd : d.indexVectorDim = 0)
    (idx : IVec ⟨1, ![1]⟩ w) (j : (⟨2, ![R, C]⟩ : Shape).Idx) :
    d.start j idx 0 = (idx (ix1 (0 : Fin 1))).toInt := by
  obtain ⟨uw, iw, sd, ivd, wf⟩ := d
  simp only at hsd hivd
  subst hsd hivd
  unfold ScatterDims.start
  rw [dif_pos (List.mem_singleton.mpr rfl)]
  congr 2
  funext b
  match b with
  | ⟨0, _⟩ => exact Subsingleton.elim (α := Fin 1) _ _

/-- On the column axis, which the start index does not name, every window starts at 0. -/
theorem start1 (hsd : d.scatterDimsToOperandDims = [0]) (idx : IVec ⟨1, ![1]⟩ w) (j : (⟨2, ![R, C]⟩ : Shape).Idx) :
    d.start j idx 1 = 0 := by
  unfold ScatterDims.start
  rw [dif_neg (by rw [hsd]; exact fin2_one_nmem)]

/-- The row axis takes the update's row. -/
theorem window0 (huw : d.updateWindowDims = [0, 1]) (hiw : d.insertedWindowDims = [])
    (j : (⟨2, ![R, C]⟩ : Shape).Idx) : d.window j 0 = (j 0).val := by
  obtain ⟨uw, iw, sd, ivd, wf⟩ := d
  simp only at huw hiw
  subst huw hiw
  unfold ScatterDims.window
  rw [dif_pos (by rw [ScatterDims.sKept, mem_kept]; exact List.not_mem_nil)]
  rfl

/-- The column axis takes the update's column. -/
theorem window1 (huw : d.updateWindowDims = [0, 1]) (hiw : d.insertedWindowDims = [])
    (j : (⟨2, ![R, C]⟩ : Shape).Idx) : d.window j 1 = (j 1).val := by
  obtain ⟨uw, iw, sd, ivd, wf⟩ := d
  simp only at huw hiw
  subst huw hiw
  unfold ScatterDims.window
  rw [dif_pos (by rw [ScatterDims.sKept, mem_kept]; exact List.not_mem_nil)]
  rfl

/-- With the start index at 0 and R ≤ N, update (r, c) lands at (r, c). -/
theorem resultIdx (hR : R ≤ N) (huw : d.updateWindowDims = [0, 1]) (hiw : d.insertedWindowDims = [])
    (hsd : d.scatterDimsToOperandDims = [0]) (hivd : d.indexVectorDim = 0)
    (idx : IVec ⟨1, ![1]⟩ w) (hidx : (idx (ix1 (0 : Fin 1))).toInt = 0) (r : Fin R) (c : Fin C) :
    d.resultIdx? (ix2 r c) idx = some (ix2 (Fin.castLE hR r) c) := by
  have hs0 : d.start (ix2 r c) idx 0 = 0 := (start0 d hsd hivd idx _).trans hidx
  have hs1 : d.start (ix2 r c) idx 1 = 0 := start1 d hsd idx _
  have hw0 : d.window (ix2 r c) 0 = r.val := window0 d huw hiw _
  have hw1 : d.window (ix2 r c) 1 = c.val := window1 d huw hiw _
  have hr := r.isLt
  have hc := c.isLt
  unfold ScatterDims.resultIdx?
  rw [dif_pos]
  · rw [Option.some.injEq]
    funext a
    match a with
    | ⟨0, _⟩ =>
      refine Fin.ext ?_
      show (d.start (ix2 r c) idx 0 + (d.window (ix2 r c) 0 : Int)).toNat = r.val
      rw [hs0, hw0]; omega
    | ⟨1, _⟩ =>
      refine Fin.ext ?_
      show (d.start (ix2 r c) idx 1 + (d.window (ix2 r c) 1 : Int)).toNat = c.val
      rw [hs1, hw1]; omega
  · intro a
    match a with
    | ⟨0, _⟩ =>
      show 0 ≤ d.start (ix2 r c) idx 0 + (d.window (ix2 r c) 0 : Int)
        ∧ d.start (ix2 r c) idx 0 + (d.window (ix2 r c) 0 : Int) < (N : Int)
      rw [hs0, hw0]; omega
    | ⟨1, _⟩ =>
      show 0 ≤ d.start (ix2 r c) idx 1 + (d.window (ix2 r c) 1 : Int)
        ∧ d.start (ix2 r c) idx 1 + (d.window (ix2 r c) 1 : Int) < (C : Int)
      rw [hs1, hw1]; omega

/-- THE OVERWRITTEN ROWS: at (r, c) with r < R the result holds the update's element (r, c). -/
theorem setRows_lt {α : Type} (hR : R ≤ N) (huw : d.updateWindowDims = [0, 1]) (hiw : d.insertedWindowDims = [])
    (hsd : d.scatterDimsToOperandDims = [0]) (hivd : d.indexVectorDim = 0)
    (x : (⟨2, ![N, C]⟩ : Shape).Idx → α) (idx : IVec ⟨1, ![1]⟩ w) (hidx : (idx (ix1 (0 : Fin 1))).toInt = 0)
    (upd : (⟨2, ![R, C]⟩ : Shape).Idx → α) (r : Fin R) (c : Fin C) :
    Host.scatter d (fun _ b => b) x idx upd (ix2 (Fin.castLE hR r) c) = upd (ix2 r c) := by
  unfold Host.scatter
  refine (foldl_hit (fun n => d.resultIdx? ((⟨2, ![R, C]⟩ : Shape).rowMajor.symm n) idx)
    (fun n => upd ((⟨2, ![R, C]⟩ : Shape).rowMajor.symm n)) _ ?_ ?_
    (ix2 (Fin.castLE hR r) c) (List.finRange (⟨2, ![R, C]⟩ : Shape).numel) x
    ((⟨2, ![R, C]⟩ : Shape).rowMajor (ix2 r c)) (List.mem_finRange _) ?_ ?_).trans ?_
  · intro rr n i' hg i
    simp only [hg]
  · intro rr n hg
    simp only [hg]
  · rw [Equiv.symm_apply_apply]
    exact resultIdx d hR huw hiw hsd hivd idx hidx r c
  · intro n _ hn
    obtain ⟨r', c', hrc⟩ : ∃ (r' : Fin R) (c' : Fin C), (⟨2, ![R, C]⟩ : Shape).rowMajor.symm n = ix2 r' c' :=
      ⟨_, _, eq_ix2 _⟩
    rw [hrc, resultIdx d hR huw hiw hsd hivd idx hidx r' c', Option.some.injEq] at hn
    have e0 : r'.val = r.val := congrArg (fun f : (⟨2, ![N, C]⟩ : Shape).Idx => (f 0).val) hn
    have e1 : c'.val = c.val := congrArg (fun f : (⟨2, ![N, C]⟩ : Shape).Idx => (f 1).val) hn
    obtain rfl : r' = r := Fin.ext e0
    obtain rfl : c' = c := Fin.ext e1
    rw [← hrc, Equiv.apply_symm_apply]
  · rw [Equiv.symm_apply_apply]

end Dims

end Cert.LibSetRows
-- ==== Proof.Embed.lean ====
/-
  The embedding lookup: an indicator sum against a zero-padded table equals a wrapped, clamped row gather.

  One program reads row z r of the 100 × 128 embedding table as a sum over the 128 rows k of a padded table of
  [z r = k] · padded (k, q), where the padded table is the embedding table written over rows 0 … 99 of a 128 × 128
  array of zeros. The other program reads the row by a gather: the row number is first wrapped (a negative number
  counts from the end, z + 100) and the gather then clamps it into [0, 99]. When every row number lies in [0, 100)
  nothing is wrapped and nothing is clamped, the indicator is 1 at exactly the row z r < 100 of the padded table,
  which is the embedding table's own row, and the two results coincide entry by entry.
-/
import Idealize.ShloMosaic.PureOps.Ideal
import Idealize.ShloMosaic.PureOps.ShapeOps
import Idealize.ShloMosaic.Lib.ValueIdx
import Idealize.ShloMosaic.Lib.Pipeline.Value
import proofs.«424670_j1254130450544_1_alg».proof.Proof.LibRows
import proofs.«424670_j1254130450544_1_alg».proof.Proof.LibSetRows
import proofs.«424670_j1254130450544_1_alg».proof.Proof.Spec

noncomputable section

open scoped BigOperators

namespace Cert.Gine

open Idealize.ShloMosaic Idealize.ShloMosaic.ValueIdx

/-! ## Words and the numbers they name -/

/-- A word whose signed reading is a natural number n is the word of n. -/
private theorem word_eq_ofNat (zv : BitVec 32) (h0 : 0 ≤ zv.toInt) : zv = BitVec.ofNat 32 zv.toInt.toNat := by
  refine BitVec.eq_of_toNat_eq ?_
  have hlt := zv.isLt
  rw [BitVec.toNat_ofNat]
  rw [BitVec.toInt_eq_toNat_cond] at h0 ⊢
  split at h0 <;> split <;> omega

/-- The words of two different numbers below 2 ^ 32 are different. -/
private theorem ofNat_ne {a b : Nat} (ha : a < 4294967296) (hb : b < 4294967296) (h : a ≠ b) :
    BitVec.ofNat 32 a ≠ BitVec.ofNat 32 b := by
  intro he
  have := congrArg BitVec.toNat he
  rw [BitVec.toNat_ofNat, BitVec.toNat_ofNat] at this
  omega

/-- The indicator is 1 at the word's own number and 0 at every other. -/
private theorem hot_eq (zv : BitVec 32) (k : Nat) : hot zv k = if zv = BitVec.ofNat 32 k then 1 else 0 := by
  show ((((BitVec.ofBool (zv == BitVec.ofNat 32 k)).setWidth 32).toInt : ℝ) : EReal) = _
  by_cases h : zv = BitVec.ofNat 32 k
  · rw [if_pos h, show (zv == BitVec.ofNat 32 k) = true from beq_iff_eq.mpr h]
    rw [show ((BitVec.ofBool true).setWidth 32).toInt = 1 by decide]
    norm_num
  · rw [if_neg h, show (zv == BitVec.ofNat 32 k) = false from beq_eq_false_iff_ne.mpr h]
    rw [show ((BitVec.ofBool false).setWidth 32).toInt = 0 by decide]
    norm_num

/-- The indicator sum against a table of at most 2 ^ 32 rows is the table's row the word names. -/
private theorem lookupAt_eq {V : Nat} (hV : V ≤ 4294967296) (zv : BitVec 32) (tbl : Mat V 128) (q : Fin 128)
    (n : Fin V) (hzv : zv = BitVec.ofNat 32 n.val) : lookupAt zv tbl q = tbl (ix2 n q) := by
  unfold lookupAt
  rw [Finset.sum_eq_single n]
  · rw [hot_eq, if_pos hzv, one_mul]
  · intro k _ hk
    have hne : zv ≠ BitVec.ofNat 32 k.val := by
      rw [hzv]
      exact ofNat_ne (by have := n.isLt; omega) (by have := k.isLt; omega) (fun h => hk (Fin.ext h.symm))
    rw [hot_eq, if_neg hne, zero_mul]
  · intro hn
    exact absurd (Finset.mem_univ n) hn

/-- A signed compare of a non-negative word with 0 is false. -/
private theorem slt_zero_of_nonneg (a : BitVec 32) (h : 0 ≤ a.toInt) : IntOp.cmpi .slt a 0#32 = 0#1 := by
  show BitVec.ofBool (a.slt 0#32) = 0#1
  have hf : a.slt 0#32 = false := by
    rw [Bool.eq_false_iff]
    intro hs
    rw [BitVec.slt_iff_toInt_lt] at hs
    have h00 : (0#32 : BitVec 32).toInt = 0 := by decide
    omega
  rw [hf]
  rfl

/-! ## The two lookups agree -/

/-- With every row number in [0, 100), the indicator sum against the embedding table padded with zero rows to 128
    rows equals, entry by entry, the gather from the embedding table at the wrapped and then clamped row number. -/
theorem embed_eq
    (gd : GatherDims ⟨2, ![100, 128]⟩ ⟨2, ![NN, 1]⟩ ⟨2, ![NN, 128]⟩)
    (hoff : gd.offsetDims = [1]) (hcoll : gd.collapsedSliceDims = [0]) (hob : gd.operandBatchingDims = [])
    (hsim : gd.startIndexMap = [0]) (hivd : gd.indexVectorDim = 1)
    (sd : ScatterDims ⟨2, ![128, 128]⟩ ⟨1, ![1]⟩ ⟨2, ![100, 128]⟩)
    (huw : sd.updateWindowDims = [0, 1]) (hiw : sd.insertedWindowDims = []) (hsd : sd.scatterDimsToOperandDims = [0])
    (hivd' : sd.indexVectorDim = 0)
    (z : IVec ⟨1, ![NN]⟩ 32) (hz : ∀ r : Fin NN, 0 ≤ (z (ix1 r)).toInt ∧ (z (ix1 r)).toInt < 100)
    (emb : Mat 100 128)
    (hc : (⟨1, ![NN]⟩ : Shape).ShapeCasts ⟨2, ![NN, 1]⟩)
    (hb0 : (⟨0, ![]⟩ : Shape).BroadcastsInDim ⟨2, ![128, 128]⟩ ![])
    (hb1 : (⟨0, ![]⟩ : Shape).BroadcastsInDim ⟨1, ![1]⟩ ![])
    (hb2 : (⟨1, ![NN]⟩ : Shape).BroadcastsInDim ⟨2, ![NN, 1]⟩ ![0])
    (hb3 : (⟨0, ![]⟩ : Shape).BroadcastsInDim ⟨1, ![NN]⟩ ![]) :
    lookupG (shapeCast ⟨2, ![NN, 1]⟩ z hc)
        (Host.scatter sd (fun _ b => b)
          (broadcastInDim ⟨2, ![128, 128]⟩ ![] hb0 (constant (F := Ideal) ⟨0, ![]⟩ .f32 0x00000000#32))
          (broadcastInDim ⟨1, ![1]⟩ ![] hb1 (constantI ⟨0, ![]⟩ 32 0#32)) emb)
      = Host.gather gd emb (broadcastInDim ⟨2, ![NN, 1]⟩ ![0] hb2
          (select (cmpi .slt z (broadcastInDim ⟨1, ![NN]⟩ ![] hb3 (constantI ⟨0, ![]⟩ 32 0#32)))
            (addi z (broadcastInDim ⟨1, ![NN]⟩ ![] hb3 (constantI ⟨0, ![]⟩ 32 100#32))) z)) := by
  funext i
  obtain ⟨r, q, rfl⟩ : ∃ (r : Fin NN) (q : Fin 128), i = ix2 r q := ⟨i 0, i 1, eq_ix2 i⟩
  obtain ⟨h0, h100⟩ := hz r
  -- the row number, as a natural number below 100
  have hn : (z (ix1 r)).toInt.toNat < 100 := by omega
  have hword : z (ix1 r) = BitVec.ofNat 32 (z (ix1 r)).toInt.toNat := word_eq_ofNat _ h0
  -- the kernel's side: the column of words at (r, 0) is entry r, and the indicator sum picks its row of the padded table
  have hcast : shapeCast ⟨2, ![NN, 1]⟩ z hc (ix2 r (0 : Fin 1)) = z (ix1 r) :=
    shapeCast_apply z hc (ix2 r (0 : Fin 1)) (ix1 r) (by
      rw [Shape.rowMajor_val_one, Shape.rowMajor_val_two]
      show r.val = r.val * 1 + 0
      omega)
  have hleft := lookupAt_eq (V := 128) (by decide) (z (ix1 r))
    (Host.scatter sd (fun _ b => b)
      (broadcastInDim ⟨2, ![128, 128]⟩ ![] hb0 (constant (F := Ideal) ⟨0, ![]⟩ .f32 0x00000000#32))
      (broadcastInDim ⟨1, ![1]⟩ ![] hb1 (constantI ⟨0, ![]⟩ 32 0#32)) emb)
    q ⟨(z (ix1 r)).toInt.toNat, by omega⟩ hword
  -- that row of the padded table is the embedding table's own
  have hset := Cert.LibSetRows.setRows_lt sd (by decide : 100 ≤ 128) huw hiw hsd hivd'
    (broadcastInDim ⟨2, ![128, 128]⟩ ![] hb0 (constant (F := Ideal) ⟨0, ![]⟩ .f32 0x00000000#32))
    (broadcastInDim ⟨1, ![1]⟩ ![] hb1 (constantI ⟨0, ![]⟩ 32 0#32))
    (show (0#32 : BitVec 32).toInt = 0 by decide) emb ⟨(z (ix1 r)).toInt.toNat, hn⟩ q
  -- the reference's side: the index column at (r, 0) is the wrapped entry r, which is entry r itself
  have hidx : broadcastInDim ⟨2, ![NN, 1]⟩ ![0] hb2
      (select (cmpi .slt z (broadcastInDim ⟨1, ![NN]⟩ ![] hb3 (constantI ⟨0, ![]⟩ 32 0#32)))
        (addi z (broadcastInDim ⟨1, ![NN]⟩ ![] hb3 (constantI ⟨0, ![]⟩ 32 100#32))) z) (ix2 r (0 : Fin 1))
      = z (ix1 r) := by
    refine (broadcastInDim_apply ![0] hb2 _ (ix2 r (0 : Fin 1)) (ix1 r) ?_).trans ?_
    · intro a
      match a with
      | ⟨0, _⟩ =>
        show r.val = if NN = 1 then 0 else r.val
        rw [if_neg (show ¬ (NN = 1) by decide)]
    · rw [select_apply]
      show Scalar.select (IntOp.cmpi .slt (z (ix1 r)) 0#32) _ _ = _
      rw [slt_zero_of_nonneg _ h0, select_zero]
  have hright := Cert.LibRows.gather_rows2 (by decide : 0 < 100) gd hoff hcoll hob hsim hivd emb
    (broadcastInDim ⟨2, ![NN, 1]⟩ ![0] hb2
      (select (cmpi .slt z (broadcastInDim ⟨1, ![NN]⟩ ![] hb3 (constantI ⟨0, ![]⟩ 32 0#32)))
        (addi z (broadcastInDim ⟨1, ![NN]⟩ ![] hb3 (constantI ⟨0, ![]⟩ 32 100#32))) z)) r q
  rw [lookupG_apply, hcast, hleft, hright]
  refine hset.trans (congrArg (fun k => emb (ix2 k q)) (Fin.ext ?_))
  show (z (ix1 r)).toInt.toNat = min _ (100 - 1)
  rw [hidx]
  omega

end Cert.Gine

end
-- ==== Proof.Bridge.lean ====
/-
  The two programs compute one value.

  With the two memories agreeing on the arguments, the reference's three layers (RefValue.ref_value) and the kernel's
  (KValue.KV) are layerG of the same attributes, edge-index rows and weights: the two programs' dimension numbers are the
  same records, their weight slices the same slices, and a bias vector reshaped to a row is the same row as that vector
  broadcast to a row (row_of_vec). They start from the same features when every node type lies in [0, 100): there the
  indicator sum against the zero-padded table reads the very row the reference's wrapped and clamped gather reads
  (embed_eq). So the reference's result is the kernel's (bridge).
-/
import proofs.«424670_j1254130450544_1_alg».proof.Proof.KValue
import proofs.«424670_j1254130450544_1_alg».proof.Proof.RefValue
import proofs.«424670_j1254130450544_1_alg».proof.Proof.Embed
import proofs.«424670_j1254130450544_1_alg».proof.Proof.SpecRef

set_option maxRecDepth 16384

noncomputable section

namespace Cert.Bridge

open Cert.Gine Cert.KernelIdeal.KBase Cert.KernelIdeal.KValue
open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

set_option maxHeartbeats 2000000 in
/-- THE REFERENCE'S RESULT IS THE KERNEL'S, from memories agreeing on the arguments, when every node type is a row number of
    the embedding table. -/
theorem bridge
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (hz : ∀ r : Fin 100000, 0 ≤ ((m ((c.tc : Thread Cert.KernelIdeal.nD Cert.KernelIdeal.τ).loc Cert.KernelIdeal.main_arg8)) (ix1 r)).toInt ∧ ((m ((c.tc : Thread Cert.KernelIdeal.nD Cert.KernelIdeal.τ).loc Cert.KernelIdeal.main_arg8)) (ix1 r)).toInt < 100) :
    Cert.ReferenceIdeal.Value.res_main_v124 (F := Ideal) m' c = KV m c := by
  obtain ⟨h0, h1, h2, h3, h4, h5, h6, h7, h8, h9, h10⟩ := hagree
  have eEa : Cert.ReferenceIdeal.RefValue.ea m' c = eaK m c := by
    unfold Cert.ReferenceIdeal.RefValue.ea eaK; exact h7
  have eSrc : Cert.ReferenceIdeal.RefValue.src m' c = srcK m c := by
    unfold Cert.ReferenceIdeal.RefValue.src srcK; rw [h9]
  have eDst : Cert.ReferenceIdeal.RefValue.dst m' c = dstK m c := by
    unfold Cert.ReferenceIdeal.RefValue.dst dstK; rw [h9]
  have eP0 : Cert.ReferenceIdeal.RefValue.P0 m' c = Cert.KernelIdeal.KLayer0.PK m c := by
    unfold Cert.ReferenceIdeal.RefValue.P0 Cert.KernelIdeal.KLayer0.PK
    rw [h1, h2, h3, h4, h5, h6]
    simp only [LayerP.mk.injEq]
    exact ⟨rfl, (row_of_vec _ _ _).symm, rfl, (row_of_vec _ _ _).symm, rfl, (row_of_vec _ _ _).symm⟩
  have eP1 : Cert.ReferenceIdeal.RefValue.P1 m' c = Cert.KernelIdeal.KLayer1.PK m c := by
    unfold Cert.ReferenceIdeal.RefValue.P1 Cert.KernelIdeal.KLayer1.PK
    rw [h1, h2, h3, h4, h5, h6]
    simp only [LayerP.mk.injEq]
    exact ⟨rfl, (row_of_vec _ _ _).symm, rfl, (row_of_vec _ _ _).symm, rfl, (row_of_vec _ _ _).symm⟩
  have eP2 : Cert.ReferenceIdeal.RefValue.P2 m' c = Cert.KernelIdeal.KLayer2.PK m c := by
    unfold Cert.ReferenceIdeal.RefValue.P2 Cert.KernelIdeal.KLayer2.PK
    rw [h1, h2, h3, h4, h5, h6]
    simp only [LayerP.mk.injEq]
    exact ⟨rfl, (row_of_vec _ _ _).symm, rfl, (row_of_vec _ _ _).symm, rfl, (row_of_vec _ _ _).symm⟩
  have eX0 : Cert.ReferenceIdeal.RefValue.X0 m' c = lookupG (zcolK m c) (padK m c) := by
    unfold Cert.ReferenceIdeal.RefValue.X0 zcolK padK
    rw [h0, h8]
    exact (embed_eq Cert.ReferenceIdeal.gather_S100x128_S100000x1_S100000x128_1_0_n_n_0_1_1128 rfl rfl rfl rfl rfl
      Cert.KernelIdeal.scatter_S128x128_S1_S100x128_01_n_0_0 rfl rfl rfl rfl (m ((c.tc : Thread Cert.KernelIdeal.nD Cert.KernelIdeal.τ).loc Cert.KernelIdeal.main_arg8)) hz (m ((c.tc : Thread Cert.KernelIdeal.nD Cert.KernelIdeal.τ).loc Cert.KernelIdeal.main_arg0))
      _ _ _ _ _).symm
  rw [Cert.ReferenceIdeal.RefValue.ref_value, eEa, eSrc, eDst, eP0, eP1, eP2, eX0]
  rfl

end Cert.Bridge

end
-- ==== Proof.PreRange.lean ====
/-
  The node-type indices lie in [0, 100).

  The precondition is one bit: a conjunction whose last two conjuncts say that every entry of the index array z
  (the ninth argument) is at least 0 and below 100, both read as signed 32-bit integers. Each of the two is a
  conjunction over all 100000 entries of an elementwise comparison of z with a constant array. Assuming the whole bit
  is 1, the outer conjunction gives that each of the two is 1; a conjunction over all entries that is 1 has a 1 at every
  entry; and a signed comparison that is 1 at entry r says exactly 0 ≤ z[r], respectively z[r] < 100, since the constant
  array reads 0, respectively 100, at every entry.
-/
import proofs.«424670_j1254130450544_1_alg».proof.Pre_finite_inputs
import proofs.«424670_j1254130450544_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

namespace Cert.Gine

open Idealize.ShloMosaic

/-- Every entry of the index array is a signed integer in [0, 100) once the precondition bit is 1. -/
theorem z_range [Cert.Pre_finite_inputs.Facts]
    (a0 : FVec Ideal Cert.Pre_finite_inputs.S100x128 .f32) (a1 : FVec Ideal Cert.Pre_finite_inputs.S3x4x128 .f32)
    (a2 : FVec Ideal Cert.Pre_finite_inputs.S3x128 .f32) (a3 : FVec Ideal Cert.Pre_finite_inputs.S3x128x128 .f32)
    (a4 : FVec Ideal Cert.Pre_finite_inputs.S3x128 .f32) (a5 : FVec Ideal Cert.Pre_finite_inputs.S3x128x128 .f32)
    (a6 : FVec Ideal Cert.Pre_finite_inputs.S3x128 .f32) (a7 : FVec Ideal Cert.Pre_finite_inputs.S600000x4 .f32)
    (a8 : IVec Cert.Pre_finite_inputs.S100000 32) (a9 : IVec Cert.Pre_finite_inputs.S2x600000 32)
    (a10 : IVec Cert.Pre_finite_inputs.S100000 32)
    (h : Cert.Pre_finite_inputs.fn (F := Ideal) a0 a1 a2 a3 a4 a5 a6 a7 a8 a9 a10 = fun _ => 1#1) :
    ∀ r : Fin 100000, 0 ≤ (a8 (Idealize.ShloMosaic.ValueIdx.ix1 r)).toInt ∧ (a8 (Idealize.ShloMosaic.ValueIdx.ix1 r)).toInt < 100 := by
  intro r
  -- a rank-0 array has exactly one index
  haveI : Subsingleton Cert.Pre_finite_inputs.S_.Idx := ⟨fun a b => funext fun d => d.elim0⟩
  have h0 := congrFun h ValueIdx.ix0
  -- the bit is ((floats ∧ all (z ≥ 0)) ∧ all (z < 100)): split it from the outside
  unfold Cert.Pre_finite_inputs.fn Cert.Pre_finite_inputs.fn_part1 Cert.Pre_finite_inputs.fn_part2 at h0
  obtain ⟨h42, h45⟩ := IntOp.andi_eq_one.1 h0
  obtain ⟨-, h41⟩ := IntOp.andi_eq_one.1 h42
  -- a conjunction over all entries that is 1 has a 1 at entry r
  have hge := Host.reduce_andi_all _ _ _ _ _ h41 (ValueIdx.ix1 r)
  have hlt := Host.reduce_andi_all _ _ _ _ _ h45 (ValueIdx.ix1 r)
  -- the comparisons at entry r, against constant arrays reading 0 and 100
  have hge' : (0#32 : BitVec 32).toInt ≤ (a8 (ValueIdx.ix1 r)).toInt := IntOp.cmpi_sge.1 hge
  have hlt' : (a8 (ValueIdx.ix1 r)).toInt < (100#32 : BitVec 32).toInt := IntOp.cmpi_slt.1 hlt
  rw [show (0#32 : BitVec 32).toInt = 0 from by decide] at hge'
  rw [show (100#32 : BitVec 32).toInt = 100 from by decide] at hlt'
  exact ⟨hge', hlt'⟩

end Cert.Gine
-- ==== Proof.lean ====
/-
  A graph network with edge-conditioned messages, as a tiled kernel program and as plain array code: the two compute
  the same node features over the extended reals.

  Both programs look each node's 128 features up in a 100-row embedding table and then apply three layers. A layer
  projects the 4 attributes of each of the 600000 edges to 128 channels (a matrix product plus a bias), gathers the
  source node's features along each edge, adds the projection, clips below at 0 and sums the result over the edges
  into their destination nodes, then adds that sum to each node's own features and applies two dense maps with the unit
  t ↦ t · logistic t between them.

  The kernel program runs the lookup, each edge projection and each node update as a tiled region (seven regions) and
  leaves the gather, the clipping and the scatter-add to the same host operations the reference uses. Region by region
  the output array is the index-by-index function of the region's input arrays that the reference's whole-array
  operations compute (blocks of rows of a matrix product are the same sums; a change of float format is the identity
  over the reals; the sigmoid the kernel applies is the quotient 1 / (1 + e^(-t)) the reference spells). The one
  difference is the lookup: the kernel multiplies a one-hot matrix by the table padded with zero rows, the reference
  gathers with a wrapped and clamped index. They agree exactly when every node type is a row number of the table, which
  the precondition states (0 ≤ z < 100); outside it the reference's own index is out of range.

  The frames of the two kernel programs are the generated ones; the reference's frame is its generated run with the
  result dropped; no operation was rewritten by the idealization, so there is nothing to preserve. The value claim takes
  the kernel's run with its result buffer named (KernelRun), reads that buffer back through the twenty segments to three
  layers over the looked-up rows (KValue), reads the reference's result term as the same three layers over the gathered
  rows (RefValue), and joins the two (Bridge).
-/
import proofs.«424670_j1254130450544_1_alg».proof.Defs
import proofs.«424670_j1254130450544_1_alg».proof.Proof.Gen.Kernel
import proofs.«424670_j1254130450544_1_alg».proof.Proof.Gen.Kernel.Frame
import proofs.«424670_j1254130450544_1_alg».proof.Proof.Gen.KernelIdeal
import proofs.«424670_j1254130450544_1_alg».proof.Proof.Gen.KernelIdeal.Frame
import proofs.«424670_j1254130450544_1_alg».proof.Proof.Gen.ReferenceIdeal
import proofs.«424670_j1254130450544_1_alg».proof.Proof.Gen.ReferenceIdeal.Run
import proofs.«424670_j1254130450544_1_alg».proof.Proof.Gen.Pre_finite_inputs
import proofs.«424670_j1254130450544_1_alg».proof.Proof.KernelRun
import proofs.«424670_j1254130450544_1_alg».proof.Proof.KValue
import proofs.«424670_j1254130450544_1_alg».proof.Proof.RefValue
import proofs.«424670_j1254130450544_1_alg».proof.Proof.Bridge
import proofs.«424670_j1254130450544_1_alg».proof.Proof.PreRange
import Idealize.ShloMosaic.Adequacy
import Idealize.ShloMosaic.Init

noncomputable section

namespace Cert.Proof

open Idealize.ShloMosaic Idealize.SL.Sem

/-- The kernel program as printed terminates without a fault and leaves its arguments unchanged. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments, with every node type a row number of the embedding table, both programs end
    with the network's value in their result buffers, the node-to-graph vector passed through, and their arguments unchanged. -/
theorem algebraic : Cert.algebraic_KernelIdeal_ReferenceIdeal := by
  intro m g m' g' hpre hagree
  have hz : ∀ c : Dev Cert.KernelIdeal.nD, ∀ r : Fin 100000,
      0 ≤ ((m ((c.tc : Thread Cert.KernelIdeal.nD Cert.KernelIdeal.τ).loc Cert.KernelIdeal.main_arg8)) (ValueIdx.ix1 r)).toInt
        ∧ ((m ((c.tc : Thread Cert.KernelIdeal.nD Cert.KernelIdeal.τ).loc Cert.KernelIdeal.main_arg8)) (ValueIdx.ix1 r)).toInt < 100 :=
    fun c => Cert.Gine.z_range _ _ _ _ _ _ _ _ _ _ _ (hpre c)
  refine ⟨fun c => Cert.KernelIdeal.KValue.KV m c,
    fun c => m ((c.tc : Thread Cert.KernelIdeal.nD Cert.KernelIdeal.τ).loc Cert.KernelIdeal.main_arg10), ?_, ?_⟩
  · exact (θ_run Cert.KernelIdeal.defs _ _).mono
      (fun r h c => ⟨(h c).1.trans (Cert.KernelIdeal.KValue.result_val m g c), (h c).2.2.2.2.2.2.2.2.2.2.2, (h c).2⟩)
      (Cert.KernelIdeal.RunNamed.run_named m g)
  · exact (θ_run Cert.ReferenceIdeal.defs _ _).mono
      (fun r h c => ⟨(h c).1.trans (Cert.Bridge.bridge m m' c (hagree c) (hz c)),
        (h c).2.1.trans (hagree c).2.2.2.2.2.2.2.2.2.2, (h c).2.2⟩)
      (Cert.ReferenceIdeal.Value.run (F := Ideal) m' g')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
